-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x483 : Shape := ⟨2, ![20000, 483]⟩
abbrev S27x3 : Shape := ⟨2, ![27, 3]⟩
abbrev S_ : Shape := ⟨0, ![]⟩

class Facts : Prop where
  bcast_S_S20000x483 : S_.BroadcastsInDim S20000x483 (![] : Fin 0 → Fin S20000x483.rank)
  reducesTo_S20000x483_S_d0_1 : S20000x483.ReducesTo [0, 1] S_
  h_S_ : 0 < S_.numel
  bcast_S_S27x3 : S_.BroadcastsInDim S27x3 (![] : Fin 0 → Fin S27x3.rank)
  reducesTo_S27x3_S_d0_1 : S27x3.ReducesTo [0, 1] S_

variable [Facts]

def fn {F : FTy → Type} [FloatOps F] (main_arg0 : FVec F S20000x483 .f32) (main_arg1 : FVec F S27x3 .f32) : IVec S_ 1 :=
  let main_v0 : FVec F S20000x483 .f32 := Host.absf main_arg0
  let main_cst : FVec F S_ .f32 := constant S_ .f32 0x7F800000#32
  let main_v1 : FVec F S20000x483 .f32 := broadcastInDim S20000x483 ![] bcast_S_S20000x483 main_cst
  let main_v2 : IVec S20000x483 1 := cmpf .olt main_v0 main_v1
  let main_c : IVec S_ 1 := constantI S_ 1 1#1
  let main_v3 : IVec S_ 1 := (fun x v => Host.reduce IntOp.andi x v reducesTo_S20000x483_S_d0_1 h_S_) main_v2 main_c
  let main_v4 : FVec F S27x3 .f32 := Host.absf main_arg1
  let main_cst_0 : FVec F S_ .f32 := constant S_ .f32 0x7F800000#32
  let main_v5 : FVec F S27x3 .f32 := broadcastInDim S27x3 ![] bcast_S_S27x3 main_cst_0
  let main_v6 : IVec S27x3 1 := cmpf .olt main_v4 main_v5
  let main_c_1 : IVec S_ 1 := constantI S_ 1 1#1
  let main_v7 : IVec S_ 1 := (fun x v => Host.reduce IntOp.andi x v reducesTo_S27x3_S_d0_1 h_S_) main_v6 main_c_1
  let main_v8 : IVec S_ 1 := andi main_v3 main_v7
  main_v8
-- ==== Kernel.lean ====
abbrev S20000x483 : Shape := ⟨2, ![20000, 483]⟩
abbrev S27x3 : Shape := ⟨2, ![27, 3]⟩
abbrev S459 : Shape := ⟨1, ![459]⟩
abbrev S24 : Shape := ⟨1, ![24]⟩
abbrev S26x3 : Shape := ⟨2, ![26, 3]⟩
abbrev S1x3 : Shape := ⟨2, ![1, 3]⟩
abbrev S_ : Shape := ⟨0, ![]⟩
abbrev S26 : Shape := ⟨1, ![26]⟩
abbrev S1 : Shape := ⟨1, ![1]⟩
abbrev S27 : Shape := ⟨1, ![27]⟩
abbrev S483x41 : Shape := ⟨2, ![483, 41]⟩
abbrev S27x1 : Shape := ⟨2, ![27, 1]⟩
abbrev S27x17 : Shape := ⟨2, ![27, 17]⟩
abbrev S459x1 : Shape := ⟨2, ![459, 1]⟩
abbrev S459x2 : Shape := ⟨2, ![459, 2]⟩
abbrev S24x1 : Shape := ⟨2, ![24, 1]⟩
abbrev S24x2 : Shape := ⟨2, ![24, 2]⟩
abbrev S20000x41 : Shape := ⟨2, ![20000, 41]⟩
abbrev S4000x483 : Shape := ⟨2, ![4000, 483]⟩
abbrev S4000x41 : Shape := ⟨2, ![4000, 41]⟩

abbrev nBuf : Space → Nat
  | .hbm => 62
  | .vmem => 5
  | .smem => 0
  | _ => 0

abbrev bufTy : (tb : Table) → Fin (tcTables nBuf tb) → BufTy
  | .hbm, ⟨0, _⟩ => ⟨S20000x483, .f32⟩
  | .hbm, ⟨1, _⟩ => ⟨S27x3, .f32⟩
  | .hbm, ⟨2, _⟩ => ⟨S459, .i32⟩
  | .hbm, ⟨3, _⟩ => ⟨S459, .i1⟩
  | .hbm, ⟨4, _⟩ => ⟨S459, .i32⟩
  | .hbm, ⟨5, _⟩ => ⟨S459, .i1⟩
  | .hbm, ⟨6, _⟩ => ⟨S24, .i32⟩
  | .hbm, ⟨7, _⟩ => ⟨S24, .i1⟩
  | .hbm, ⟨8, _⟩ => ⟨S24, .i32⟩
  | .hbm, ⟨9, _⟩ => ⟨S24, .i1⟩
  | .hbm, ⟨10, _⟩ => ⟨S26x3, .f32⟩
  | .hbm, ⟨11, _⟩ => ⟨S1x3, .f32⟩
  | .hbm, ⟨12, _⟩ => ⟨S26x3, .f32⟩
  | .hbm, ⟨13, _⟩ => ⟨S26x3, .f32⟩
  | .hbm, ⟨14, _⟩ => ⟨S26x3, .f32⟩
  | .hbm, ⟨15, _⟩ => ⟨S_, .f32⟩
  | .hbm, ⟨16, _⟩ => ⟨S26, .f32⟩
  | .hbm, ⟨17, _⟩ => ⟨S26, .f32⟩
  | .hbm, ⟨18, _⟩ => ⟨S26, .f32⟩
  | .hbm, ⟨19, _⟩ => ⟨S26, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S27, .f32⟩
  | .hbm, ⟨24, _⟩ => ⟨S_, .f32⟩
  | .hbm, ⟨25, _⟩ => ⟨S27, .f32⟩
  | .hbm, ⟨26, _⟩ => ⟨S27, .f32⟩
  | .hbm, ⟨27, _⟩ => ⟨S_, .f32⟩
  | .hbm, ⟨28, _⟩ => ⟨S483x41, .f32⟩
  | .hbm, ⟨29, _⟩ => ⟨S27x1, .f32⟩
  | .hbm, ⟨30, _⟩ => ⟨S27x17, .f32⟩
  | .hbm, ⟨31, _⟩ => ⟨S459, .f32⟩
  | .hbm, ⟨32, _⟩ => ⟨S_, .i32⟩
  | .hbm, ⟨33, _⟩ => ⟨S459, .i32⟩
  | .hbm, ⟨34, _⟩ => ⟨S459, .i32⟩
  | .hbm, ⟨35, _⟩ => ⟨S459, .i32⟩
  | .hbm, ⟨36, _⟩ => ⟨S_, .i32⟩
  | .hbm, ⟨37, _⟩ => ⟨S459, .i32⟩
  | .hbm, ⟨38, _⟩ => ⟨S459, .i32⟩
  | .hbm, ⟨39, _⟩ => ⟨S459, .i32⟩
  | .hbm, ⟨40, _⟩ => ⟨S459x1, .i32⟩
  | .hbm, ⟨41, _⟩ => ⟨S459x1, .i32⟩
  | .hbm, ⟨42, _⟩ => ⟨S459x2, .i32⟩
  | .hbm, ⟨43, _⟩ => ⟨S483x41, .f32⟩
  | .hbm, ⟨44, _⟩ => ⟨S1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .i32⟩
  | .hbm, ⟨49, _⟩ => ⟨S24, .i32⟩
  | .hbm, ⟨50, _⟩ => ⟨S24, .i32⟩
  | .hbm, ⟨51, _⟩ => ⟨S24, .i32⟩
  | .hbm, ⟨52, _⟩ => ⟨S_, .i32⟩
  | .hbm, ⟨53, _⟩ => ⟨S24, .i32⟩
  | .hbm, ⟨54, _⟩ => ⟨S24, .i32⟩
  | .hbm, ⟨55, _⟩ => ⟨S24, .i32⟩
  | .hbm, ⟨56, _⟩ => ⟨S24x1, .i32⟩
  | .hbm, ⟨57, _⟩ => ⟨S24x1, .i32⟩
  | .hbm, ⟨58, _⟩ => ⟨S24x2, .i32⟩
  | .hbm, ⟨59, _⟩ => ⟨S24, .f32⟩
  | .hbm, ⟨60, _⟩ => ⟨S483x41, .f32⟩
  | .hbm, ⟨61, _⟩ => ⟨S20000x41, .f32⟩
  | .local _ .vmem, ⟨0, _⟩ => ⟨S4000x483, .f32⟩
  | .local _ .vmem, ⟨1, _⟩ => ⟨S4000x483, .f32⟩
  | .local _ .vmem, ⟨2, _⟩ => ⟨S483x41, .f32⟩
  | .local _ .vmem, ⟨3, _⟩ => ⟨S4000x41, .f32⟩
  | .local _ .vmem, ⟨4, _⟩ => ⟨S4000x41, .f32⟩
  | _, _ => ⟨S20000x483, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_7 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_8 : Ref sig .tc := ⟨.hbm, 24, rfl⟩
abbrev main_v12 : Ref sig .tc := ⟨.hbm, 25, rfl⟩
abbrev main_v13 : Ref sig .tc := ⟨.hbm, 26, rfl⟩
abbrev main_cst_9 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_10 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_11 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_12 : Ref sig .tc := ⟨.hbm, 46, rfl⟩
abbrev main_v30 : Ref sig .tc := ⟨.hbm, 47, rfl⟩
abbrev main_c_13 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_14 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x483 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S483x41 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x41 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S27x3_S26x3_1_0 : S27x3.Slices ![1, 0] S26x3
  slices_S27x3_S1x3_0_0 : S27x3.Slices ![0, 0] S1x3
  bcast_S1x3_S26x3_0_1 : S1x3.BroadcastsInDim S26x3 (![0, 1] : Fin 2 → Fin S26x3.rank)
  reducesTo_S26x3_S26_d1 : S26x3.ReducesTo [1] S26
  h_S_ : 0 < S_.numel
  reducesTo_S26_S_d0 : S26.ReducesTo [0] S_
  bcast_S_S1 : S_.BroadcastsInDim S1 (![] : Fin 0 → Fin S1.rank)
  concatenates_S1_S26_S27_d0 : Shape.Concatenates [S1, S26] S27 0
  bcast_S_S27 : S_.BroadcastsInDim S27 (![] : Fin 0 → Fin S27.rank)
  bcast_S_S483x41 : S_.BroadcastsInDim S483x41 (![] : Fin 0 → Fin S483x41.rank)
  bcast_S27_S27x1_0 : S27.BroadcastsInDim S27x1 (![0] : Fin 1 → Fin S27x1.rank)
  bcast_S27x1_S27x17_0_1 : S27x1.BroadcastsInDim S27x17 (![0, 1] : Fin 2 → Fin S27x17.rank)
  shapeCasts_S27x17_S459 : S27x17.ShapeCasts S459
  bcast_S_S459 : S_.BroadcastsInDim S459 (![] : Fin 0 → Fin S459.rank)
  bcast_S459_S459x1_0 : S459.BroadcastsInDim S459x1 (![0] : Fin 1 → Fin S459x1.rank)
  concatenates_S459x1_S459x1_S459x2_d1 : Shape.Concatenates [S459x1, S459x1] S459x2 1
  slices_S27_S1_0 : S27.Slices ![0] S1
  shapeCasts_S1_S_ : S1.ShapeCasts S_
  bcast_S_S24 : S_.BroadcastsInDim S24 (![] : Fin 0 → Fin S24.rank)
  bcast_S24_S24x1_0 : S24.BroadcastsInDim S24x1 (![0] : Fin 1 → Fin S24x1.rank)
  concatenates_S24x1_S24x1_S24x2_d1 : Shape.Concatenates [S24x1, S24x1] S24x2 1
  inb_S4000x483_S4000x483_0_0 : ∀ a, (![0, 0] : Fin 2 → Nat) a + S4000x483.size a ≤ S4000x483.size a
  h_S4000x483 : 0 < S4000x483.numel
  inb_S483x41_S483x41_0_0 : ∀ a, (![0, 0] : Fin 2 → Nat) a + S483x41.size a ≤ S483x41.size a
  h_S483x41 : 0 < S483x41.numel
  shapeCasts_S483x41_S483x41 : S483x41.ShapeCasts S483x41
  inb_S4000x41_S4000x41_0_0 : ∀ a, (![0, 0] : Fin 2 → Nat) a + S4000x41.size a ≤ S4000x41.size a
  h_S4000x41 : 0 < S4000x41.numel
  scatter_S483x41_S459x2_S459_n_01_01_1_wf : ScatterDims.WF S483x41 S459x2 S459 [] [0, 1] [0, 1] 1
  scatter_S483x41_S24x2_S24_n_01_01_1_wf : ScatterDims.WF S483x41 S24x2 S24 [] [0, 1] [0, 1] 1
  dot_S4000x483_S483x41_S4000x41_1_0_0_1_n_n_wf : DotDims.WF S4000x483 S483x41 S4000x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x483.size a ≤ S20000x483.size a
  hwx0_0 : ∀ i : grid0.Coords, EltTy.bits .f32 = 32 ∨ (Rect.block (s := S20000x483) S4000x483.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S483x41.size a ≤ S483x41.size a
  hwx0_1 : ∀ i : grid0.Coords, EltTy.bits .f32 = 32 ∨ (Rect.block (s := S483x41) S483x41.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x41.size a ≤ S20000x41.size a
  hwx0_2 : ∀ i : grid0.Coords, EltTy.bits .f32 = 32 ∨ (Rect.block (s := S20000x41) S4000x41.size (cc0_transform_2 i) (hinb0_2 i)).WholeWords (EltTy.packing .f32)

variable [Facts₀]

def scatter_S483x41_S459x2_S459_n_01_01_1 : ScatterDims S483x41 S459x2 S459 where
  updateWindowDims := []
  insertedWindowDims := [0, 1]
  scatterDimsToOperandDims := [0, 1]
  indexVectorDim := 1
  wf := scatter_S483x41_S459x2_S459_n_01_01_1_wf
def scatter_S483x41_S24x2_S24_n_01_01_1 : ScatterDims S483x41 S24x2 S24 where
  updateWindowDims := []
  insertedWindowDims := [0, 1]
  scatterDimsToOperandDims := [0, 1]
  indexVectorDim := 1
  wf := scatter_S483x41_S24x2_S24_n_01_01_1_wf
def dot_S4000x483_S483x41_S4000x41_1_0_0_1_n_n : DotDims S4000x483 S483x41 S4000x41 where
  lhsContracting := [1]
  rhsContracting := [0]
  lhsNonContracting := [0]
  rhsNonContracting := [1]
  lhsBatch := []
  rhsBatch := []
  wf := dot_S4000x483_S483x41_S4000x41_1_0_0_1_n_n_wf

abbrev win0_0 : Pipeline.Window sig grid0 :=
  Pipeline.Window.ofSpec (Memref.whole main_arg0) S4000x483.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S483x41.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S4000x41.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S20000x483 : Shape := ⟨2, ![20000, 483]⟩
abbrev S27x3 : Shape := ⟨2, ![27, 3]⟩
abbrev S20000x459 : Shape := ⟨2, ![20000, 459]⟩
abbrev S20000x24 : Shape := ⟨2, ![20000, 24]⟩
abbrev S20000x1x24 : Shape := ⟨3, ![20000, 1, 24]⟩
abbrev S20000x27x24 : Shape := ⟨3, ![20000, 27, 24]⟩
abbrev S20000x27x17 : Shape := ⟨3, ![20000, 27, 17]⟩
abbrev S20000x27x16 : Shape := ⟨3, ![20000, 27, 16]⟩
abbrev S20000x27x1 : Shape := ⟨3, ![20000, 27, 1]⟩
abbrev S20000x27x41 : Shape := ⟨3, ![20000, 27, 41]⟩
abbrev S540000x41 : Shape := ⟨2, ![540000, 41]⟩
abbrev S540000x4 : Shape := ⟨2, ![540000, 4]⟩
abbrev S540000x4x1 : Shape := ⟨3, ![540000, 4, 1]⟩
abbrev S540000x1 : Shape := ⟨2, ![540000, 1]⟩
abbrev S540000x1x1 : Shape := ⟨3, ![540000, 1, 1]⟩
abbrev S540000x5x1 : Shape := ⟨3, ![540000, 5, 1]⟩
abbrev S540000x12 : Shape := ⟨2, ![540000, 12]⟩
abbrev S540000x4x3 : Shape := ⟨3, ![540000, 4, 3]⟩
abbrev S540000x24 : Shape := ⟨2, ![540000, 24]⟩
abbrev S540000x8x3 : Shape := ⟨3, ![540000, 8, 3]⟩
abbrev S540000x12x3 : Shape := ⟨3, ![540000, 12, 3]⟩
abbrev S540000x5 : Shape := ⟨2, ![540000, 5]⟩
abbrev S540000x36 : Shape := ⟨2, ![540000, 36]⟩
abbrev S_ : Shape := ⟨0, ![]⟩
abbrev S26 : Shape := ⟨1, ![26]⟩
abbrev S52 : Shape := ⟨1, ![52]⟩
abbrev S20000 : Shape := ⟨1, ![20000]⟩
abbrev S20000x1 : Shape := ⟨2, ![20000, 1]⟩
abbrev S1x52 : Shape := ⟨2, ![1, 52]⟩
abbrev S20000x52 : Shape := ⟨2, ![20000, 52]⟩
abbrev S1040000 : Shape := ⟨1, ![1040000]⟩
abbrev S52x1 : Shape := ⟨2, ![52, 1]⟩
abbrev S52x3 : Shape := ⟨2, ![52, 3]⟩
abbrev S1040000x1 : Shape := ⟨2, ![1040000, 1]⟩
abbrev S1 : Shape := ⟨1, ![1]⟩
abbrev S1x1 : Shape := ⟨2, ![1, 1]⟩
abbrev S1040000x41 : Shape := ⟨2, ![1040000, 41]⟩
abbrev S20000x41 : Shape := ⟨2, ![20000, 41]⟩

abbrev nBuf : Space → Nat
  | .hbm => 111
  | .vmem => 0
  | .smem => 0
  | _ => 0

abbrev bufTy : (tb : Table) → Fin (tcTables nBuf tb) → BufTy
  | .hbm, ⟨0, _⟩ => ⟨S20000x483, .f32⟩
  | .hbm, ⟨1, _⟩ => ⟨S27x3, .f32⟩
  | .hbm, ⟨2, _⟩ => ⟨S20000x459, .f32⟩
  | .hbm, ⟨3, _⟩ => ⟨S20000x24, .f32⟩
  | .hbm, ⟨4, _⟩ => ⟨S20000x1x24, .f32⟩
  | .hbm, ⟨5, _⟩ => ⟨S20000x27x24, .f32⟩
  | .hbm, ⟨6, _⟩ => ⟨S20000x27x17, .f32⟩
  | .hbm, ⟨7, _⟩ => ⟨S20000x27x16, .f32⟩
  | .hbm, ⟨8, _⟩ => ⟨S20000x27x1, .f32⟩
  | .hbm, ⟨9, _⟩ => ⟨S20000x27x41, .f32⟩
  | .hbm, ⟨10, _⟩ => ⟨S540000x41, .f32⟩
  | .hbm, ⟨11, _⟩ => ⟨S540000x4, .f32⟩
  | .hbm, ⟨12, _⟩ => ⟨S540000x4x1, .f32⟩
  | .hbm, ⟨13, _⟩ => ⟨S540000x1, .f32⟩
  | .hbm, ⟨14, _⟩ => ⟨S540000x1x1, .f32⟩
  | .hbm, ⟨15, _⟩ => ⟨S540000x5x1, .f32⟩
  | .hbm, ⟨16, _⟩ => ⟨S540000x12, .f32⟩
  | .hbm, ⟨17, _⟩ => ⟨S540000x4x3, .f32⟩
  | .hbm, ⟨18, _⟩ => ⟨S540000x24, .f32⟩
  | .hbm, ⟨19, _⟩ => ⟨S540000x8x3, .f32⟩
  | .hbm, ⟨20, _⟩ => ⟨S540000x12x3, .f32⟩
  | .hbm, ⟨21, _⟩ => ⟨S540000x5, .f32⟩
  | .hbm, ⟨22, _⟩ => ⟨S540000x36, .f32⟩
  | .hbm, ⟨23, _⟩ => ⟨S540000x41, .f32⟩
  | .hbm, ⟨24, _⟩ => ⟨S_, .i32⟩
  | .hbm, ⟨25, _⟩ => ⟨S26, .i32⟩
  | .hbm, ⟨26, _⟩ => ⟨S26, .i32⟩
  | .hbm, ⟨27, _⟩ => ⟨S_, .i32⟩
  | .hbm, ⟨28, _⟩ => ⟨S26, .i32⟩
  | .hbm, ⟨29, _⟩ => ⟨S26, .i32⟩
  | .hbm, ⟨30, _⟩ => ⟨S52, .i32⟩
  | .hbm, ⟨31, _⟩ => ⟨S52, .i32⟩
  | .hbm, ⟨32, _⟩ => ⟨S20000, .i32⟩
  | .hbm, ⟨33, _⟩ => ⟨S20000x1, .i32⟩
  | .hbm, ⟨34, _⟩ => ⟨S_, .i32⟩
  | .hbm, ⟨35, _⟩ => ⟨S20000x1, .i32⟩
  | .hbm, ⟨36, _⟩ => ⟨S20000x1, .i32⟩
  | .hbm, ⟨37, _⟩ => ⟨S1x52, .i32⟩
  | .hbm, ⟨38, _⟩ => ⟨S20000x52, .i32⟩
  | .hbm, ⟨39, _⟩ => ⟨S20000x52, .i32⟩
  | .hbm, ⟨40, _⟩ => ⟨S20000x52, .i32⟩
  | .hbm, ⟨41, _⟩ => ⟨S1040000, .i32⟩
  | .hbm, ⟨42, _⟩ => ⟨S1x52, .i32⟩
  | .hbm, ⟨43, _⟩ => ⟨S20000x52, .i32⟩
  | .hbm, ⟨44, _⟩ => ⟨S20000x52, .i32⟩
  | .hbm, ⟨45, _⟩ => ⟨S20000x52, .i32⟩
  | .hbm, ⟨46, _⟩ => ⟨S1040000, .i32⟩
  | .hbm, ⟨47, _⟩ => ⟨S_, .i32⟩
  | .hbm, ⟨48, _⟩ => ⟨S52, .i32⟩
  | .hbm, ⟨49, _⟩ => ⟨S52, .i1⟩
  | .hbm, ⟨50, _⟩ => ⟨S_, .i32⟩
  | .hbm, ⟨51, _⟩ => ⟨S52, .i32⟩
  | .hbm, ⟨52, _⟩ => ⟨S52, .i32⟩
  | .hbm, ⟨53, _⟩ => ⟨S52, .i32⟩
  | .hbm, ⟨54, _⟩ => ⟨S52x1, .i32⟩
  | .hbm, ⟨55, _⟩ => ⟨S52x3, .f32⟩
  | .hbm, ⟨56, _⟩ => ⟨S_, .i32⟩
  | .hbm, ⟨57, _⟩ => ⟨S52, .i32⟩
  | .hbm, ⟨58, _⟩ => ⟨S52, .i1⟩
  | .hbm, ⟨59, _⟩ => ⟨S_, .i32⟩
  | .hbm, ⟨60, _⟩ => ⟨S52, .i32⟩
  | .hbm, ⟨61, _⟩ => ⟨S52, .i32⟩
  | .hbm, ⟨62, _⟩ => ⟨S52, .i32⟩
  | .hbm, ⟨63, _⟩ => ⟨S52x1, .i32⟩
  | .hbm, ⟨64, _⟩ => ⟨S52x3, .f32⟩
  | .hbm, ⟨65, _⟩ => ⟨S52x3, .f32⟩
  | .hbm, ⟨66, _⟩ => ⟨S52x3, .f32⟩
  | .hbm, ⟨67, _⟩ => ⟨S_, .f32⟩
  | .hbm, ⟨68, _⟩ => ⟨S52, .f32⟩
  | .hbm, ⟨69, _⟩ => ⟨S52, .f32⟩
  | .hbm, ⟨70, _⟩ => ⟨S52, .f32⟩
  | .hbm, ⟨71, _⟩ => ⟨S52, .f32⟩
  | .hbm, ⟨72, _⟩ => ⟨S1x52, .f32⟩
  | .hbm, ⟨73, _⟩ => ⟨S20000x52, .f32⟩
  | .hbm, ⟨74, _⟩ => ⟨S1040000, .f32⟩
  | .hbm, ⟨75, _⟩ => ⟨S_, .i32⟩
  | .hbm, ⟨76, _⟩ => ⟨S1040000, .i32⟩
  | .hbm, ⟨77, _⟩ => ⟨S1040000, .i1⟩
  | .hbm, ⟨78, _⟩ => ⟨S_, .i32⟩
  | .hbm, ⟨79, _⟩ => ⟨S1040000, .i32⟩
  | .hbm, ⟨80, _⟩ => ⟨S1040000, .i32⟩
  | .hbm, ⟨81, _⟩ => ⟨S1040000, .i32⟩
  | .hbm, ⟨82, _⟩ => ⟨S1040000x1, .i32⟩
  | .hbm, ⟨83, _⟩ => ⟨S1, .i32⟩
  | .hbm, ⟨84, _⟩ => ⟨S_, .i32⟩
  | .hbm, ⟨85, _⟩ => ⟨S1040000x1, .i32⟩
  | .hbm, ⟨86, _⟩ => ⟨S1040000x1, .i1⟩
  | .hbm, ⟨87, _⟩ => ⟨S1x1, .i32⟩
  | .hbm, ⟨88, _⟩ => ⟨S1040000x1, .i32⟩
  | .hbm, ⟨89, _⟩ => ⟨S1040000x1, .i1⟩
  | .hbm, ⟨90, _⟩ => ⟨S1040000x1, .i1⟩
  | .hbm, ⟨91, _⟩ => ⟨S_, .i1⟩
  | .hbm, ⟨92, _⟩ => ⟨S1040000, .i1⟩
  | .hbm, ⟨93, _⟩ => ⟨S1040000x41, .f32⟩
  | .hbm, ⟨94, _⟩ => ⟨S1040000x41, .i1⟩
  | .hbm, ⟨95, _⟩ => ⟨S_, .f32⟩
  | .hbm, ⟨96, _⟩ => ⟨S1040000x41, .f32⟩
  | .hbm, ⟨97, _⟩ => ⟨S1040000x41, .f32⟩
  | .hbm, ⟨98, _⟩ => ⟨S1040000x1, .f32⟩
  | .hbm, ⟨99, _⟩ => ⟨S1040000x41, .f32⟩
  | .hbm, ⟨100, _⟩ => ⟨S1040000x41, .f32⟩
  | .hbm, ⟨101, _⟩ => ⟨S_, .f32⟩
  | .hbm, ⟨102, _⟩ => ⟨S540000x41, .f32⟩
  | .hbm, ⟨103, _⟩ => ⟨S1040000x1, .i32⟩
  | .hbm, ⟨104, _⟩ => ⟨S540000x41, .f32⟩
  | .hbm, ⟨105, _⟩ => ⟨S20000x27x41, .f32⟩
  | .hbm, ⟨106, _⟩ => ⟨S_, .f32⟩
  | .hbm, ⟨107, _⟩ => ⟨S20000x41, .f32⟩
  | .hbm, ⟨108, _⟩ => ⟨S_, .f32⟩
  | .hbm, ⟨109, _⟩ => ⟨S20000x41, .f32⟩
  | .hbm, ⟨110, _⟩ => ⟨S20000x41, .f32⟩
  | _, _ => ⟨S20000x483, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_c : Ref sig .tc := ⟨.hbm, 24, rfl⟩
abbrev main_v22 : Ref sig .tc := ⟨.hbm, 25, rfl⟩
abbrev main_v23 : Ref sig .tc := ⟨.hbm, 26, rfl⟩
abbrev main_c_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_c_1 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_c_2 : Ref sig .tc := ⟨.hbm, 47, rfl⟩
abbrev main_v42 : Ref sig .tc := ⟨.hbm, 48, rfl⟩
abbrev main_v43 : Ref sig .tc := ⟨.hbm, 49, rfl⟩
abbrev main_c_3 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_c_4 : Ref sig .tc := ⟨.hbm, 56, rfl⟩
abbrev main_v49 : Ref sig .tc := ⟨.hbm, 57, rfl⟩
abbrev main_v50 : Ref sig .tc := ⟨.hbm, 58, rfl⟩
abbrev main_c_5 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_call0_v0 : Ref sig .tc := ⟨.hbm, 66, rfl⟩
abbrev main_call0_cst : Ref sig .tc := ⟨.hbm, 67, rfl⟩
abbrev main_call0_v1 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_c_1 : Ref sig .tc := ⟨.hbm, 83, rfl⟩
abbrev main_call1_c_2 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_3 : Ref sig .tc := ⟨.hbm, 91, rfl⟩
abbrev main_call1_v12 : Ref sig .tc := ⟨.hbm, 92, rfl⟩
abbrev main_call1_v13 : Ref sig .tc := ⟨.hbm, 93, rfl⟩
abbrev main_call1_v14 : Ref sig .tc := ⟨.hbm, 94, rfl⟩
abbrev main_call1_cst : Ref sig .tc := ⟨.hbm, 95, rfl⟩
abbrev main_call1_v15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_6 : Ref sig .tc := ⟨.hbm, 106, rfl⟩
abbrev main_v71 : Ref sig .tc := ⟨.hbm, 107, rfl⟩
abbrev main_cst_7 : Ref sig .tc := ⟨.hbm, 108, rfl⟩
abbrev main_v72 : Ref sig .tc := ⟨.hbm, 109, rfl⟩
abbrev main_v73 : Ref sig .tc := ⟨.hbm, 110, rfl⟩

abbrev nD : Nat := 1
abbrev τ : Topo := Topo.v7x

variable {F : FTy → Type} [FloatOps F]

class Facts₀ : Prop where
  slices_S20000x483_S20000x459_0_0 : S20000x483.Slices ![0, 0] S20000x459
  slices_S20000x483_S20000x24_0_459 : S20000x483.Slices ![0, 459] S20000x24
  bcast_S20000x24_S20000x1x24_0_2 : S20000x24.BroadcastsInDim S20000x1x24 (![0, 2] : Fin 2 → Fin S20000x1x24.rank)
  bcast_S20000x1x24_S20000x27x24_0_1_2 : S20000x1x24.BroadcastsInDim S20000x27x24 (![0, 1, 2] : Fin 3 → Fin S20000x27x24.rank)
  shapeCasts_S20000x459_S20000x27x17 : S20000x459.ShapeCasts S20000x27x17
  slices_S20000x27x17_S20000x27x16_0_0_0 : S20000x27x17.Slices ![0, 0, 0] S20000x27x16
  slices_S20000x27x17_S20000x27x1_0_0_16 : S20000x27x17.Slices ![0, 0, 16] S20000x27x1
  concatenates_S20000x27x16_S20000x27x1_S20000x27x24_S20000x27x41_d2 : Shape.Concatenates [S20000x27x16, S20000x27x1, S20000x27x24] S20000x27x41 2
  shapeCasts_S20000x27x41_S540000x41 : S20000x27x41.ShapeCasts S540000x41
  slices_S540000x41_S540000x4_0_0 : S540000x41.Slices ![0, 0] S540000x4
  shapeCasts_S540000x4_S540000x4x1 : S540000x4.ShapeCasts S540000x4x1
  slices_S540000x41_S540000x1_0_16 : S540000x41.Slices ![0, 16] S540000x1
  shapeCasts_S540000x1_S540000x1x1 : S540000x1.ShapeCasts S540000x1x1
  concatenates_S540000x4x1_S540000x1x1_S540000x5x1_d1 : Shape.Concatenates [S540000x4x1, S540000x1x1] S540000x5x1 1
  slices_S540000x41_S540000x12_0_4 : S540000x41.Slices ![0, 4] S540000x12
  shapeCasts_S540000x12_S540000x4x3 : S540000x12.ShapeCasts S540000x4x3
  slices_S540000x41_S540000x24_0_17 : S540000x41.Slices ![0, 17] S540000x24
  shapeCasts_S540000x24_S540000x8x3 : S540000x24.ShapeCasts S540000x8x3
  concatenates_S540000x4x3_S540000x8x3_S540000x12x3_d1 : Shape.Concatenates [S540000x4x3, S540000x8x3] S540000x12x3 1
  shapeCasts_S540000x5x1_S540000x5 : S540000x5x1.ShapeCasts S540000x5
  shapeCasts_S540000x12x3_S540000x36 : S540000x12x3.ShapeCasts S540000x36
  concatenates_S540000x5_S540000x36_S540000x41_d1 : Shape.Concatenates [S540000x5, S540000x36] S540000x41 1
  bcast_S_S26 : S_.BroadcastsInDim S26 (![] : Fin 0 → Fin S26.rank)
  concatenates_S26_S26_S52_d0 : Shape.Concatenates [S26, S26] S52 0
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S52_S1x52_1 : S52.BroadcastsInDim S1x52 (![1] : Fin 1 → Fin S1x52.rank)
  bcast_S20000x1_S20000x52_0_1 : S20000x1.BroadcastsInDim S20000x52 (![0, 1] : Fin 2 → Fin S20000x52.rank)
  bcast_S1x52_S20000x52_0_1 : S1x52.BroadcastsInDim S20000x52 (![0, 1] : Fin 2 → Fin S20000x52.rank)
  shapeCasts_S20000x52_S1040000 : S20000x52.ShapeCasts S1040000
  bcast_S_S52 : S_.BroadcastsInDim S52 (![] : Fin 0 → Fin S52.rank)
  bcast_S52_S52x1_0 : S52.BroadcastsInDim S52x1 (![0] : Fin 1 → Fin S52x1.rank)
  reducesTo_S52x3_S52_d1 : S52x3.ReducesTo [1] S52
  h_S_ : 0 < S_.numel
  shapeCasts_S52_S1x52 : S52.ShapeCasts S1x52
  bcast_S_S1040000 : S_.BroadcastsInDim S1040000 (![] : Fin 0 → Fin S1040000.rank)
  bcast_S1040000_S1040000x1_0 : S1040000.BroadcastsInDim S1040000x1 (![0] : Fin 1 → Fin S1040000x1.rank)
  bcast_S_S1040000x1 : S_.BroadcastsInDim S1040000x1 (![] : Fin 0 → Fin S1040000x1.rank)
  bcast_S1_S1x1_1 : S1.BroadcastsInDim S1x1 (![1] : Fin 1 → Fin S1x1.rank)
  bcast_S1x1_S1040000x1_0_1 : S1x1.BroadcastsInDim S1040000x1 (![0, 1] : Fin 2 → Fin S1040000x1.rank)
  reducesTo_S1040000x1_S1040000_d1 : S1040000x1.ReducesTo [1] S1040000
  bcast_S1040000_S1040000x41_0 : S1040000.BroadcastsInDim S1040000x41 (![0] : Fin 1 → Fin S1040000x41.rank)
  bcast_S_S1040000x41 : S_.BroadcastsInDim S1040000x41 (![] : Fin 0 → Fin S1040000x41.rank)
  bcast_S1040000x1_S1040000x41_0_1 : S1040000x1.BroadcastsInDim S1040000x41 (![0, 1] : Fin 2 → Fin S1040000x41.rank)
  bcast_S_S540000x41 : S_.BroadcastsInDim S540000x41 (![] : Fin 0 → Fin S540000x41.rank)
  shapeCasts_S540000x41_S20000x27x41 : S540000x41.ShapeCasts S20000x27x41
  reducesTo_S20000x27x41_S20000x41_d1 : S20000x27x41.ReducesTo [1] S20000x41
  bcast_S_S20000x41 : S_.BroadcastsInDim S20000x41 (![] : Fin 0 → Fin S20000x41.rank)
  gather_S27x3_S52x1_S52x3_1_0_n_n_0_1_13_wf : GatherDims.WF S27x3 S52x1 S52x3 [1] [0] [] [0] [] 1 ![1, 3]
  gather_S540000x41_S1040000x1_S1040000x41_1_0_n_n_0_1_141_wf : GatherDims.WF S540000x41 S1040000x1 S1040000x41 [1] [0] [] [0] [] 1 ![1, 41]
  scatter_S540000x41_S1040000x1_S1040000x41_1_0_0_1_wf : ScatterDims.WF S540000x41 S1040000x1 S1040000x41 [1] [0] [0] 1

variable [Facts₀]

def gather_S27x3_S52x1_S52x3_1_0_n_n_0_1_13 : GatherDims S27x3 S52x1 S52x3 where
  offsetDims := [1]
  collapsedSliceDims := [0]
  operandBatchingDims := []
  startIndicesBatchingDims := []
  startIndexMap := [0]
  indexVectorDim := 1
  sliceSizes := ![1, 3]
  wf := gather_S27x3_S52x1_S52x3_1_0_n_n_0_1_13_wf
def gather_S540000x41_S1040000x1_S1040000x41_1_0_n_n_0_1_141 : GatherDims S540000x41 S1040000x1 S1040000x41 where
  offsetDims := [1]
  collapsedSliceDims := [0]
  operandBatchingDims := []
  startIndicesBatchingDims := []
  startIndexMap := [0]
  indexVectorDim := 1
  sliceSizes := ![1, 41]
  wf := gather_S540000x41_S1040000x1_S1040000x41_1_0_n_n_0_1_141_wf
def scatter_S540000x41_S1040000x1_S1040000x41_1_0_0_1 : ScatterDims S540000x41 S1040000x1 S1040000x41 where
  updateWindowDims := [1]
  insertedWindowDims := [0]
  scatterDimsToOperandDims := [0]
  indexVectorDim := 1
  wf := scatter_S540000x41_S1040000x1_S1040000x41_1_0_0_1_wf

class Facts : Prop extends Facts₀ where

variable [Facts]
-- ==== Proof.Spec.lean ====
/-
  The star graph's pooled message passing as two closed forms of one function of the state rows and the table of
  directions.

  A sample's 27 nodes form a star: node 0 is joined to each of the nodes 1..26, by one edge in each direction, and the
  edge between p and q weighs exp(-|dir p - dir q|). Node v of sample i shows, in output column j, the state entry
  (i, col v j): the 17 channels of node v's own block of the row for the first 17 output columns (in the order chan),
  and the row's last 24 entries, which every node shares, for the others.

  Gathering along the 52 directed edges, summing into the destinations and averaging over the 27 nodes gives the
  pooled form (pooled). Because the graph is the same for every sample the same numbers are one product of the state
  with a fixed sparse 483 x 41 matrix of the node weights (mix): the mixed form (mixed).
-/
import Idealize.ShloMosaic.PureOps
import Idealize.ShloMosaic.PureOps.Ideal
import Idealize.ShloMosaic.Lib.ValueIdx

noncomputable section

namespace Cert.Star

open Idealize.ShloMosaic Idealize.ShloMosaic.ValueIdx

/-- The state: 20000 rows of 27 blocks of 17 channels, then 24 shared entries. -/
abbrev SState : Shape := ⟨2, ![20000, 483]⟩
/-- The table of directions: 27 points of 3-space. -/
abbrev SDirs : Shape := ⟨2, ![27, 3]⟩
/-- The mixing matrix. -/
abbrev SMix : Shape := ⟨2, ![483, 41]⟩
/-- The pooled output. -/
abbrev SOut : Shape := ⟨2, ![20000, 41]⟩

/-- The channel of a node's 41 features that output column j shows: 0..3, then 16, then 4..15, then 17..40. -/
def chan (j : Fin 41) : Fin 41 :=
  if j.val < 4 then j
  else if h4 : j.val = 4 then ⟨16, by omega⟩
  else if h17 : j.val < 17 then ⟨j.val - 1, by omega⟩
  else j

/-- The column of the state row that node v shows in output column j. -/
def col (v : Fin 27) (j : Fin 41) : Fin 483 :=
  if h : (chan j).val < 17 then ⟨17 * v.val + (chan j).val, by omega⟩
  else ⟨459 + ((chan j).val - 17), by have := (chan j).isLt; omega⟩

/-- The source node of directed edge e: the centre for the first 26 edges, node e - 25 for the others. -/
def srcl (e : Fin 52) : Fin 27 := if h : e.val < 26 then ⟨0, by omega⟩ else ⟨e.val - 25, by omega⟩
/-- The destination node of directed edge e: node e + 1 for the first 26 edges, the centre for the others. -/
def dstl (e : Fin 52) : Fin 27 := if h : e.val < 26 then ⟨e.val + 1, by omega⟩ else ⟨0, by omega⟩

/-- 27.0 and 2.0 as the programs spell them. -/
def c27 : EReal := Ideal.ofBits .f32 0x41D80000#32
def c2 : EReal := Ideal.ofBits .f32 0x40000000#32

/-- The squared distance between points p and q of the table. -/
def sqd (nd : SDirs.Idx → EReal) (p q : Fin 27) : EReal :=
  ∑ d : Fin 3, (nd (ix2 p d) - nd (ix2 q d)) * (nd (ix2 p d) - nd (ix2 q d))

/-- The weight of an edge from q to p: exp(-|dir p - dir q|). -/
def edgeW (nd : SDirs.Idx → EReal) (p q : Fin 27) : EReal := Ideal.exp (-(Ideal.sqrt (sqd nd p q)))

/-! ## The pooled form -/

/-- What node v of sample i has received, in column j: the weighted features of the sources of the edges into v. -/
def aggAt (st : SState.Idx → EReal) (nd : SDirs.Idx → EReal) (i : Fin 20000) (v : Fin 27) (j : Fin 41) : EReal :=
  ∑ e ∈ Finset.univ.filter (fun e : Fin 52 => dstl e = v), st (ix2 i (col (srcl e) j)) * edgeW nd (dstl e) (srcl e)

/-- The mean over the 27 nodes of what each has received. -/
def pooledAt (st : SState.Idx → EReal) (nd : SDirs.Idx → EReal) (i : Fin 20000) (j : Fin 41) : EReal :=
  Ideal.div (∑ v : Fin 27, aggAt st nd i v j) c27

def pooled (st : SState.Idx → EReal) (nd : SDirs.Idx → EReal) : SOut.Idx → EReal :=
  fun y => pooledAt st nd (y 0) (y 1)

/-! ## The mixed form -/

/-- The weight of node v in the mean: the centre carries the sum of the 26 edge weights, node v >= 1 its own
    edge's, each divided by 27. -/
def nodeW (nd : SDirs.Idx → EReal) (v : Fin 27) : EReal :=
  Ideal.div (if v.val = 0 then ∑ u : Fin 26, edgeW nd ⟨u.val + 1, by omega⟩ ⟨0, by omega⟩ else edgeW nd v ⟨0, by omega⟩) c27

/-- The mixing matrix: entry (17 v + chan j, j) is node v's weight for j < 17; entry (459 + (j - 17), j) is twice the
    centre's weight for j >= 17; every other entry is zero. -/
def mix (nd : SDirs.Idx → EReal) (k : Fin 483) (j : Fin 41) : EReal :=
  if hk : k.val < 459 then
    (if j.val < 17 ∧ k.val % 17 = (chan j).val then nodeW nd ⟨k.val / 17, by omega⟩ else 0)
  else
    (if 17 ≤ j.val ∧ k.val - 459 = j.val - 17 then c2 * nodeW nd ⟨0, by omega⟩ else 0)

def mixedAt (st : SState.Idx → EReal) (nd : SDirs.Idx → EReal) (i : Fin 20000) (j : Fin 41) : EReal :=
  ∑ k : Fin 483, st (ix2 i k) * mix nd k j

def mixed (st : SState.Idx → EReal) (nd : SDirs.Idx → EReal) : SOut.Idx → EReal :=
  fun y => mixedAt st nd (y 0) (y 1)

end Cert.Star

end
-- ==== Proof.LibScatterSet.lean ====
/-
  jax's x.at[rows, cols].set(vals) read at an index, for any extents: the host scatter whose body returns the update,
  over an N x M operand, P index pairs (a P x 2 table) and P scalar updates. Where the pairs are pairwise distinct and
  inside the operand, entry (r p, c p) of the result is update p and every other entry is the operand's.
-/
import Idealize.ShloMosaic.PureOps
import Idealize.ShloMosaic.Lib.ValueIdx

noncomputable section

namespace Cert.LibScatterSet

open Idealize.ShloMosaic Idealize.ShloMosaic.ValueIdx

variable {α : Type}

/-- The dimension numbers of x.at[rows, cols].set(vals): both operand axes inserted and indexed, the index vector
    along axis 1 of the P x 2 table, no window axes. -/
abbrev pairDims (N M P : Nat)
    (wf : ScatterDims.WF ⟨2, ![N, M]⟩ ⟨2, ![P, 2]⟩ ⟨1, ![P]⟩ [] [0, 1] [0, 1] 1) :
    ScatterDims ⟨2, ![N, M]⟩ ⟨2, ![P, 2]⟩ ⟨1, ![P]⟩ where
  updateWindowDims := []
  insertedWindowDims := [0, 1]
  scatterDimsToOperandDims := [0, 1]
  indexVectorDim := 1
  wf := wf

/-! ### The step of the fold, and the fold over a list of update positions -/

/-- One step of the scatter whose body returns the update: position n overwrites the entry its result index names,
    and changes nothing when it has none. -/
private def setStep {ι β : Type} [DecidableEq β] (g : ι → Option β) (v : ι → α) (acc : β → α) (n : ι) : β → α :=
  match g n with
  | some i => fun i' => if i' = i then v n else acc i'
  | none => acc

/-- Folding over positions none of which names the entry k leaves that entry as it was. -/
private theorem fold_miss {ι β : Type} [DecidableEq β] (g : ι → Option β) (v : ι → α) (k : β) :
    ∀ (l : List ι) (acc : β → α), (∀ n ∈ l, g n ≠ some k) → (l.foldl (setStep g v) acc) k = acc k := by
  intro l
  induction l with
  | nil => intro acc _; rfl
  | cons n t ih =>
    intro acc h
    rw [List.foldl_cons, ih _ (fun m hm => h m (List.mem_cons_of_mem _ hm))]
    have hn : g n ≠ some k := h n List.mem_cons_self
    unfold setStep
    cases hg : g n with
    | none => rfl
    | some i =>
      have hki : k ≠ i := fun e => hn (by rw [hg, e])
      simp only [if_neg hki]

/-- Folding over positions exactly one of which, n0, names the entry k leaves there n0's update. -/
private theorem fold_hit {ι β : Type} [DecidableEq β] (g : ι → Option β) (v : ι → α) (k : β) (n0 : ι)
    (hg0 : g n0 = some k) :
    ∀ (l : List ι) (acc : β → α), n0 ∈ l → (∀ n ∈ l, g n = some k → n = n0) →
      (l.foldl (setStep g v) acc) k = v n0 := by
  intro l
  induction l with
  | nil => intro acc h; exact absurd h List.not_mem_nil
  | cons n t ih =>
    intro acc hmem huniq
    rw [List.foldl_cons]
    by_cases ht : n0 ∈ t
    · exact ih _ ht (fun m hm => huniq m (List.mem_cons_of_mem _ hm))
    · -- n0 is the head, and no later position names k
      have hn : n = n0 := by
        rcases List.mem_cons.mp hmem with e | e
        · exact e.symm
        · exact absurd e ht
      subst hn
      rw [fold_miss g v k t _ (fun m hm e => ht (by
        have := huniq m (List.mem_cons_of_mem _ hm) e
        rw [← this]; exact hm))]
      unfold setStep
      rw [hg0]
      simp only [if_true]

/-! ### The result index of update p -/

section ResultIdx

variable {N M P : Nat}
  (wf : ScatterDims.WF ⟨2, ![N, M]⟩ ⟨2, ![P, 2]⟩ ⟨1, ![P]⟩ [] [0, 1] [0, 1] 1)

/-- Both operand axes are inserted, so no operand axis is kept. -/
private theorem notMem_sKept (a : Fin 2) : a ∉ (pairDims N M P wf).sKept := by
  intro h
  have h2 : a ∉ ([0, 1] : List (Fin 2)) := of_decide_eq_true (List.mem_filter.mp h).2
  exact h2 ((by decide : ∀ b : Fin 2, b ∈ ([0, 1] : List (Fin 2))) a)

/-- No operand axis is kept, so the window coordinate is 0 on every axis. -/
private theorem window_zero (p : Fin P) (a : Fin 2) : (pairDims N M P wf).window (ix1 p) a = 0 := by
  unfold ScatterDims.window
  rw [dif_neg (notMem_sKept wf a)]

/-- The start on operand axis 0 is read at (p, 0): p from the update's only axis, and component 0 on the index
    vector's axis 1. -/
private theorem start_zero (idx : IVec ⟨2, ![P, 2]⟩ 32) (p : Fin P) :
    (pairDims N M P wf).start (ix1 p) idx 0 = (idx (ix2 p (0 : Fin 2))).toInt := by
  unfold ScatterDims.start
  rw [dif_pos (show (0 : Fin 2) ∈ (pairDims N M P wf).scatterDimsToOperandDims from List.mem_cons_self)]
  have hsi : (pairDims N M P wf).siIdx (ix1 p) ⟨List.idxOf (0 : Fin 2) (pairDims N M P wf).scatterDimsToOperandDims,
      List.idxOf_lt_length_iff.2 List.mem_cons_self⟩ = ix2 p (0 : Fin 2) := by
    funext b; refine Fin.ext ?_
    match b with
    | ⟨0, _⟩ => rfl
    | ⟨1, _⟩ => rfl
  rw [hsi]

/-- The start on operand axis 1 is read at (p, 1). -/
private theorem start_one (idx : IVec ⟨2, ![P, 2]⟩ 32) (p : Fin P) :
    (pairDims N M P wf).start (ix1 p) idx 1 = (idx (ix2 p (1 : Fin 2))).toInt := by
  have hmem : (1 : Fin 2) ∈ (pairDims N M P wf).scatterDimsToOperandDims :=
    List.mem_cons_of_mem _ List.mem_cons_self
  unfold ScatterDims.start
  rw [dif_pos hmem]
  have hsi : (pairDims N M P wf).siIdx (ix1 p) ⟨List.idxOf (1 : Fin 2) (pairDims N M P wf).scatterDimsToOperandDims,
      List.idxOf_lt_length_iff.2 hmem⟩ = ix2 p (1 : Fin 2) := by
    funext b; refine Fin.ext ?_
    match b with
    | ⟨0, _⟩ => rfl
    | ⟨1, _⟩ => rfl
  rw [hsi]

/-- Update p lands at (r p, c p): start plus window coordinate is r p on axis 0 and c p on axis 1, both inside. -/
private theorem resultIdx_pair (idx : IVec ⟨2, ![P, 2]⟩ 32) (r : Fin P → Fin N) (c : Fin P → Fin M)
    (hr : ∀ p, (idx (ix2 p (0 : Fin 2))).toInt = ((r p).val : Int))
    (hc : ∀ p, (idx (ix2 p (1 : Fin 2))).toInt = ((c p).val : Int)) (p : Fin P) :
    (pairDims N M P wf).resultIdx? (ix1 p) idx = some (ix2 (r p) (c p)) := by
  have h0 : (pairDims N M P wf).start (ix1 p) idx 0 + ((pairDims N M P wf).window (ix1 p) 0 : Nat) = ((r p).val : Int) := by
    rw [start_zero, window_zero, hr]; simp
  have h1 : (pairDims N M P wf).start (ix1 p) idx 1 + ((pairDims N M P wf).window (ix1 p) 1 : Nat) = ((c p).val : Int) := by
    rw [start_one, window_zero, hc]; simp
  have hin : ∀ a : Fin 2, 0 ≤ (pairDims N M P wf).start (ix1 p) idx a + ((pairDims N M P wf).window (ix1 p) a : Nat) ∧
      (pairDims N M P wf).start (ix1 p) idx a + ((pairDims N M P wf).window (ix1 p) a : Nat)
        < ((⟨2, ![N, M]⟩ : Shape).size a : Nat) := by
    intro a
    match a with
    | ⟨0, _⟩ =>
      have := (r p).isLt
      show 0 ≤ (pairDims N M P wf).start (ix1 p) idx 0 + ((pairDims N M P wf).window (ix1 p) 0 : Nat) ∧
        (pairDims N M P wf).start (ix1 p) idx 0 + ((pairDims N M P wf).window (ix1 p) 0 : Nat) < (N : Int)
      rw [h0]; omega
    | ⟨1, _⟩ =>
      have := (c p).isLt
      show 0 ≤ (pairDims N M P wf).start (ix1 p) idx 1 + ((pairDims N M P wf).window (ix1 p) 1 : Nat) ∧
        (pairDims N M P wf).start (ix1 p) idx 1 + ((pairDims N M P wf).window (ix1 p) 1 : Nat) < (M : Int)
      rw [h1]; omega
  unfold ScatterDims.resultIdx?
  rw [dif_pos hin]
  congr 1
  funext a; refine Fin.ext ?_
  match a with
  | ⟨0, _⟩ =>
    show ((pairDims N M P wf).start (ix1 p) idx 0 + ((pairDims N M P wf).window (ix1 p) 0 : Nat)).toNat = (r p).val
    rw [h0]; simp
  | ⟨1, _⟩ =>
    show ((pairDims N M P wf).start (ix1 p) idx 1 + ((pairDims N M P wf).window (ix1 p) 1 : Nat)).toNat = (c p).val
    rw [h1]; simp

end ResultIdx

/-! ### The scatter as the fold, and its two readings -/

/-- The scatter whose body returns the update is the fold of the overwriting step over the update positions. -/
private theorem scatter_eq_fold {N M P : Nat}
    (wf : ScatterDims.WF ⟨2, ![N, M]⟩ ⟨2, ![P, 2]⟩ ⟨1, ![P]⟩ [] [0, 1] [0, 1] 1)
    (x : (⟨2, ![N, M]⟩ : Shape).Idx → α) (idx : IVec ⟨2, ![P, 2]⟩ 32) (upd : (⟨1, ![P]⟩ : Shape).Idx → α) :
    Host.scatter (pairDims N M P wf) (fun _ b => b) x idx upd
      = (List.finRange (⟨1, ![P]⟩ : Shape).numel).foldl
          (setStep (fun n => (pairDims N M P wf).resultIdx? ((⟨1, ![P]⟩ : Shape).rowMajor.symm n) idx)
            (fun n => upd ((⟨1, ![P]⟩ : Shape).rowMajor.symm n))) x := by
  unfold Host.scatter
  congr 1
  funext acc n
  unfold setStep
  beta_reduce
  cases (pairDims N M P wf).resultIdx? ((⟨1, ![P]⟩ : Shape).rowMajor.symm n) idx with
  | none => rfl
  | some i => rfl

/-- Two rank-2 indices with the same coordinates' images are equal only if the coordinates are. -/
private theorem ix2_inj {n0 n1 : Nat} {a a' : Fin n0} {b b' : Fin n1} (h : ix2 a b = ix2 a' b') : a = a' ∧ b = b' :=
  ⟨congrFun h 0, congrFun h 1⟩

/-- An entry some pair names holds that pair's update. -/
theorem scatter_set_pairs_hit {N M P : Nat}
    (wf : ScatterDims.WF ⟨2, ![N, M]⟩ ⟨2, ![P, 2]⟩ ⟨1, ![P]⟩ [] [0, 1] [0, 1] 1)
    (x : (⟨2, ![N, M]⟩ : Shape).Idx → α) (idx : IVec ⟨2, ![P, 2]⟩ 32) (upd : (⟨1, ![P]⟩ : Shape).Idx → α)
    (r : Fin P → Fin N) (c : Fin P → Fin M)
    (hr : ∀ p, (idx (ix2 p (0 : Fin 2))).toInt = ((r p).val : Int))
    (hc : ∀ p, (idx (ix2 p (1 : Fin 2))).toInt = ((c p).val : Int))
    (hinj : ∀ p q, r p = r q → c p = c q → p = q) (p : Fin P) :
    Host.scatter (pairDims N M P wf) (fun _ b => b) x idx upd (ix2 (r p) (c p)) = upd (ix1 p) := by
  rw [scatter_eq_fold]
  -- the one position naming (r p, c p) is the row-major position of the update index p
  have hsymm : (⟨1, ![P]⟩ : Shape).rowMajor.symm ((⟨1, ![P]⟩ : Shape).rowMajor (ix1 p)) = ix1 p :=
    Equiv.symm_apply_apply _ _
  rw [fold_hit _ _ (ix2 (r p) (c p)) ((⟨1, ![P]⟩ : Shape).rowMajor (ix1 p))
    (by show (pairDims N M P wf).resultIdx? _ idx = _; rw [hsymm]; exact resultIdx_pair wf idx r c hr hc p)
    _ x (List.mem_finRange _)]
  · show upd _ = _
    rw [hsymm]
  · -- any position naming (r p, c p) is the update index q with r q = r p and c q = c p, so q = p
    intro n _ hn
    obtain ⟨q, hq⟩ : ∃ q : Fin P, (⟨1, ![P]⟩ : Shape).rowMajor.symm n = ix1 q := ⟨_, eq_ix1 _⟩
    have hn' : (pairDims N M P wf).resultIdx? ((⟨1, ![P]⟩ : Shape).rowMajor.symm n) idx = some (ix2 (r p) (c p)) := hn
    rw [hq, resultIdx_pair wf idx r c hr hc q] at hn'
    obtain ⟨e0, e1⟩ := ix2_inj (Option.some.inj hn')
    have hqp : q = p := hinj q p e0 e1
    rw [hqp] at hq
    exact (Equiv.symm_apply_eq _).mp hq

/-- An entry no pair names keeps the operand's value. -/
theorem scatter_set_pairs_miss {N M P : Nat}
    (wf : ScatterDims.WF ⟨2, ![N, M]⟩ ⟨2, ![P, 2]⟩ ⟨1, ![P]⟩ [] [0, 1] [0, 1] 1)
    (x : (⟨2, ![N, M]⟩ : Shape).Idx → α) (idx : IVec ⟨2, ![P, 2]⟩ 32) (upd : (⟨1, ![P]⟩ : Shape).Idx → α)
    (r : Fin P → Fin N) (c : Fin P → Fin M)
    (hr : ∀ p, (idx (ix2 p (0 : Fin 2))).toInt = ((r p).val : Int))
    (hc : ∀ p, (idx (ix2 p (1 : Fin 2))).toInt = ((c p).val : Int))
    (i : Fin N) (j : Fin M) (hmiss : ∀ p, ¬ (r p = i ∧ c p = j)) :
    Host.scatter (pairDims N M P wf) (fun _ b => b) x idx upd (ix2 i j) = x (ix2 i j) := by
  rw [scatter_eq_fold]
  apply fold_miss
  -- every position is some update index q, which lands at (r q, c q), and that is not (i, j)
  intro n _ hn
  obtain ⟨q, hq⟩ : ∃ q : Fin P, (⟨1, ![P]⟩ : Shape).rowMajor.symm n = ix1 q := ⟨_, eq_ix1 _⟩
  have hn' : (pairDims N M P wf).resultIdx? ((⟨1, ![P]⟩ : Shape).rowMajor.symm n) idx = some (ix2 i j) := hn
  rw [hq, resultIdx_pair wf idx r c hr hc q] at hn'
  exact hmiss q (ix2_inj (Option.some.inj hn'))

end Cert.LibScatterSet

end
-- ==== Proof.KernelStages.lean ====
/-
  The kernel's host code before the launch as pure functions of the table of directions, stretch by stretch: the 27 node
  weights (nodeWts), the two tables of (row, column) pairs (pairsA, pairsB), the values written at them (valsA, valsB),
  and the mixing matrix (mixMat): zeros, the 459 entries of the first table set to the node weights, then the 24 of the
  second set to twice the centre's weight.
-/
import proofs.«101747_g12034498363475_cont_main3_758_3_alg».proof.KernelIdeal
import proofs.«101747_g12034498363475_cont_main3_758_3_alg».proof.Proof.Gen.KernelIdeal

noncomputable section

namespace Cert.KernelIdeal.Stages

open Cert.KernelIdeal Cert.KernelIdeal.Gen Idealize.ShloMosaic

variable {F : FTy → Type} [FloatOps F]

/-- The 26 edge weights between the centre and the other nodes: exp of minus the length of (direction v+1 - direction 0). -/
def edgeWts (nd : FVec F S27x3 .f32) : FVec F S26 .f32 :=
  let v0 : FVec F S26x3 .f32 := extractStridedSlice S26x3 ![1, 0] nd slices_S27x3_S26x3_1_0
  let v1 : FVec F S1x3 .f32 := extractStridedSlice S1x3 ![0, 0] nd slices_S27x3_S1x3_0_0
  let v2 : FVec F S26x3 .f32 := broadcastInDim S26x3 ![0, 1] bcast_S1x3_S26x3_0_1 v1
  let v3 : FVec F S26x3 .f32 := subf v0 v2
  let v4 : FVec F S26x3 .f32 := mulf v3 v3
  let cst : FVec F S_ .f32 := constant S_ .f32 0x00000000#32
  let v5 : FVec F S26 .f32 := Host.reduceAdd v4 cst reducesTo_S26x3_S26_d1 h_S_
  let v6 : FVec F S26 .f32 := Host.sqrt v5
  let v7 : FVec F S26 .f32 := Host.negf v6
  Host.exp v7

/-- The 27 node weights: the sum of the edge weights for the centre, then the edge weights, all divided by 27. -/
def nodeWts (nd : FVec F S27x3 .f32) : FVec F S27 .f32 :=
  let v8 : FVec F S26 .f32 := edgeWts nd
  let cst_7 : FVec F S_ .f32 := constant S_ .f32 0x00000000#32
  let v9 : FVec F S_ .f32 := Host.reduceAdd v8 cst_7 reducesTo_S26_S_d0 h_S_
  let v10 : FVec F S1 .f32 := broadcastInDim S1 ![] bcast_S_S1 v9
  let v11 : FVec F S27 .f32 := concatenate S27 0 [⟨S1, v10⟩, ⟨S26, v8⟩] concatenates_S1_S26_S27_d0
  let cst_8 : FVec F S_ .f32 := constant S_ .f32 0x41D80000#32
  let v12 : FVec F S27 .f32 := broadcastInDim S27 ![] bcast_S_S27 cst_8
  Host.divf v11 v12

/-- The values of the first table's entries: node v's weight, 17 times over. -/
def valsA (nd : FVec F S27x3 .f32) : FVec F S459 .f32 :=
  let v15 : FVec F S27x1 .f32 := broadcastInDim S27x1 ![0] bcast_S27_S27x1_0 (nodeWts nd)
  let v16 : FVec F S27x17 .f32 := broadcastInDim S27x17 ![0, 1] bcast_S27x1_S27x17_0_1 v15
  shapeCast S459 v16 shapeCasts_S27x17_S459

/-- The first table: 459 (row, column) pairs, a negative entry wrapped by the matrix's extent. -/
def pairsA : IVec S459x2 32 :=
  let c : IVec S459 32 := fun i => lit0 (S459.rowMajor i)
  let c_0 : IVec S459 1 := constantI S459 1 0#1
  let c_1 : IVec S459 32 := fun i => lit1 (S459.rowMajor i)
  let c_2 : IVec S459 1 := constantI S459 1 0#1
  let c_10 : IVec S_ 32 := constantI S_ 32 483#32
  let v18 : IVec S459 32 := broadcastInDim S459 ![] bcast_S_S459 c_10
  let v19 : IVec S459 32 := addi c v18
  let v20 : IVec S459 32 := select c_0 v19 c
  let c_11 : IVec S_ 32 := constantI S_ 32 41#32
  let v21 : IVec S459 32 := broadcastInDim S459 ![] bcast_S_S459 c_11
  let v22 : IVec S459 32 := addi c_1 v21
  let v23 : IVec S459 32 := select c_2 v22 c_1
  let v24 : IVec S459x1 32 := broadcastInDim S459x1 ![0] bcast_S459_S459x1_0 v20
  let v25 : IVec S459x1 32 := broadcastInDim S459x1 ![0] bcast_S459_S459x1_0 v23
  concatenate S459x2 1 [⟨S459x1, v24⟩, ⟨S459x1, v25⟩] concatenates_S459x1_S459x1_S459x2_d1

/-- The value of the second table's entries: twice the centre's weight, 24 times over. -/
def valsB (nd : FVec F S27x3 .f32) : FVec F S24 .f32 :=
  let v28 : FVec F S1 .f32 := extractStridedSlice S1 ![0] (nodeWts nd) slices_S27_S1_0
  let v29 : FVec F S_ .f32 := shapeCast S_ v28 shapeCasts_S1_S_
  let cst_12 : FVec F S_ .f32 := constant S_ .f32 0x40000000#32
  let v30 : FVec F S_ .f32 := mulf cst_12 v29
  broadcastInDim S24 ![] bcast_S_S24 v30

/-- The second table: 24 (row, column) pairs, a negative entry wrapped by the matrix's extent. -/
def pairsB : IVec S24x2 32 :=
  let c_3 : IVec S24 32 := fun i => lit2 (S24.rowMajor i)
  let c_4 : IVec S24 1 := constantI S24 1 0#1
  let c_5 : IVec S24 32 := fun i => lit3 (S24.rowMajor i)
  let c_6 : IVec S24 1 := constantI S24 1 0#1
  let c_13 : IVec S_ 32 := constantI S_ 32 483#32
  let v31 : IVec S24 32 := broadcastInDim S24 ![] bcast_S_S24 c_13
  let v32 : IVec S24 32 := addi c_3 v31
  let v33 : IVec S24 32 := select c_4 v32 c_3
  let c_14 : IVec S_ 32 := constantI S_ 32 41#32
  let v34 : IVec S24 32 := broadcastInDim S24 ![] bcast_S_S24 c_14
  let v35 : IVec S24 32 := addi c_5 v34
  let v36 : IVec S24 32 := select c_6 v35 c_5
  let v37 : IVec S24x1 32 := broadcastInDim S24x1 ![0] bcast_S24_S24x1_0 v33
  let v38 : IVec S24x1 32 := broadcastInDim S24x1 ![0] bcast_S24_S24x1_0 v36
  concatenate S24x2 1 [⟨S24x1, v37⟩, ⟨S24x1, v38⟩] concatenates_S24x1_S24x1_S24x2_d1

/-- The mixing matrix. -/
def mixMat (nd : FVec F S27x3 .f32) : FVec F S483x41 .f32 :=
  let cst_9 : FVec F S_ .f32 := constant S_ .f32 0x00000000#32
  let v14 : FVec F S483x41 .f32 := broadcastInDim S483x41 ![] bcast_S_S483x41 cst_9
  let v27 : FVec F S483x41 .f32 := Host.scatter scatter_S483x41_S459x2_S459_n_01_01_1 (fun _ b => b) v14 pairsA (valsA nd)
  Host.scatter scatter_S483x41_S24x2_S24_n_01_01_1 (fun _ b => b) v27 pairsB (valsB nd)

end Cert.KernelIdeal.Stages

end
-- ==== Proof.KernelWeights.lean ====
/-
  The pieces of the kernel's host code read at an index: the node weights are nodeW, the first table's values are the weight of node p / 17 at pair p, the second's twice the centre's
  weight.
-/
import proofs.«101747_g12034498363475_cont_main3_758_3_alg».proof.Proof.KernelStages
import proofs.«101747_g12034498363475_cont_main3_758_3_alg».proof.Proof.Spec
import Idealize.ShloMosaic.PureOps.Ideal.Laws
import Idealize.ShloMosaic.Lib.Pipeline.Value
import Idealize.ShloMosaic.Lib.ValueLayout

noncomputable section

namespace Cert.KernelIdeal.Mix

open Cert.KernelIdeal Cert.KernelIdeal.Gen Idealize.ShloMosaic Idealize.ShloMosaic.ValueIdx

/-- A rank-1 index set is its coordinate range, so a sum over it is the sum over the coordinate. -/
private def idxEquivOne {n : Nat} : (⟨1, ![n]⟩ : Shape).Idx ≃ Fin n where
  toFun i := i 0
  invFun := ix1
  left_inv i := (eq_ix1 i).symm
  right_inv _ := rfl

private theorem sum_idx1 {M : Type*} [AddCommMonoid M] {n : Nat} (f : (⟨1, ![n]⟩ : Shape).Idx → M) :
    ∑ i, f i = ∑ a : Fin n, f (ix1 a) := by
  rw [← Equiv.sum_comp (idxEquivOne (n := n)).symm f]
  rfl

private theorem reduces_S26x3_S26_d1 : S26x3.Reduces [1] S26 := by decide

/-- Edge weight u is the weight of the edge from the centre to node u + 1: exp of minus the root of the sum over the three
    coordinates of the squared difference of the two directions. -/
theorem edgeWts_apply (nd : FVec Ideal S27x3 .f32) (u : Fin 26) :
    Stages.edgeWts (F := Ideal) nd (ix1 u)
      = Cert.Star.edgeW nd (⟨u.val + 1, by omega⟩ : Fin 27) (⟨0, by omega⟩ : Fin 27) := by
  unfold Stages.edgeWts Cert.Star.edgeW Cert.Star.sqd
  show Ideal.exp (-(Ideal.sqrt (Ideal.hostReduceAdd reducesTo_S26x3_S26_d1 _ _ (ix1 u)))) = _
  rw [Ideal.hostReduceAdd_single reducesTo_S26x3_S26_d1 reduces_S26x3_S26_d1, constant_apply, Ideal.ofBits_zero_f32,
    zero_add]
  congr 3
  refine Finset.sum_congr rfl fun (d : Fin 3) _ => ?_
  -- the source index over (u) with coordinate d on the summed axis is (u, d)
  have hl : reduces_S26x3_S26_d1.lift (ix1 u) d = ix2 u d := by
    funext c; refine Fin.ext ?_
    match c with
    | ⟨0, _⟩ => rfl
    | ⟨1, _⟩ => rfl
  rw [hl, mulf_apply, subf_apply]
  -- rows 1.. of the table at (u, d) are the table at (u + 1, d); row 0 broadcast down the rows is the table at (0, d)
  rw [slice2_axis0_apply 1 nd slices_S27x3_S26x3_1_0 u d (⟨u.val + 1, by omega⟩ : Fin 27) (by simp; omega)]
  rw [broadcastInDim_apply _ bcast_S1x3_S26x3_0_1 _ (ix2 u d) (ix2 (0 : Fin 1) d) (fun a => by
    match a with
    | ⟨0, _⟩ => rfl
    | ⟨1, _⟩ => rfl)]
  rw [slice2_axis0_apply 0 nd slices_S27x3_S1x3_0_0 (0 : Fin 1) d (⟨0, by omega⟩ : Fin 27) (by simp)]

theorem nodeWts_apply (nd : FVec Ideal S27x3 .f32) (v : Fin 27) :
    Stages.nodeWts (F := Ideal) nd (ix1 v) = Cert.Star.nodeW nd v := by
  unfold Stages.nodeWts Cert.Star.nodeW Cert.Star.c27
  show Ideal.div (concatenate S27 0 [⟨S1, _⟩, ⟨S26, Stages.edgeWts (F := Ideal) nd⟩] concatenates_S1_S26_S27_d0 (ix1 v))
      (broadcastInDim S27 ![] bcast_S_S27 (constant (F := Ideal) S_ .f32 0x41D80000#32) (ix1 v)) = _
  -- the divisor is the scalar 27.0 everywhere
  rw [broadcastInDim_apply ![] bcast_S_S27 _ (ix1 v) ix0 (fun a => a.elim0), constant_apply]
  congr 1
  by_cases hv : v.val = 0
  · -- the centre: the first piece, the sum of the 26 edge weights broadcast to one entry
    rw [if_pos hv,
      concatenate_pair_apply_left (t := S27) (s₁ := S1) (s₂ := S26) (0 : Fin 1) _ _ concatenates_S1_S26_S27_d0 (ix1 v) rfl (ix1 (0 : Fin 1)) (fun b => by
        match b with
        | ⟨0, _⟩ => exact hv.symm),
      broadcastInDim_apply ![] bcast_S_S1 _ (ix1 (0 : Fin 1)) ix0 (fun a => a.elim0)]
    show Ideal.hostReduceAdd reducesTo_S26_S_d0 _ _ ix0 = _
    rw [Ideal.hostReduceAdd_total reducesTo_S26_S_d0 (fun b => b.elim0), constant_apply, Ideal.ofBits_zero_f32, zero_add,
      sum_idx1]
    exact Finset.sum_congr rfl fun u _ => edgeWts_apply nd u
  · -- node v >= 1: the second piece at v - 1, the weight of the edge from the centre to node (v - 1) + 1 = v
    rw [if_neg hv,
      concatenate_pair_apply_right (t := S27) (s₁ := S1) (s₂ := S26) (0 : Fin 1) _ _ concatenates_S1_S26_S27_d0 (ix1 v) rfl rfl
        (ix1 (⟨v.val - 1, by omega⟩ : Fin 26))
        (fun b hb => by
          match b with
          | ⟨0, _⟩ => exact absurd rfl hb)
        (by show v.val - 1 + 1 = v.val; omega),
      edgeWts_apply]
    congr 1
    exact Fin.ext (by show v.val - 1 + 1 = v.val; omega)

theorem valsA_apply (nd : FVec Ideal S27x3 .f32) (p : Fin 459) :
    Stages.valsA (F := Ideal) nd (ix1 p) = Cert.Star.nodeW nd (⟨p.val / 17, by omega⟩ : Fin 27) := by
  unfold Stages.valsA
  -- entry p of the 459 is entry (p / 17, p % 17) of the 27 x 17 array: the same row-major position
  rw [shapeCast_apply _ shapeCasts_S27x17_S459 (ix1 p)
      (ix2 (⟨p.val / 17, by omega⟩ : Fin 27) (⟨p.val % 17, Nat.mod_lt _ (by omega)⟩ : Fin 17)) (by
        rw [Shape.rowMajor_val_two, Shape.rowMajor_val_one]
        show p.val / 17 * 17 + p.val % 17 = p.val
        omega)]
  -- a column broadcast along the rows, then a vector broadcast to a column: node p / 17's weight
  rw [broadcastInDim_apply _ bcast_S27x1_S27x17_0_1 _ _ (ix2 (⟨p.val / 17, by omega⟩ : Fin 27) (0 : Fin 1)) (fun a => by
        match a with
        | ⟨0, _⟩ => rfl
        | ⟨1, _⟩ => rfl),
    broadcastInDim_apply _ bcast_S27_S27x1_0 _ _ (ix1 (⟨p.val / 17, by omega⟩ : Fin 27)) (fun a => by
        match a with
        | ⟨0, _⟩ => rfl),
    nodeWts_apply]

theorem valsB_apply (nd : FVec Ideal S27x3 .f32) (q : Fin 24) :
    Stages.valsB (F := Ideal) nd (ix1 q) = Cert.Star.c2 * Cert.Star.nodeW nd (⟨0, by omega⟩ : Fin 27) := by
  unfold Stages.valsB Cert.Star.c2
  -- a scalar broadcast: the product of 2.0 and entry 0 of the node weights, reshaped to a scalar
  rw [broadcastInDim_apply ![] bcast_S_S24 _ (ix1 q) ix0 (fun a => a.elim0), mulf_apply, constant_apply,
    shapeCast_apply _ shapeCasts_S1_S_ ix0 (ix1 (0 : Fin 1)) (by
      rw [Shape.rowMajor_val_one]
      rfl),
    extractStridedSlice_apply ![0] _ slices_S27_S1_0 (ix1 (0 : Fin 1)) (ix1 (⟨0, by omega⟩ : Fin 27)) (fun a => by
      match a with
      | ⟨0, _⟩ => rfl),
    nodeWts_apply]

end Cert.KernelIdeal.Mix

end
-- ==== Proof.KernelPairs.lean ====
/-
  The kernel's two tables of (row, column) pairs read at an index: the first table's pair p is
  (col (p / 17) (p % 17), p % 17), the second's pair q is (459 + q, 17 + q).
-/
import proofs.«101747_g12034498363475_cont_main3_758_3_alg».proof.Proof.KernelStages
import proofs.«101747_g12034498363475_cont_main3_758_3_alg».proof.Proof.Spec
import Idealize.ShloMosaic.Lib.Pipeline.Value
import Idealize.ShloMosaic.Lib.ValueLayout

noncomputable section

namespace Cert.KernelIdeal.Mix

open Cert.KernelIdeal Cert.KernelIdeal.Gen Idealize.ShloMosaic Idealize.ShloMosaic.ValueIdx

/-! ### Reading the two-column tables entry by entry -/

/-- The row-major position of the rank-1 index p among 459 is p. -/
private theorem rowMajor459 (p : Fin 459) : S459.rowMajor (ix1 p) = p := Fin.ext (Shape.rowMajor_val_one _)

/-- The row-major position of the rank-1 index q among 24 is q. -/
private theorem rowMajor24 (q : Fin 24) : S24.rowMajor (ix1 q) = q := Fin.ext (Shape.rowMajor_val_one _)

/-- A column vector made from a length-P vector (P not 1) reads at (p, 0) the vector's entry p. -/
private theorem column_apply {P : Nat} (hP : P ≠ 1) {α : Type}
    (h : (⟨1, ![P]⟩ : Shape).BroadcastsInDim ⟨2, ![P, 1]⟩ (![0] : Fin 1 → Fin 2))
    (x : (⟨1, ![P]⟩ : Shape).Idx → α) (p : Fin P) :
    broadcastInDim (⟨2, ![P, 1]⟩ : Shape) (![0] : Fin 1 → Fin 2) h x (ix2 p (0 : Fin 1)) = x (ix1 p) := by
  refine broadcastInDim_apply _ h x _ (ix1 p) ?_
  intro a
  match a with
  | ⟨0, _⟩ =>
    show p.val = if P = 1 then 0 else p.val
    rw [if_neg hP]

/-- Two columns side by side read at (p, 0): the first column's entry. -/
private theorem beside_left {P : Nat} {α : Type}
    (h : Shape.Concatenates [(⟨2, ![P, 1]⟩ : Shape), ⟨2, ![P, 1]⟩] ⟨2, ![P, 2]⟩ (1 : Fin 2))
    (x₁ x₂ : (⟨2, ![P, 1]⟩ : Shape).Idx → α) (p : Fin P) :
    concatenate (⟨2, ![P, 2]⟩ : Shape) (1 : Fin 2) [⟨⟨2, ![P, 1]⟩, x₁⟩, ⟨⟨2, ![P, 1]⟩, x₂⟩] h (ix2 p (0 : Fin 2))
      = x₁ (ix2 p (0 : Fin 1)) := by
  refine concatenate_pair_apply_left (1 : Fin 2) x₁ x₂ h (ix2 p (0 : Fin 2)) rfl (ix2 p (0 : Fin 1)) ?_
  intro b
  match b with
  | ⟨0, _⟩ => rfl
  | ⟨1, _⟩ => rfl

/-- Two columns side by side read at (p, 1): the second column's entry. -/
private theorem beside_right {P : Nat} {α : Type}
    (h : Shape.Concatenates [(⟨2, ![P, 1]⟩ : Shape), ⟨2, ![P, 1]⟩] ⟨2, ![P, 2]⟩ (1 : Fin 2))
    (x₁ x₂ : (⟨2, ![P, 1]⟩ : Shape).Idx → α) (p : Fin P) :
    concatenate (⟨2, ![P, 2]⟩ : Shape) (1 : Fin 2) [⟨⟨2, ![P, 1]⟩, x₁⟩, ⟨⟨2, ![P, 1]⟩, x₂⟩] h (ix2 p (1 : Fin 2))
      = x₂ (ix2 p (0 : Fin 1)) := by
  refine concatenate_pair_apply_right (1 : Fin 2) x₁ x₂ h (ix2 p (1 : Fin 2)) rfl rfl (ix2 p (0 : Fin 1)) ?_ ?_
  · intro b hb
    match b, hb with
    | ⟨0, _⟩, _ => rfl
    | ⟨1, _⟩, hb => exact absurd rfl hb
  · rfl

/-- A select on the all-false mask is its second vector. -/
private theorem select_false {s : Shape} {α : Type} (a b : s.Idx → α) (i : s.Idx) :
    select (constantI s 1 0#1) a b i = b i := by
  rw [select_apply, constantI_apply]
  exact select_zero _ _

/-- The first table at (p, 0) is the first literal's word p. -/
private theorem pairsA_zero (p : Fin 459) : Stages.pairsA (ix2 p (0 : Fin 2)) = lit0 p := by
  unfold Stages.pairsA
  refine (beside_left _ _ _ p).trans ?_
  refine (column_apply (by decide) _ _ p).trans ?_
  refine (select_false _ _ _).trans ?_
  exact congrArg lit0 (rowMajor459 p)

/-- The first table at (p, 1) is the second literal's word p. -/
private theorem pairsA_one (p : Fin 459) : Stages.pairsA (ix2 p (1 : Fin 2)) = lit1 p := by
  unfold Stages.pairsA
  refine (beside_right _ _ _ p).trans ?_
  refine (column_apply (by decide) _ _ p).trans ?_
  refine (select_false _ _ _).trans ?_
  exact congrArg lit1 (rowMajor459 p)

/-- The second table at (q, 0) is the third literal's word q. -/
private theorem pairsB_zero (q : Fin 24) : Stages.pairsB (ix2 q (0 : Fin 2)) = lit2 q := by
  unfold Stages.pairsB
  refine (beside_left _ _ _ q).trans ?_
  refine (column_apply (by decide) _ _ q).trans ?_
  refine (select_false _ _ _).trans ?_
  exact congrArg lit2 (rowMajor24 q)

/-- The second table at (q, 1) is the fourth literal's word q. -/
private theorem pairsB_one (q : Fin 24) : Stages.pairsB (ix2 q (1 : Fin 2)) = lit3 q := by
  unfold Stages.pairsB
  refine (beside_right _ _ _ q).trans ?_
  refine (column_apply (by decide) _ _ q).trans ?_
  refine (select_false _ _ _).trans ?_
  exact congrArg lit3 (rowMajor24 q)

/-! ### The four literals in closed form -/

/-- The channel order as a function of numbers: 0..3, then 16, then 4..15. -/
private def chanNat (r : Nat) : Nat := if r < 4 then r else if r = 4 then 16 else r - 1

/-- Word p of the first literal: block p / 17, channel chanNat (p % 17). -/
private theorem lit0_closed : ∀ p : Fin 459,
    (lit0 p).toInt = ((17 * (p.val / 17) + chanNat (p.val % 17) : Nat) : Int) := by decide +kernel

/-- Word p of the second literal: p % 17. -/
private theorem lit1_closed : ∀ p : Fin 459, (lit1 p).toInt = ((p.val % 17 : Nat) : Int) := by decide +kernel

/-- Word q of the third literal: 459 + q. -/
private theorem lit2_closed : ∀ q : Fin 24, (lit2 q).toInt = ((459 + q.val : Nat) : Int) := by decide +kernel

/-- Word q of the fourth literal: 17 + q. -/
private theorem lit3_closed : ∀ q : Fin 24, (lit3 q).toInt = ((17 + q.val : Nat) : Int) := by decide +kernel

/-- Below 17 the channel of an output column is the numeric channel order. -/
private theorem chan_val (j : Fin 41) (hj : j.val < 17) : (Cert.Star.chan j).val = chanNat j.val := by
  unfold Cert.Star.chan chanNat
  by_cases h4 : j.val < 4
  · rw [if_pos h4, if_pos h4]
  · rw [if_neg h4, if_neg h4]
    by_cases h5 : j.val = 4
    · rw [dif_pos h5, if_pos h5]
    · rw [dif_neg h5, if_neg h5, dif_pos hj]

/-- Below 17 the numeric channel is below 17. -/
private theorem chanNat_lt {r : Nat} (hr : r < 17) : chanNat r < 17 := by
  unfold chanNat
  split
  · omega
  · split <;> omega

/-- For an output column below 17, node v shows the state column 17 v + channel. -/
private theorem col_val (v : Fin 27) (j : Fin 41) (hj : j.val < 17) :
    (Cert.Star.col v j).val = 17 * v.val + chanNat j.val := by
  have h1 := chan_val j hj
  have h2 : (Cert.Star.chan j).val < 17 := by rw [h1]; exact chanNat_lt hj
  unfold Cert.Star.col
  rw [dif_pos h2]
  show 17 * v.val + (Cert.Star.chan j).val = _
  rw [h1]

theorem pairsA_row (p : Fin 459) :
    (Stages.pairsA (ix2 p (0 : Fin 2))).toInt
      = ((Cert.Star.col (⟨p.val / 17, by omega⟩ : Fin 27) (⟨p.val % 17, by omega⟩ : Fin 41)).val : Int) := by
  refine (congrArg BitVec.toInt (pairsA_zero p)).trans ((lit0_closed p).trans ?_)
  exact congrArg Nat.cast (col_val (⟨p.val / 17, by omega⟩ : Fin 27) (⟨p.val % 17, by omega⟩ : Fin 41)
    (Nat.mod_lt _ (by decide))).symm

theorem pairsA_col (p : Fin 459) :
    (Stages.pairsA (ix2 p (1 : Fin 2))).toInt = ((p.val % 17 : Nat) : Int) := by
  exact (congrArg BitVec.toInt (pairsA_one p)).trans (lit1_closed p)

theorem pairsB_row (q : Fin 24) :
    (Stages.pairsB (ix2 q (0 : Fin 2))).toInt = ((459 + q.val : Nat) : Int) := by
  exact (congrArg BitVec.toInt (pairsB_zero q)).trans (lit2_closed q)

theorem pairsB_col (q : Fin 24) :
    (Stages.pairsB (ix2 q (1 : Fin 2))).toInt = ((17 + q.val : Nat) : Int) := by
  exact (congrArg BitVec.toInt (pairsB_one q)).trans (lit3_closed q)

end Cert.KernelIdeal.Mix

end
-- ==== Proof.KernelMix.lean ====
/-
  The matrix the kernel's host code builds before the launch is the mixing matrix of the table of directions.
-/
import proofs.«101747_g12034498363475_cont_main3_758_3_alg».proof.Proof.Gen.KernelIdeal.Frame
import proofs.«101747_g12034498363475_cont_main3_758_3_alg».proof.Proof.Spec
import proofs.«101747_g12034498363475_cont_main3_758_3_alg».proof.Proof.LibScatterSet
import proofs.«101747_g12034498363475_cont_main3_758_3_alg».proof.Proof.KernelStages
import proofs.«101747_g12034498363475_cont_main3_758_3_alg».proof.Proof.KernelWeights
import proofs.«101747_g12034498363475_cont_main3_758_3_alg».proof.Proof.KernelPairs
import Idealize.ShloMosaic.Lib.IdealHost

noncomputable section

namespace Cert.KernelIdeal.Mix

open Cert.KernelIdeal Cert.KernelIdeal.Gen Idealize.ShloMosaic Idealize.ShloMosaic.TcCoe Idealize.SL.Sem
open Idealize.ShloMosaic.ValueIdx

/-! ## The host operations' composed term -/

/-- The three concatenations of the host code as functions of their two pieces. -/
private def cat27 (a : FVec Ideal S1 .f32) (b : FVec Ideal S26 .f32) : FVec Ideal S27 .f32 :=
  concatenate S27 0 [⟨S1, a⟩, ⟨S26, b⟩] Facts₀.concatenates_S1_S26_S27_d0
private def catA (a b : IVec S459x1 32) : IVec S459x2 32 :=
  concatenate S459x2 1 [⟨S459x1, a⟩, ⟨S459x1, b⟩] Facts₀.concatenates_S459x1_S459x1_S459x2_d1
private def catB (a b : IVec S24x1 32) : IVec S24x2 32 :=
  concatenate S24x2 1 [⟨S24x1, a⟩, ⟨S24x1, b⟩] Facts₀.concatenates_S24x1_S24x1_S24x2_d1

private theorem cat27_def (a : FVec Ideal S1 .f32) (b : FVec Ideal S26 .f32) :
    concatenate S27 0 [⟨S1, a⟩, ⟨S26, b⟩] Facts₀.concatenates_S1_S26_S27_d0 = cat27 a b := rfl
private theorem catA_def (a b : IVec S459x1 32) :
    concatenate S459x2 1 [⟨S459x1, a⟩, ⟨S459x1, b⟩] Facts₀.concatenates_S459x1_S459x1_S459x2_d1 = catA a b := rfl
private theorem catB_def (a b : IVec S24x1 32) :
    concatenate S24x2 1 [⟨S24x1, a⟩, ⟨S24x1, b⟩] Facts₀.concatenates_S24x1_S24x1_S24x2_d1 = catB a b := rfl

attribute [local irreducible] Host.scatter Host.reduceAdd concatenate in
open Idealize.ShloMosaic.StableHlo in
/-- The second operand of the launch is the host operations' composed term at the table of directions. -/
theorem mix_term (m : (ℓ : Loc nD τ sig) → Buf (Elt Ideal) ℓ) (c : Dev nD) :
    (Gen.V (F := Ideal) m c main_v41 : S483x41.Idx → EReal)
      = Stages.mixMat (F := Ideal) (m ((c.tc : Thread nD τ).loc main_arg1)) := by
  dsimp only [Gen.V, Gen.hostOps0]
  simp (disch := decide) only [after_cons, after_nil, cat27_def, catA_def, catB_def,
      nullary_result', unary_result', binary_result', ternary_result', reshape_result',
      nullary_result_ne', unary_result_ne', binary_result_ne', ternary_result_ne', reshape_result_ne']
  rfl

/-! ## The two tables' pairs -/

/-- An output column below 17 shows a channel below 17. -/
private theorem chan_lt (j : Fin 41) (hj : j.val < 17) : (Cert.Star.chan j).val < 17 := by
  unfold Cert.Star.chan
  split_ifs with h1 h2
  · exact hj
  · show 16 < 17; omega
  · show j.val - 1 < 17; omega

/-- For an output column below 17, node v's column of the state row is 17 v + chan j. -/
private theorem col_val (v : Fin 27) (j : Fin 41) (hj : j.val < 17) :
    (Cert.Star.col v j).val = 17 * v.val + (Cert.Star.chan j).val := by
  unfold Cert.Star.col
  rw [dif_pos (chan_lt j hj)]

/-- The first table's pair p: row col (p / 17) (p % 17), column p % 17. -/
private def cA (p : Fin 459) : Fin 41 := ⟨p.val % 17, by omega⟩
private def rA (p : Fin 459) : Fin 483 := Cert.Star.col (⟨p.val / 17, by omega⟩ : Fin 27) (cA p)
/-- The second table's pair q: row 459 + q, column 17 + q. -/
private def rB (q : Fin 24) : Fin 483 := ⟨459 + q.val, by omega⟩
private def cB (q : Fin 24) : Fin 41 := ⟨17 + q.val, by omega⟩

private theorem cA_val (p : Fin 459) : (cA p).val = p.val % 17 := rfl
private theorem rB_val (q : Fin 24) : (rB q).val = 459 + q.val := rfl
private theorem cB_val (q : Fin 24) : (cB q).val = 17 + q.val := rfl

private theorem rA_val (p : Fin 459) : (rA p).val = 17 * (p.val / 17) + (Cert.Star.chan (cA p)).val :=
  col_val _ (cA p) (by rw [cA_val]; omega)

private theorem chan_cA_lt (p : Fin 459) : (Cert.Star.chan (cA p)).val < 17 :=
  chan_lt (cA p) (by rw [cA_val]; omega)

/-- The first table's pairs are pairwise distinct. -/
private theorem injA (p q : Fin 459) (hr : rA p = rA q) (hc : cA p = cA q) : p = q := by
  have h1 := congrArg Fin.val hr
  rw [rA_val, rA_val, hc] at h1
  have h2 : p.val % 17 = q.val % 17 := congrArg Fin.val hc
  apply Fin.ext; omega

/-- The second table's pairs are pairwise distinct. -/
private theorem injB (p q : Fin 24) (hr : rB p = rB q) (hc : cB p = cB q) : p = q := by
  have h1 : 459 + p.val = 459 + q.val := congrArg Fin.val hr
  apply Fin.ext; omega

/-! ## The two scatters read at an index -/

/-- The matrix of zeros the scatters start from. -/
private def zeros : FVec Ideal S483x41 .f32 :=
  broadcastInDim S483x41 ![] Facts₀.bcast_S_S483x41 (constant S_ .f32 0x00000000#32)

private theorem zeros_apply (y : S483x41.Idx) : zeros y = (0 : EReal) := by
  unfold zeros
  rw [broadcastInDim_scalar_apply, constant_apply, Ideal.ofBits_zero_f32]

/-- The matrix after the first scatter, and after the second. -/
private def inner (nd : FVec Ideal S27x3 .f32) : FVec Ideal S483x41 .f32 :=
  Host.scatter (Cert.LibScatterSet.pairDims 483 41 459 Facts₀.scatter_S483x41_S459x2_S459_n_01_01_1_wf) (fun _ b => b)
    zeros Stages.pairsA (Stages.valsA (F := Ideal) nd)
private def outer (nd : FVec Ideal S27x3 .f32) : FVec Ideal S483x41 .f32 :=
  Host.scatter (Cert.LibScatterSet.pairDims 483 41 24 Facts₀.scatter_S483x41_S24x2_S24_n_01_01_1_wf) (fun _ b => b)
    (inner nd) Stages.pairsB (Stages.valsB (F := Ideal) nd)

attribute [local irreducible] Host.scatter in
private theorem mixMat_eq_outer (nd : FVec Ideal S27x3 .f32) : Stages.mixMat (F := Ideal) nd = outer nd := rfl

private theorem inner_hit (nd : FVec Ideal S27x3 .f32) (p : Fin 459) :
    inner nd (ix2 (rA p) (cA p)) = Cert.Star.nodeW nd (⟨p.val / 17, by omega⟩ : Fin 27) :=
  (Cert.LibScatterSet.scatter_set_pairs_hit _ zeros Stages.pairsA (Stages.valsA (F := Ideal) nd) rA cA
    (fun p => pairsA_row p) (fun p => pairsA_col p) injA p).trans (valsA_apply nd p)

private theorem inner_miss (nd : FVec Ideal S27x3 .f32) (k : Fin 483) (j : Fin 41)
    (h : ∀ p, ¬ (rA p = k ∧ cA p = j)) : inner nd (ix2 k j) = (0 : EReal) :=
  (Cert.LibScatterSet.scatter_set_pairs_miss _ zeros Stages.pairsA (Stages.valsA (F := Ideal) nd) rA cA
    (fun p => pairsA_row p) (fun p => pairsA_col p) k j h).trans (zeros_apply _)

private theorem outer_hit (nd : FVec Ideal S27x3 .f32) (q : Fin 24) :
    outer nd (ix2 (rB q) (cB q)) = Cert.Star.c2 * Cert.Star.nodeW nd (⟨0, by omega⟩ : Fin 27) :=
  (Cert.LibScatterSet.scatter_set_pairs_hit _ (inner nd) Stages.pairsB (Stages.valsB (F := Ideal) nd) rB cB
    (fun q => pairsB_row q) (fun q => pairsB_col q) injB q).trans (valsB_apply nd q)

private theorem outer_miss (nd : FVec Ideal S27x3 .f32) (k : Fin 483) (j : Fin 41)
    (h : ∀ q, ¬ (rB q = k ∧ cB q = j)) : outer nd (ix2 k j) = inner nd (ix2 k j) :=
  Cert.LibScatterSet.scatter_set_pairs_miss _ (inner nd) Stages.pairsB (Stages.valsB (F := Ideal) nd) rB cB
    (fun q => pairsB_row q) (fun q => pairsB_col q) k j h

/-- The composed term at an index is the mixing matrix's entry. -/
theorem mixMat_apply (nd : FVec Ideal S27x3 .f32) (k : Fin 483) (j : Fin 41) :
    Stages.mixMat (F := Ideal) nd (ix2 k j) = Cert.Star.mix nd k j := by
  rw [mixMat_eq_outer]
  unfold Cert.Star.mix
  by_cases hk : k.val < 459
  · rw [dif_pos hk]
    -- the second table's rows are all 459 or more
    rw [outer_miss nd k j (fun q h => by
      have h1 := congrArg Fin.val h.1
      rw [rB_val] at h1; omega)]
    by_cases hc : j.val < 17 ∧ k.val % 17 = (Cert.Star.chan j).val
    · rw [if_pos hc]
      -- the pair 17 (k / 17) + j of the first table names (k, j)
      have hp : 17 * (k.val / 17) + j.val < 459 := by omega
      have hp17 : (17 * (k.val / 17) + j.val) / 17 = k.val / 17 := by omega
      have hpm : (17 * (k.val / 17) + j.val) % 17 = j.val := by omega
      have hcp : cA ⟨17 * (k.val / 17) + j.val, hp⟩ = j := Fin.ext hpm
      have hrp : rA ⟨17 * (k.val / 17) + j.val, hp⟩ = k := by
        apply Fin.ext
        rw [rA_val, hcp]
        show 17 * ((17 * (k.val / 17) + j.val) / 17) + (Cert.Star.chan j).val = k.val
        rw [hp17]; omega
      have := inner_hit nd ⟨17 * (k.val / 17) + j.val, hp⟩
      rw [hrp, hcp] at this
      rw [this]
      congr 1
      exact Fin.ext hp17
    · rw [if_neg hc]
      apply inner_miss
      rintro p ⟨h1, h2⟩
      apply hc
      have h1' := congrArg Fin.val h1
      rw [rA_val, h2] at h1'
      have h2' : p.val % 17 = j.val := congrArg Fin.val h2
      have hj : j.val < 17 := by omega
      have := chan_lt j hj
      constructor <;> omega
  · rw [dif_neg hk]
    -- the first table's rows are all below 459
    have hin : inner nd (ix2 k j) = (0 : EReal) := inner_miss nd k j (fun p h => by
      have h1 := congrArg Fin.val h.1
      rw [rA_val] at h1
      have := chan_cA_lt p
      omega)
    by_cases hc : 17 ≤ j.val ∧ k.val - 459 = j.val - 17
    · rw [if_pos hc]
      have hq : k.val - 459 < 24 := by omega
      have hrq : rB ⟨k.val - 459, hq⟩ = k := Fin.ext (by rw [rB_val]; show 459 + (k.val - 459) = k.val; omega)
      have hcq : cB ⟨k.val - 459, hq⟩ = j := Fin.ext (by rw [cB_val]; show 17 + (k.val - 459) = j.val; omega)
      have := outer_hit nd ⟨k.val - 459, hq⟩
      rw [hrq, hcq] at this
      exact this
    · rw [if_neg hc, outer_miss nd k j (fun q h => hc (by
        have h1 := congrArg Fin.val h.1
        have h2 := congrArg Fin.val h.2
        rw [rB_val] at h1; rw [cB_val] at h2
        omega)), hin]

/-! ## The claim -/

/-- The second operand of the launch, as the region finds it: zeros, with node v's weight at (17 v + chan j, j) for
    j < 17 and twice the centre's weight at (459 + (j - 17), j) for j >= 17. -/
theorem mix_eq (m : (ℓ : Loc nD τ sig) → Buf (Elt Ideal) ℓ) (c : Dev nD) :
    (Gen.V (F := Ideal) m c main_v41 : S483x41.Idx → EReal)
      = fun y => Cert.Star.mix (m ((c.tc : Thread nD τ).loc main_arg1)) (y 0) (y 1) := by
  funext y
  obtain ⟨k, j, rfl⟩ : ∃ (k : Fin 483) (j : Fin 41), y = ix2 k j := ⟨y 0, y 1, eq_ix2 y⟩
  exact (congrFun (mix_term m c) (ix2 k j)).trans (mixMat_apply _ k j)

end Cert.KernelIdeal.Mix

end
-- ==== Proof.KernelValue.lean ====
/-
  The kernel's run: each block of 4000 output rows is the product of the matching state rows with the mixing matrix,
  the five blocks tile the output, so the whole output is the mixed form of the arguments.
-/
import proofs.«101747_g12034498363475_cont_main3_758_3_alg».proof.Proof.Gen.KernelIdeal.Value
import proofs.«101747_g12034498363475_cont_main3_758_3_alg».proof.Proof.KernelMix
import Idealize.ShloMosaic.PureOps.Ideal.Laws
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx

/-! ## The product's operand indices -/

/-- The dimension numbers of the body's product: rows of the state block by columns of the matrix, contracted over the
    483 state columns. -/
abbrev D : DotDims S4000x483 S483x41 S4000x41 := dot_S4000x483_S483x41_S4000x41_1_0_0_1_n_n

theorem lhs_0 (j : S4000x41.Idx) (k : D.contr.Idx) : (D.lhsIdx j k 0 : ℕ) = j 0 := by
  simp [DotDims.lhsIdx, D, dot_S4000x483_S483x41_S4000x41_1_0_0_1_n_n]; rfl
theorem lhs_1 (j : S4000x41.Idx) (k : D.contr.Idx) : (D.lhsIdx j k 1 : ℕ) = k ⟨0, by decide⟩ := by
  simp [DotDims.lhsIdx, D, dot_S4000x483_S483x41_S4000x41_1_0_0_1_n_n]; rfl
theorem rhs_0 (j : S4000x41.Idx) (k : D.contr.Idx) : (D.rhsIdx j k 0 : ℕ) = k ⟨0, by decide⟩ := by
  simp [DotDims.rhsIdx, D, dot_S4000x483_S483x41_S4000x41_1_0_0_1_n_n]; rfl
theorem rhs_1 (j : S4000x41.Idx) (k : D.contr.Idx) : (D.rhsIdx j k 1 : ℕ) = j 1 := by
  simp [DotDims.rhsIdx, D, dot_S4000x483_S483x41_S4000x41_1_0_0_1_n_n]; rfl

/-- The contraction's indices are the 483 state columns. -/
abbrev contr483 : D.contr.Idx ≃ Fin 483 := contrEquiv1 D 483 rfl rfl

/-- The body's payload at an index: the row of the state block against the column of the matrix. -/
theorem pay_apply (x0 : Vec Ideal S4000x483 .f32) (x1 : Vec Ideal S483x41 .f32) (p : Fin 4000) (q : Fin 41) :
    k0_pay1 x0 x1 (ix2 p q) = ∑ k : Fin 483, x0 (ix2 p k) * x1 (ix2 k q) := by
  unfold k0_pay1
  simp only [shapeCast_self]
  show FloatOps.matmul (F := Ideal) (φ₁ := FTy.f32) (φ₂ := FTy.f32) D none x0 x1 (constant S4000x41 .f32 0x00000000#32) (ix2 p q) = _
  rw [Ideal.matmul_constant_zero_apply, ← Equiv.sum_comp contr483.symm]
  refine Finset.sum_congr rfl fun k _ => ?_
  congr 2
  · apply Shape.idx_ext₂
    · rw [lhs_0]
    · rw [lhs_1]; exact contrEquiv1_symm_val D 483 rfl rfl k
  · apply Shape.idx_ext₂
    · rw [rhs_0]; exact contrEquiv1_symm_val D 483 rfl rfl k
    · rw [rhs_1]

/-! ## One grid point's block -/

/-- The body's result on a block whose state rows are rows b * 4000 + p of the state and whose matrix is the mixing
    matrix: the mixed form at those rows. -/
theorem block_apply (x0 : Vec Ideal S4000x483 .f32) (x1 : Vec Ideal S483x41 .f32)
    (st : Cert.Star.SState.Idx → EReal) (nd : Cert.Star.SDirs.Idx → EReal) (b : ℕ)
    (h0 : ∀ (p : Fin 4000) (k : Fin 483) (i : Fin 20000), i.val = b * 4000 + p.val → x0 (ix2 p k) = st (ix2 i k))
    (h1 : ∀ (k : Fin 483) (q : Fin 41), x1 (ix2 k q) = Cert.Star.mix nd k q)
    (p : Fin 4000) (q : Fin 41) (i : Fin 20000) (j : Fin 41) (hi : i.val = b * 4000 + p.val) (hj : j.val = q.val) :
    k0_pay1 x0 x1 (ix2 p q) = Cert.Star.mixedAt st nd i j := by
  obtain rfl : j = q := Fin.ext hj
  rw [pay_apply]
  unfold Cert.Star.mixedAt
  exact Finset.sum_congr rfl fun k _ => by rw [h0 p k i hi, h1 k j]

theorem hz : (![0, 0] : Fin 2 → Nat) = fun _ => 0 := funext fun a => by fin_cases a <;> rfl

/-- The printed index maps, decided over the grid: the state's block moves with the output's down the rows, the
    matrix's block stays at the origin, and the output's row block index is at most 4. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 4
    ∧ win0_2.index t (1 : Fin 2) = 0 :=
  (by decide +kernel : ∀ t : Fin grid0.N, _)

/-- Every one of the five row blocks is some point's. -/
theorem idx_onto : ∀ (q0 : Fin 5), ∃ t : Fin cfg0.N, win0_2.index t = ![q0.val, 0] :=
  (by decide +kernel : ∀ (q0 : Fin 5), ∃ t : Fin grid0.N, win0_2.index t = ![q0.val, 0])

/-- What point t writes back is block t of the mixed form of the arguments. -/
theorem flushed_eq (m : (ℓ : Loc nD τ sig) → Buf (Elt Ideal) ℓ) (c : Dev nD) (t : Fin cfg0.N) :
    (dats m 0 c).flushed 2 t = ((cfg0.win 2).blk t).view.read (Elt Ideal)
      (Cert.Star.mixed (m ((c.tc : Thread nD τ).loc main_arg0)) (m ((c.tc : Thread nD τ).loc main_arg1))) := by
  rw [Value.flushed2]
  unfold Gen.out0_2
  rw [View.canon_unit_zero hz]
  simp only [View.ld_unit_zero (S := S4000x483) hz, View.ld_unit_zero (S := S483x41) hz]
  obtain ⟨e0, e1, e2, e3, e4, e5⟩ := idx_facts t
  refine funext fun (j : S4000x41.Idx) => ?_
  obtain ⟨p, q, rfl⟩ : ∃ (p : Fin 4000) (q : Fin 41), j = ix2 p q := ⟨j 0, j 1, eq_ix2 j⟩
  show k0_pay1 (iblk m c 0 t) (iblk m c 1 t) (ix2 p q)
    = Cert.Star.mixedAt (m ((c.tc : Thread nD τ).loc main_arg0)) (m ((c.tc : Thread nD τ).loc main_arg1))
        (((cfg0.win 2).blk t).view.emb (ix2 p q) 0) (((cfg0.win 2).blk t).view.emb (ix2 p q) 1)
  refine block_apply (iblk m c 0 t) (iblk m c 1 t) _ _ (win0_2.index t (0 : Fin 2)) ?_ ?_ p q _ _ ?_ ?_
  · intro p k i hi
    show V m c main_arg0 (((cfg0.win 0).blk t).view.emb (ix2 p k)) = _
    rw [V_main_arg0]
    refine congrArg _ (Shape.idx_ext₂ ?_ ?_)
    · show win0_0.index t (0 : Fin 2) * 4000 + 1 * p.val = i.val; omega
    · show win0_0.index t (1 : Fin 2) * 483 + 1 * k.val = k.val; omega
  · intro k q
    show V m c main_v41 (((cfg0.win 1).blk t).view.emb (ix2 k q)) = _
    have he : ((cfg0.win 1).blk t).view.emb (ix2 k q) = ix2 k q := by
      refine Shape.idx_ext₂ ?_ ?_
      · show win0_1.index t (0 : Fin 2) * 483 + 1 * k.val = k.val; omega
      · show win0_1.index t (1 : Fin 2) * 41 + 1 * q.val = q.val; omega
    rw [he]
    exact congrFun (Mix.mix_eq m c) (ix2 k q)
  · show win0_2.index t (0 : Fin 2) * 4000 + 1 * p.val = _; omega
  · show win0_2.index t (1 : Fin 2) * 41 + 1 * q.val = _; omega

/-! ## The five blocks tile the output -/

/-- An index of the output is in point t's block iff each coordinate is in the block's range on its axis. -/
theorem mem_blk (t : Fin cfg0.N) (i : S20000x41.Idx) :
    i ∈ ((cfg0.win 2).blk t).view.set ↔ ∀ a : Fin 2, win0_2.index t a * S4000x41.size a ≤ (i a).val ∧ (i a).val < win0_2.index t a * S4000x41.size a + S4000x41.size a := by
  show i ∈ ((View.whole main_v42).slice (win0_2.rect t)).set ↔ _
  rw [View.set_slice_whole, Rect.mem_set_unit]
  exact Iff.rfl

/-- Row r of the output is in the block of the point whose row block index is r / 4000. -/
theorem cover (i : S20000x41.Idx) :
    ∃ t : Fin cfg0.N, (cfg0.win 2).flush t = true ∧ i ∈ ((cfg0.win 2).blk t).view.set := by
  have hi0 : (i 0).val < 20000 := (i 0).isLt
  have hi1 : (i 1).val < 41 := (i 1).isLt
  obtain ⟨t, ht⟩ := idx_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 41 ≤ (i 1).val ∧ (i 1).val < win0_2.index t (1 : Fin 2) * 41 + 41; omega

/-- The output array after the run is the mixed form of the arguments. -/
theorem final (m : (ℓ : Loc nD τ sig) → Buf (Elt Ideal) ℓ) (c : Dev nD) :
    (dats m 0 c).arrAt 2 cfg0.N
      = Cert.Star.mixed (m ((c.tc : Thread nD τ).loc main_arg0)) (m ((c.tc : Thread nD τ).loc main_arg1)) :=
  (dats m 0 c).arrAt_eq_of_cover 2 _ (fun t _ => flushed_eq m c t) cover

/-! ## The run -/

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42)
        = Cert.Star.mixed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Value.run_blocks m ρ)

end Cert.KernelIdeal.KValue

end
-- ==== Proof.RefStages.lean ====
/-
  The reference's host program as pure functions of its two arguments, one per stretch of its text: the per-node
  feature rows (nodeFeat), the global source and destination node of each of the 20000 x 52 directed edges (srcIdx,
  dstIdx), the 52 edge weights (edgeWts), the row gather with its fill for an index outside the table (taken), and the
  pooled result (refOut): gather the sources' rows, weigh them, add them into their destinations, average over each
  sample's 27 nodes.
-/
import proofs.«101747_g12034498363475_cont_main3_758_3_alg».proof.ReferenceIdeal
import proofs.«101747_g12034498363475_cont_main3_758_3_alg».proof.Proof.Gen.ReferenceIdeal

noncomputable section

namespace Cert.ReferenceIdeal.Stages

open Cert.ReferenceIdeal Cert.ReferenceIdeal.Gen Idealize.ShloMosaic

variable {F : FTy → Type} [FloatOps F]

/-- The 540000 x 41 feature rows: row 27 i + v holds node v of sample i, its own 17 channels reordered and the row's
    24 shared entries. -/
def nodeFeat (st : FVec F S20000x483 .f32) : FVec F S540000x41 .f32 :=
  let v0 : FVec F S20000x459 .f32 := extractStridedSlice S20000x459 ![0, 0] st slices_S20000x483_S20000x459_0_0
  let v1 : FVec F S20000x24 .f32 := extractStridedSlice S20000x24 ![0, 459] st slices_S20000x483_S20000x24_0_459
  let v2 : FVec F S20000x1x24 .f32 := broadcastInDim S20000x1x24 ![0, 2] bcast_S20000x24_S20000x1x24_0_2 v1
  let v3 : FVec F S20000x27x24 .f32 := broadcastInDim S20000x27x24 ![0, 1, 2] bcast_S20000x1x24_S20000x27x24_0_1_2 v2
  let v4 : FVec F S20000x27x17 .f32 := shapeCast S20000x27x17 v0 shapeCasts_S20000x459_S20000x27x17
  let v5 : FVec F S20000x27x16 .f32 := extractStridedSlice S20000x27x16 ![0, 0, 0] v4 slices_S20000x27x17_S20000x27x16_0_0_0
  let v6 : FVec F S20000x27x1 .f32 := extractStridedSlice S20000x27x1 ![0, 0, 16] v4 slices_S20000x27x17_S20000x27x1_0_0_16
  let v7 : FVec F S20000x27x41 .f32 := concatenate S20000x27x41 2 [⟨S20000x27x16, v5⟩, ⟨S20000x27x1, v6⟩, ⟨S20000x27x24, v3⟩] concatenates_S20000x27x16_S20000x27x1_S20000x27x24_S20000x27x41_d2
  let v8 : FVec F S540000x41 .f32 := shapeCast S540000x41 v7 shapeCasts_S20000x27x41_S540000x41
  let v9 : FVec F S540000x4 .f32 := extractStridedSlice S540000x4 ![0, 0] v8 slices_S540000x41_S540000x4_0_0
  let v10 : FVec F S540000x4x1 .f32 := shapeCast S540000x4x1 v9 shapeCasts_S540000x4_S540000x4x1
  let v11 : FVec F S540000x1 .f32 := extractStridedSlice S540000x1 ![0, 16] v8 slices_S540000x41_S540000x1_0_16
  let v12 : FVec F S540000x1x1 .f32 := shapeCast S540000x1x1 v11 shapeCasts_S540000x1_S540000x1x1
  let v13 : FVec F S540000x5x1 .f32 := concatenate S540000x5x1 1 [⟨S540000x4x1, v10⟩, ⟨S540000x1x1, v12⟩] concatenates_S540000x4x1_S540000x1x1_S540000x5x1_d1
  let v14 : FVec F S540000x12 .f32 := extractStridedSlice S540000x12 ![0, 4] v8 slices_S540000x41_S540000x12_0_4
  let v15 : FVec F S540000x4x3 .f32 := shapeCast S540000x4x3 v14 shapeCasts_S540000x12_S540000x4x3
  let v16 : FVec F S540000x24 .f32 := extractStridedSlice S540000x24 ![0, 17] v8 slices_S540000x41_S540000x24_0_17
  let v17 : FVec F S540000x8x3 .f32 := shapeCast S540000x8x3 v16 shapeCasts_S540000x24_S540000x8x3
  let v18 : FVec F S540000x12x3 .f32 := concatenate S540000x12x3 1 [⟨S540000x4x3, v15⟩, ⟨S540000x8x3, v17⟩] concatenates_S540000x4x3_S540000x8x3_S540000x12x3_d1
  let v19 : FVec F S540000x5 .f32 := shapeCast S540000x5 v13 shapeCasts_S540000x5x1_S540000x5
  let v20 : FVec F S540000x36 .f32 := shapeCast S540000x36 v18 shapeCasts_S540000x12x3_S540000x36
  concatenate S540000x41 1 [⟨S540000x5, v19⟩, ⟨S540000x36, v20⟩] concatenates_S540000x5_S540000x36_S540000x41_d1

/-- The 52 local source nodes: 26 zeros, then 1..26. -/
def srcLocal : IVec S52 32 :=
  let c : IVec S_ 32 := constantI S_ 32 0#32
  let v22 : IVec S26 32 := broadcastInDim S26 ![] bcast_S_S26 c
  let v23 : IVec S26 32 := iotaInDim S26 32 0
  let c_0 : IVec S_ 32 := constantI S_ 32 1#32
  let v24 : IVec S26 32 := broadcastInDim S26 ![] bcast_S_S26 c_0
  let v25 : IVec S26 32 := addi v24 v23
  concatenate S52 0 [⟨S26, v22⟩, ⟨S26, v25⟩] concatenates_S26_S26_S52_d0

/-- The 52 local destination nodes: 1..26, then 26 zeros. -/
def dstLocal : IVec S52 32 :=
  let c : IVec S_ 32 := constantI S_ 32 0#32
  let v22 : IVec S26 32 := broadcastInDim S26 ![] bcast_S_S26 c
  let v23 : IVec S26 32 := iotaInDim S26 32 0
  let c_0 : IVec S_ 32 := constantI S_ 32 1#32
  let v24 : IVec S26 32 := broadcastInDim S26 ![] bcast_S_S26 c_0
  let v25 : IVec S26 32 := addi v24 v23
  concatenate S52 0 [⟨S26, v25⟩, ⟨S26, v22⟩] concatenates_S26_S26_S52_d0

/-- Each sample's node offset, 27 i, as a column. -/
def offsets : IVec S20000x1 32 :=
  let v28 : IVec S20000 32 := iotaInDim S20000 32 0
  let v29 : IVec S20000x1 32 := broadcastInDim S20000x1 ![0] bcast_S20000_S20000x1_0 v28
  let c_1 : IVec S_ 32 := constantI S_ 32 27#32
  let v30 : IVec S20000x1 32 := broadcastInDim S20000x1 ![] bcast_S_S20000x1 c_1
  muli v29 v30

/-- A local node list spread over the samples: entry 52 i + e is 27 i + (local e). -/
def spread (loc : IVec S52 32) : IVec S1040000 32 :=
  let v32 : IVec S1x52 32 := broadcastInDim S1x52 ![1] bcast_S52_S1x52_1 loc
  let v33 : IVec S20000x52 32 := broadcastInDim S20000x52 ![0, 1] bcast_S20000x1_S20000x52_0_1 offsets
  let v34 : IVec S20000x52 32 := broadcastInDim S20000x52 ![0, 1] bcast_S1x52_S20000x52_0_1 v32
  let v35 : IVec S20000x52 32 := addi v33 v34
  shapeCast S1040000 v35 shapeCasts_S20000x52_S1040000

/-- The global source node of every edge. -/
def srcIdx : IVec S1040000 32 := spread srcLocal
/-- The global destination node of every edge. -/
def dstIdx : IVec S1040000 32 := spread dstLocal

/-- A local node list made a column of row indices into the table of directions, a negative entry wrapped by 27. -/
def wrapCol (loc : IVec S52 32) : IVec S52x1 32 :=
  let c_2 : IVec S_ 32 := constantI S_ 32 0#32
  let v42 : IVec S52 32 := broadcastInDim S52 ![] bcast_S_S52 c_2
  let v43 : IVec S52 1 := cmpi .slt loc v42
  let c_3 : IVec S_ 32 := constantI S_ 32 27#32
  let v44 : IVec S52 32 := broadcastInDim S52 ![] bcast_S_S52 c_3
  let v45 : IVec S52 32 := addi loc v44
  let v46 : IVec S52 32 := select v43 v45 loc
  broadcastInDim S52x1 ![0] bcast_S52_S52x1_0 v46

/-- The 52 edge weights: exp of minus the length of (direction of the destination - direction of the source). -/
def edgeWts (nd : FVec F S27x3 .f32) : FVec F S52 .f32 :=
  let v48 : FVec F S52x3 .f32 := Host.gather gather_S27x3_S52x1_S52x3_1_0_n_n_0_1_13 nd (wrapCol dstLocal)
  let v55 : FVec F S52x3 .f32 := Host.gather gather_S27x3_S52x1_S52x3_1_0_n_n_0_1_13 nd (wrapCol srcLocal)
  let v56 : FVec F S52x3 .f32 := subf v48 v55
  let n0 : FVec F S52x3 .f32 := mulf v56 v56
  let ncst : FVec F S_ .f32 := constant S_ .f32 0x00000000#32
  let n1 : FVec F S52 .f32 := Host.reduceAdd n0 ncst reducesTo_S52x3_S52_d1 h_S_
  let v57 : FVec F S52 .f32 := Host.sqrt n1
  let v58 : FVec F S52 .f32 := Host.negf v57
  Host.exp v58

/-- The edge weights repeated for every sample: entry 52 i + e is edge e's. -/
def wFull (nd : FVec F S27x3 .f32) : FVec F S1040000 .f32 :=
  let v60 : FVec F S1x52 .f32 := shapeCast S1x52 (edgeWts nd) shapeCasts_S52_S1x52
  let v61 : FVec F S20000x52 .f32 := broadcastInDim S20000x52 ![0, 1] bcast_S1x52_S20000x52_0_1 v60
  shapeCast S1040000 v61 shapeCasts_S20000x52_S1040000

/-- Rows of a table taken at a list of indices: a negative index wrapped by the table's height, an index outside the
    table after that answered by the fill value. -/
def taken (x : FVec F S540000x41 .f32) (ix : IVec S1040000 32) : FVec F S1040000x41 .f32 :=
  let c : IVec S_ 32 := constantI S_ 32 0#32
  let v0 : IVec S1040000 32 := broadcastInDim S1040000 ![] bcast_S_S1040000 c
  let v1 : IVec S1040000 1 := cmpi .slt ix v0
  let c_0 : IVec S_ 32 := constantI S_ 32 540000#32
  let v2 : IVec S1040000 32 := broadcastInDim S1040000 ![] bcast_S_S1040000 c_0
  let v3 : IVec S1040000 32 := addi ix v2
  let v4 : IVec S1040000 32 := select v1 v3 ix
  let v5 : IVec S1040000x1 32 := broadcastInDim S1040000x1 ![0] bcast_S1040000_S1040000x1_0 v4
  let c_1 : IVec S1 32 := constantI S1 32 539999#32
  let c_2 : IVec S_ 32 := constantI S_ 32 0#32
  let v6 : IVec S1040000x1 32 := broadcastInDim S1040000x1 ![] bcast_S_S1040000x1 c_2
  let v7 : IVec S1040000x1 1 := cmpi .sge v5 v6
  let v8 : IVec S1x1 32 := broadcastInDim S1x1 ![1] bcast_S1_S1x1_1 c_1
  let v9 : IVec S1040000x1 32 := broadcastInDim S1040000x1 ![0, 1] bcast_S1x1_S1040000x1_0_1 v8
  let v10 : IVec S1040000x1 1 := cmpi .sle v5 v9
  let v11 : IVec S1040000x1 1 := andi v7 v10
  let c_3 : IVec S_ 1 := constantI S_ 1 1#1
  let v12 : IVec S1040000 1 := Host.reduce IntOp.andi v11 c_3 reducesTo_S1040000x1_S1040000_d1 h_S_
  let v13 : FVec F S1040000x41 .f32 := Host.gather gather_S540000x41_S1040000x1_S1040000x41_1_0_n_n_0_1_141 x v5
  let v14 : IVec S1040000x41 1 := broadcastInDim S1040000x41 ![0] bcast_S1040000_S1040000x41_0 v12
  let cst : FVec F S_ .f32 := constant S_ .f32 0x7FC00000#32
  let v15 : FVec F S1040000x41 .f32 := broadcastInDim S1040000x41 ![] bcast_S_S1040000x41 cst
  select v14 v13 v15

/-- The messages: each edge's source row times the edge's weight. -/
def msgs (st : FVec F S20000x483 .f32) (nd : FVec F S27x3 .f32) : FVec F S1040000x41 .f32 :=
  let v63 : FVec F S1040000x41 .f32 := taken (nodeFeat st) srcIdx
  let v64 : FVec F S1040000x1 .f32 := broadcastInDim S1040000x1 ![0] bcast_S1040000_S1040000x1_0 (wFull nd)
  let v65 : FVec F S1040000x41 .f32 := broadcastInDim S1040000x41 ![0, 1] bcast_S1040000x1_S1040000x41_0_1 v64
  mulf v63 v65

/-- The messages added into their destination rows, from zero. -/
def agg (st : FVec F S20000x483 .f32) (nd : FVec F S27x3 .f32) : FVec F S540000x41 .f32 :=
  let cst : FVec F S_ .f32 := constant S_ .f32 0x00000000#32
  let v67 : FVec F S540000x41 .f32 := broadcastInDim S540000x41 ![] bcast_S_S540000x41 cst
  let v68 : IVec S1040000x1 32 := broadcastInDim S1040000x1 ![0] bcast_S1040000_S1040000x1_0 dstIdx
  Host.scatterAdd scatter_S540000x41_S1040000x1_S1040000x41_1_0_0_1 v67 v68 (msgs st nd)

/-- The reference's result: the mean over each sample's 27 nodes. -/
def refOut (st : FVec F S20000x483 .f32) (nd : FVec F S27x3 .f32) : FVec F S20000x41 .f32 :=
  let v70 : FVec F S20000x27x41 .f32 := shapeCast S20000x27x41 (agg st nd) shapeCasts_S540000x41_S20000x27x41
  let cst_6 : FVec F S_ .f32 := constant S_ .f32 0x00000000#32
  let v71 : FVec F S20000x41 .f32 := Host.reduceAdd v70 cst_6 reducesTo_S20000x27x41_S20000x41_d1 h_S_
  let cst_7 : FVec F S_ .f32 := constant S_ .f32 0x41D80000#32
  let v72 : FVec F S20000x41 .f32 := broadcastInDim S20000x41 ![] bcast_S_S20000x41 cst_7
  Host.divf v71 v72

end Cert.ReferenceIdeal.Stages

end
-- ==== Proof.RefOps.lean ====
import proofs.«101747_g12034498363475_cont_main3_758_3_alg».proof.ReferenceIdeal
import proofs.«101747_g12034498363475_cont_main3_758_3_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The reference's 109 host operations, in order, the bodies of the functions it calls in place of the calls. -/
abbrev ops : List (HloOp τ sig (Elt F)) :=
  [ unary main_arg0 main_v0 ((extractStridedSlice S20000x459 ![0, 0] · slices_S20000x483_S20000x459_0_0) : (⟨S20000x483, .f32⟩ : BufTy).Contents (Elt F) → (⟨S20000x459, .f32⟩ : BufTy).Contents (Elt F)),
    unary main_arg0 main_v1 ((extractStridedSlice S20000x24 ![0, 459] · slices_S20000x483_S20000x24_0_459) : (⟨S20000x483, .f32⟩ : BufTy).Contents (Elt F) → (⟨S20000x24, .f32⟩ : BufTy).Contents (Elt F)),
    unary main_v1 main_v2 (broadcastInDim S20000x1x24 ![0, 2] bcast_S20000x24_S20000x1x24_0_2 : (⟨S20000x24, .f32⟩ : BufTy).Contents (Elt F) → (⟨S20000x1x24, .f32⟩ : BufTy).Contents (Elt F)),
    unary main_v2 main_v3 (broadcastInDim S20000x27x24 ![0, 1, 2] bcast_S20000x1x24_S20000x27x24_0_1_2 : (⟨S20000x1x24, .f32⟩ : BufTy).Contents (Elt F) → (⟨S20000x27x24, .f32⟩ : BufTy).Contents (Elt F)),
    reshape main_v0 main_v4 rfl shapeCasts_S20000x459_S20000x27x17,
    unary main_v4 main_v5 ((extractStridedSlice S20000x27x16 ![0, 0, 0] · slices_S20000x27x17_S20000x27x16_0_0_0) : (⟨S20000x27x17, .f32⟩ : BufTy).Contents (Elt F) → (⟨S20000x27x16, .f32⟩ : BufTy).Contents (Elt F)),
    unary main_v4 main_v6 ((extractStridedSlice S20000x27x1 ![0, 0, 16] · slices_S20000x27x17_S20000x27x1_0_0_16) : (⟨S20000x27x17, .f32⟩ : BufTy).Contents (Elt F) → (⟨S20000x27x1, .f32⟩ : BufTy).Contents (Elt F)),
    nary ![main_v5, main_v6, main_v3] main_v7 (fun u => concatenate S20000x27x41 2 [⟨S20000x27x16, u 0⟩, ⟨S20000x27x1, u 1⟩, ⟨S20000x27x24, u 2⟩] concatenates_S20000x27x16_S20000x27x1_S20000x27x24_S20000x27x41_d2),
    reshape main_v7 main_v8 rfl shapeCasts_S20000x27x41_S540000x41,
    unary main_v8 main_v9 ((extractStridedSlice S540000x4 ![0, 0] · slices_S540000x41_S540000x4_0_0) : (⟨S540000x41, .f32⟩ : BufTy).Contents (Elt F) → (⟨S540000x4, .f32⟩ : BufTy).Contents (Elt F)),
    reshape main_v9 main_v10 rfl shapeCasts_S540000x4_S540000x4x1,
    unary main_v8 main_v11 ((extractStridedSlice S540000x1 ![0, 16] · slices_S540000x41_S540000x1_0_16) : (⟨S540000x41, .f32⟩ : BufTy).Contents (Elt F) → (⟨S540000x1, .f32⟩ : BufTy).Contents (Elt F)),
    reshape main_v11 main_v12 rfl shapeCasts_S540000x1_S540000x1x1,
    binary main_v10 main_v12 main_v13 ((fun a b => concatenate S540000x5x1 1 [⟨S540000x4x1, a⟩, ⟨S540000x1x1, b⟩] concatenates_S540000x4x1_S540000x1x1_S540000x5x1_d1) : (⟨S540000x4x1, .f32⟩ : BufTy).Contents (Elt F) → (⟨S540000x1x1, .f32⟩ : BufTy).Contents (Elt F) → (⟨S540000x5x1, .f32⟩ : BufTy).Contents (Elt F)),
    unary main_v8 main_v14 ((extractStridedSlice S540000x12 ![0, 4] · slices_S540000x41_S540000x12_0_4) : (⟨S540000x41, .f32⟩ : BufTy).Contents (Elt F) → (⟨S540000x12, .f32⟩ : BufTy).Contents (Elt F)),
    reshape main_v14 main_v15 rfl shapeCasts_S540000x12_S540000x4x3,
    unary main_v8 main_v16 ((extractStridedSlice S540000x24 ![0, 17] · slices_S540000x41_S540000x24_0_17) : (⟨S540000x41, .f32⟩ : BufTy).Contents (Elt F) → (⟨S540000x24, .f32⟩ : BufTy).Contents (Elt F)),
    reshape main_v16 main_v17 rfl shapeCasts_S540000x24_S540000x8x3,
    binary main_v15 main_v17 main_v18 ((fun a b => concatenate S540000x12x3 1 [⟨S540000x4x3, a⟩, ⟨S540000x8x3, b⟩] concatenates_S540000x4x3_S540000x8x3_S540000x12x3_d1) : (⟨S540000x4x3, .f32⟩ : BufTy).Contents (Elt F) → (⟨S540000x8x3, .f32⟩ : BufTy).Contents (Elt F) → (⟨S540000x12x3, .f32⟩ : BufTy).Contents (Elt F)),
    reshape main_v13 main_v19 rfl shapeCasts_S540000x5x1_S540000x5,
    reshape main_v18 main_v20 rfl shapeCasts_S540000x12x3_S540000x36,
    binary main_v19 main_v20 main_v21 ((fun a b => concatenate S540000x41 1 [⟨S540000x5, a⟩, ⟨S540000x36, b⟩] concatenates_S540000x5_S540000x36_S540000x41_d1) : (⟨S540000x5, .f32⟩ : BufTy).Contents (Elt F) → (⟨S540000x36, .f32⟩ : BufTy).Contents (Elt F) → (⟨S540000x41, .f32⟩ : BufTy).Contents (Elt F)),
    nullary main_c (constantI S_ 32 0#32),
    unary main_c main_v22 (broadcastInDim S26 ![] bcast_S_S26 : (⟨S_, .i32⟩ : BufTy).Contents (Elt F) → (⟨S26, .i32⟩ : BufTy).Contents (Elt F)),
    nullary main_v23 (iotaInDim S26 32 0),
    nullary main_c_0 (constantI S_ 32 1#32),
    unary main_c_0 main_v24 (broadcastInDim S26 ![] bcast_S_S26 : (⟨S_, .i32⟩ : BufTy).Contents (Elt F) → (⟨S26, .i32⟩ : BufTy).Contents (Elt F)),
    binary main_v24 main_v23 main_v25 (addi : (⟨S26, .i32⟩ : BufTy).Contents (Elt F) → (⟨S26, .i32⟩ : BufTy).Contents (Elt F) → (⟨S26, .i32⟩ : BufTy).Contents (Elt F)),
    binary main_v22 main_v25 main_v26 ((fun a b => concatenate S52 0 [⟨S26, a⟩, ⟨S26, b⟩] concatenates_S26_S26_S52_d0) : (⟨S26, .i32⟩ : BufTy).Contents (Elt F) → (⟨S26, .i32⟩ : BufTy).Contents (Elt F) → (⟨S52, .i32⟩ : BufTy).Contents (Elt F)),
    binary main_v25 main_v22 main_v27 ((fun a b => concatenate S52 0 [⟨S26, a⟩, ⟨S26, b⟩] concatenates_S26_S26_S52_d0) : (⟨S26, .i32⟩ : BufTy).Contents (Elt F) → (⟨S26, .i32⟩ : BufTy).Contents (Elt F) → (⟨S52, .i32⟩ : BufTy).Contents (Elt F)),
    nullary main_v28 (iotaInDim S20000 32 0),
    unary main_v28 main_v29 (broadcastInDim S20000x1 ![0] bcast_S20000_S20000x1_0 : (⟨S20000, .i32⟩ : BufTy).Contents (Elt F) → (⟨S20000x1, .i32⟩ : BufTy).Contents (Elt F)),
    nullary main_c_1 (constantI S_ 32 27#32),
    unary main_c_1 main_v30 (broadcastInDim S20000x1 ![] bcast_S_S20000x1 : (⟨S_, .i32⟩ : BufTy).Contents (Elt F) → (⟨S20000x1, .i32⟩ : BufTy).Contents (Elt F)),
    binary main_v29 main_v30 main_v31 (muli : (⟨S20000x1, .i32⟩ : BufTy).Contents (Elt F) → (⟨S20000x1, .i32⟩ : BufTy).Contents (Elt F) → (⟨S20000x1, .i32⟩ : BufTy).Contents (Elt F)),
    unary main_v26 main_v32 (broadcastInDim S1x52 ![1] bcast_S52_S1x52_1 : (⟨S52, .i32⟩ : BufTy).Contents (Elt F) → (⟨S1x52, .i32⟩ : BufTy).Contents (Elt F)),
    unary main_v31 main_v33 (broadcastInDim S20000x52 ![0, 1] bcast_S20000x1_S20000x52_0_1 : (⟨S20000x1, .i32⟩ : BufTy).Contents (Elt F) → (⟨S20000x52, .i32⟩ : BufTy).Contents (Elt F)),
    unary main_v32 main_v34 (broadcastInDim S20000x52 ![0, 1] bcast_S1x52_S20000x52_0_1 : (⟨S1x52, .i32⟩ : BufTy).Contents (Elt F) → (⟨S20000x52, .i32⟩ : BufTy).Contents (Elt F)),
    binary main_v33 main_v34 main_v35 (addi : (⟨S20000x52, .i32⟩ : BufTy).Contents (Elt F) → (⟨S20000x52, .i32⟩ : BufTy).Contents (Elt F) → (⟨S20000x52, .i32⟩ : BufTy).Contents (Elt F)),
    reshape main_v35 main_v36 rfl shapeCasts_S20000x52_S1040000,
    unary main_v27 main_v37 (broadcastInDim S1x52 ![1] bcast_S52_S1x52_1 : (⟨S52, .i32⟩ : BufTy).Contents (Elt F) → (⟨S1x52, .i32⟩ : BufTy).Contents (Elt F)),
    unary main_v31 main_v38 (broadcastInDim S20000x52 ![0, 1] bcast_S20000x1_S20000x52_0_1 : (⟨S20000x1, .i32⟩ : BufTy).Contents (Elt F) → (⟨S20000x52, .i32⟩ : BufTy).Contents (Elt F)),
    unary main_v37 main_v39 (broadcastInDim S20000x52 ![0, 1] bcast_S1x52_S20000x52_0_1 : (⟨S1x52, .i32⟩ : BufTy).Contents (Elt F) → (⟨S20000x52, .i32⟩ : BufTy).Contents (Elt F)),
    binary main_v38 main_v39 main_v40 (addi : (⟨S20000x52, .i32⟩ : BufTy).Contents (Elt F) → (⟨S20000x52, .i32⟩ : BufTy).Contents (Elt F) → (⟨S20000x52, .i32⟩ : BufTy).Contents (Elt F)),
    reshape main_v40 main_v41 rfl shapeCasts_S20000x52_S1040000,
    nullary main_c_2 (constantI S_ 32 0#32),
    unary main_c_2 main_v42 (broadcastInDim S52 ![] bcast_S_S52 : (⟨S_, .i32⟩ : BufTy).Contents (Elt F) → (⟨S52, .i32⟩ : BufTy).Contents (Elt F)),
    binary main_v27 main_v42 main_v43 (cmpi .slt : (⟨S52, .i32⟩ : BufTy).Contents (Elt F) → (⟨S52, .i32⟩ : BufTy).Contents (Elt F) → (⟨S52, .i1⟩ : BufTy).Contents (Elt F)),
    nullary main_c_3 (constantI S_ 32 27#32),
    unary main_c_3 main_v44 (broadcastInDim S52 ![] bcast_S_S52 : (⟨S_, .i32⟩ : BufTy).Contents (Elt F) → (⟨S52, .i32⟩ : BufTy).Contents (Elt F)),
    binary main_v27 main_v44 main_v45 (addi : (⟨S52, .i32⟩ : BufTy).Contents (Elt F) → (⟨S52, .i32⟩ : BufTy).Contents (Elt F) → (⟨S52, .i32⟩ : BufTy).Contents (Elt F)),
    ternary main_v43 main_v45 main_v27 main_v46 (select : (⟨S52, .i1⟩ : BufTy).Contents (Elt F) → (⟨S52, .i32⟩ : BufTy).Contents (Elt F) → (⟨S52, .i32⟩ : BufTy).Contents (Elt F) → (⟨S52, .i32⟩ : BufTy).Contents (Elt F)),
    unary main_v46 main_v47 (broadcastInDim S52x1 ![0] bcast_S52_S52x1_0 : (⟨S52, .i32⟩ : BufTy).Contents (Elt F) → (⟨S52x1, .i32⟩ : BufTy).Contents (Elt F)),
    binary main_arg1 main_v47 main_v48 ((fun x i => Host.gather gather_S27x3_S52x1_S52x3_1_0_n_n_0_1_13 x i) : (⟨S27x3, .f32⟩ : BufTy).Contents (Elt F) → (⟨S52x1, .i32⟩ : BufTy).Contents (Elt F) → (⟨S52x3, .f32⟩ : BufTy).Contents (Elt F)),
    nullary main_c_4 (constantI S_ 32 0#32),
    unary main_c_4 main_v49 (broadcastInDim S52 ![] bcast_S_S52 : (⟨S_, .i32⟩ : BufTy).Contents (Elt F) → (⟨S52, .i32⟩ : BufTy).Contents (Elt F)),
    binary main_v26 main_v49 main_v50 (cmpi .slt : (⟨S52, .i32⟩ : BufTy).Contents (Elt F) → (⟨S52, .i32⟩ : BufTy).Contents (Elt F) → (⟨S52, .i1⟩ : BufTy).Contents (Elt F)),
    nullary main_c_5 (constantI S_ 32 27#32),
    unary main_c_5 main_v51 (broadcastInDim S52 ![] bcast_S_S52 : (⟨S_, .i32⟩ : BufTy).Contents (Elt F) → (⟨S52, .i32⟩ : BufTy).Contents (Elt F)),
    binary main_v26 main_v51 main_v52 (addi : (⟨S52, .i32⟩ : BufTy).Contents (Elt F) → (⟨S52, .i32⟩ : BufTy).Contents (Elt F) → (⟨S52, .i32⟩ : BufTy).Contents (Elt F)),
    ternary main_v50 main_v52 main_v26 main_v53 (select : (⟨S52, .i1⟩ : BufTy).Contents (Elt F) → (⟨S52, .i32⟩ : BufTy).Contents (Elt F) → (⟨S52, .i32⟩ : BufTy).Contents (Elt F) → (⟨S52, .i32⟩ : BufTy).Contents (Elt F)),
    unary main_v53 main_v54 (broadcastInDim S52x1 ![0] bcast_S52_S52x1_0 : (⟨S52, .i32⟩ : BufTy).Contents (Elt F) → (⟨S52x1, .i32⟩ : BufTy).Contents (Elt F)),
    binary main_arg1 main_v54 main_v55 ((fun x i => Host.gather gather_S27x3_S52x1_S52x3_1_0_n_n_0_1_13 x i) : (⟨S27x3, .f32⟩ : BufTy).Contents (Elt F) → (⟨S52x1, .i32⟩ : BufTy).Contents (Elt F) → (⟨S52x3, .f32⟩ : BufTy).Contents (Elt F)),
    binary main_v48 main_v55 main_v56 (subf : (⟨S52x3, .f32⟩ : BufTy).Contents (Elt F) → (⟨S52x3, .f32⟩ : BufTy).Contents (Elt F) → (⟨S52x3, .f32⟩ : BufTy).Contents (Elt F)),
    TRef.binary (.of main_v56) (.of main_v56) main_call0.v0 mulf,
    TRef.nullary main_call0.cst (constant S_ .f32 0x00000000#32),
    TRef.binary main_call0.v0 main_call0.cst main_call0.v1 (fun x v => Host.reduceAdd x v reducesTo_S52x3_S52_d1 h_S_),
    TRef.unary main_call0.v1 main_call0.v2 Host.sqrt,
    unary main_v57 main_v58 (Host.negf : (⟨S52, .f32⟩ : BufTy).Contents (Elt F) → (⟨S52, .f32⟩ : BufTy).Contents (Elt F)),
    unary main_v58 main_v59 (Host.exp : (⟨S52, .f32⟩ : BufTy).Contents (Elt F) → (⟨S52, .f32⟩ : BufTy).Contents (Elt F)),
    reshape main_v59 main_v60 rfl shapeCasts_S52_S1x52,
    unary main_v60 main_v61 (broadcastInDim S20000x52 ![0, 1] bcast_S1x52_S20000x52_0_1 : (⟨S1x52, .f32⟩ : BufTy).Contents (Elt F) → (⟨S20000x52, .f32⟩ : BufTy).Contents (Elt F)),
    reshape main_v61 main_v62 rfl shapeCasts_S20000x52_S1040000,
    TRef.nullary main_call1.c (constantI S_ 32 0#32),
    TRef.unary main_call1.c main_call1.v0 (broadcastInDim S1040000 ![] bcast_S_S1040000),
    TRef.binary (.of main_v36) main_call1.v0 main_call1.v1 (cmpi .slt),
    TRef.nullary main_call1.c_0 (constantI S_ 32 540000#32),
    TRef.unary main_call1.c_0 main_call1.v2 (broadcastInDim S1040000 ![] bcast_S_S1040000),
    TRef.binary (.of main_v36) main_call1.v2 main_call1.v3 addi,
    TRef.ternary main_call1.v1 main_call1.v3 (.of main_v36) main_call1.call0.v0 select,
    TRef.unary main_call1.call0.v0 main_call1.v5 (broadcastInDim S1040000x1 ![0] bcast_S1040000_S1040000x1_0),
    TRef.nullary main_call1.c_1 (constantI S1 32 539999#32),
    TRef.nullary main_call1.c_2 (constantI S_ 32 0#32),
    TRef.unary main_call1.c_2 main_call1.v6 (broadcastInDim S1040000x1 ![] bcast_S_S1040000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S1040000x1 ![0, 1] bcast_S1x1_S1040000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1040000x1_S1040000_d1 h_S_),
    TRef.binary (.of main_v21) main_call1.v5 main_call1.v13 (fun x i => Host.gather gather_S540000x41_S1040000x1_S1040000x41_1_0_n_n_0_1_141 x i),
    TRef.unary main_call1.v12 main_call1.v14 (broadcastInDim S1040000x41 ![0] bcast_S1040000_S1040000x41_0),
    TRef.nullary main_call1.cst (constant S_ .f32 0x7FC00000#32),
    TRef.unary main_call1.cst main_call1.v15 (broadcastInDim S1040000x41 ![] bcast_S_S1040000x41),
    TRef.ternary main_call1.v14 main_call1.v13 main_call1.v15 main_call1.v16 select,
    unary main_v62 main_v64 (broadcastInDim S1040000x1 ![0] bcast_S1040000_S1040000x1_0 : (⟨S1040000, .f32⟩ : BufTy).Contents (Elt F) → (⟨S1040000x1, .f32⟩ : BufTy).Contents (Elt F)),
    unary main_v64 main_v65 (broadcastInDim S1040000x41 ![0, 1] bcast_S1040000x1_S1040000x41_0_1 : (⟨S1040000x1, .f32⟩ : BufTy).Contents (Elt F) → (⟨S1040000x41, .f32⟩ : BufTy).Contents (Elt F)),
    binary main_v63 main_v65 main_v66 (mulf : (⟨S1040000x41, .f32⟩ : BufTy).Contents (Elt F) → (⟨S1040000x41, .f32⟩ : BufTy).Contents (Elt F) → (⟨S1040000x41, .f32⟩ : BufTy).Contents (Elt F)),
    nullary main_cst (constant S_ .f32 0x00000000#32),
    unary main_cst main_v67 (broadcastInDim S540000x41 ![] bcast_S_S540000x41 : (⟨S_, .f32⟩ : BufTy).Contents (Elt F) → (⟨S540000x41, .f32⟩ : BufTy).Contents (Elt F)),
    unary main_v41 main_v68 (broadcastInDim S1040000x1 ![0] bcast_S1040000_S1040000x1_0 : (⟨S1040000, .i32⟩ : BufTy).Contents (Elt F) → (⟨S1040000x1, .i32⟩ : BufTy).Contents (Elt F)),
    ternary main_v67 main_v68 main_v66 main_v69 ((fun x i u => Host.scatterAdd scatter_S540000x41_S1040000x1_S1040000x41_1_0_0_1 x i u) : (⟨S540000x41, .f32⟩ : BufTy).Contents (Elt F) → (⟨S1040000x1, .i32⟩ : BufTy).Contents (Elt F) → (⟨S1040000x41, .f32⟩ : BufTy).Contents (Elt F) → (⟨S540000x41, .f32⟩ : BufTy).Contents (Elt F)),
    reshape main_v69 main_v70 rfl shapeCasts_S540000x41_S20000x27x41,
    nullary main_cst_6 (constant S_ .f32 0x00000000#32),
    binary main_v70 main_cst_6 main_v71 ((fun x v => Host.reduceAdd x v reducesTo_S20000x27x41_S20000x41_d1 h_S_) : (⟨S20000x27x41, .f32⟩ : BufTy).Contents (Elt F) → (⟨S_, .f32⟩ : BufTy).Contents (Elt F) → (⟨S20000x41, .f32⟩ : BufTy).Contents (Elt F)),
    nullary main_cst_7 (constant S_ .f32 0x41D80000#32),
    unary main_cst_7 main_v72 (broadcastInDim S20000x41 ![] bcast_S_S20000x41 : (⟨S_, .f32⟩ : BufTy).Contents (Elt F) → (⟨S20000x41, .f32⟩ : BufTy).Contents (Elt F)),
    binary main_v71 main_v72 main_v73 (Host.divf : (⟨S20000x41, .f32⟩ : BufTy).Contents (Elt F) → (⟨S20000x41, .f32⟩ : BufTy).Contents (Elt F) → (⟨S20000x41, .f32⟩ : BufTy).Contents (Elt F)) ]

/-- The node feature rows. -/
abbrev opsA : List (HloOp τ sig (Elt F)) :=
  [ unary main_arg0 main_v0 ((extractStridedSlice S20000x459 ![0, 0] · slices_S20000x483_S20000x459_0_0) : (⟨S20000x483, .f32⟩ : BufTy).Contents (Elt F) → (⟨S20000x459, .f32⟩ : BufTy).Contents (Elt F)),
    unary main_arg0 main_v1 ((extractStridedSlice S20000x24 ![0, 459] · slices_S20000x483_S20000x24_0_459) : (⟨S20000x483, .f32⟩ : BufTy).Contents (Elt F) → (⟨S20000x24, .f32⟩ : BufTy).Contents (Elt F)),
    unary main_v1 main_v2 (broadcastInDim S20000x1x24 ![0, 2] bcast_S20000x24_S20000x1x24_0_2 : (⟨S20000x24, .f32⟩ : BufTy).Contents (Elt F) → (⟨S20000x1x24, .f32⟩ : BufTy).Contents (Elt F)),
    unary main_v2 main_v3 (broadcastInDim S20000x27x24 ![0, 1, 2] bcast_S20000x1x24_S20000x27x24_0_1_2 : (⟨S20000x1x24, .f32⟩ : BufTy).Contents (Elt F) → (⟨S20000x27x24, .f32⟩ : BufTy).Contents (Elt F)),
    reshape main_v0 main_v4 rfl shapeCasts_S20000x459_S20000x27x17,
    unary main_v4 main_v5 ((extractStridedSlice S20000x27x16 ![0, 0, 0] · slices_S20000x27x17_S20000x27x16_0_0_0) : (⟨S20000x27x17, .f32⟩ : BufTy).Contents (Elt F) → (⟨S20000x27x16, .f32⟩ : BufTy).Contents (Elt F)),
    unary main_v4 main_v6 ((extractStridedSlice S20000x27x1 ![0, 0, 16] · slices_S20000x27x17_S20000x27x1_0_0_16) : (⟨S20000x27x17, .f32⟩ : BufTy).Contents (Elt F) → (⟨S20000x27x1, .f32⟩ : BufTy).Contents (Elt F)),
    nary ![main_v5, main_v6, main_v3] main_v7 (fun u => concatenate S20000x27x41 2 [⟨S20000x27x16, u 0⟩, ⟨S20000x27x1, u 1⟩, ⟨S20000x27x24, u 2⟩] concatenates_S20000x27x16_S20000x27x1_S20000x27x24_S20000x27x41_d2),
    reshape main_v7 main_v8 rfl shapeCasts_S20000x27x41_S540000x41,
    unary main_v8 main_v9 ((extractStridedSlice S540000x4 ![0, 0] · slices_S540000x41_S540000x4_0_0) : (⟨S540000x41, .f32⟩ : BufTy).Contents (Elt F) → (⟨S540000x4, .f32⟩ : BufTy).Contents (Elt F)),
    reshape main_v9 main_v10 rfl shapeCasts_S540000x4_S540000x4x1,
    unary main_v8 main_v11 ((extractStridedSlice S540000x1 ![0, 16] · slices_S540000x41_S540000x1_0_16) : (⟨S540000x41, .f32⟩ : BufTy).Contents (Elt F) → (⟨S540000x1, .f32⟩ : BufTy).Contents (Elt F)),
    reshape main_v11 main_v12 rfl shapeCasts_S540000x1_S540000x1x1,
    binary main_v10 main_v12 main_v13 ((fun a b => concatenate S540000x5x1 1 [⟨S540000x4x1, a⟩, ⟨S540000x1x1, b⟩] concatenates_S540000x4x1_S540000x1x1_S540000x5x1_d1) : (⟨S540000x4x1, .f32⟩ : BufTy).Contents (Elt F) → (⟨S540000x1x1, .f32⟩ : BufTy).Contents (Elt F) → (⟨S540000x5x1, .f32⟩ : BufTy).Contents (Elt F)),
    unary main_v8 main_v14 ((extractStridedSlice S540000x12 ![0, 4] · slices_S540000x41_S540000x12_0_4) : (⟨S540000x41, .f32⟩ : BufTy).Contents (Elt F) → (⟨S540000x12, .f32⟩ : BufTy).Contents (Elt F)),
    reshape main_v14 main_v15 rfl shapeCasts_S540000x12_S540000x4x3,
    unary main_v8 main_v16 ((extractStridedSlice S540000x24 ![0, 17] · slices_S540000x41_S540000x24_0_17) : (⟨S540000x41, .f32⟩ : BufTy).Contents (Elt F) → (⟨S540000x24, .f32⟩ : BufTy).Contents (Elt F)),
    reshape main_v16 main_v17 rfl shapeCasts_S540000x24_S540000x8x3,
    binary main_v15 main_v17 main_v18 ((fun a b => concatenate S540000x12x3 1 [⟨S540000x4x3, a⟩, ⟨S540000x8x3, b⟩] concatenates_S540000x4x3_S540000x8x3_S540000x12x3_d1) : (⟨S540000x4x3, .f32⟩ : BufTy).Contents (Elt F) → (⟨S540000x8x3, .f32⟩ : BufTy).Contents (Elt F) → (⟨S540000x12x3, .f32⟩ : BufTy).Contents (Elt F)),
    reshape main_v13 main_v19 rfl shapeCasts_S540000x5x1_S540000x5,
    reshape main_v18 main_v20 rfl shapeCasts_S540000x12x3_S540000x36,
    binary main_v19 main_v20 main_v21 ((fun a b => concatenate S540000x41 1 [⟨S540000x5, a⟩, ⟨S540000x36, b⟩] concatenates_S540000x5_S540000x36_S540000x41_d1) : (⟨S540000x5, .f32⟩ : BufTy).Contents (Elt F) → (⟨S540000x36, .f32⟩ : BufTy).Contents (Elt F) → (⟨S540000x41, .f32⟩ : BufTy).Contents (Elt F)) ]

/-- The edge index lists: the local lists, the offsets and their sums. -/
abbrev opsB : List (HloOp τ sig (Elt F)) :=
  [ nullary main_c (constantI S_ 32 0#32),
    unary main_c main_v22 (broadcastInDim S26 ![] bcast_S_S26 : (⟨S_, .i32⟩ : BufTy).Contents (Elt F) → (⟨S26, .i32⟩ : BufTy).Contents (Elt F)),
    nullary main_v23 (iotaInDim S26 32 0),
    nullary main_c_0 (constantI S_ 32 1#32),
    unary main_c_0 main_v24 (broadcastInDim S26 ![] bcast_S_S26 : (⟨S_, .i32⟩ : BufTy).Contents (Elt F) → (⟨S26, .i32⟩ : BufTy).Contents (Elt F)),
    binary main_v24 main_v23 main_v25 (addi : (⟨S26, .i32⟩ : BufTy).Contents (Elt F) → (⟨S26, .i32⟩ : BufTy).Contents (Elt F) → (⟨S26, .i32⟩ : BufTy).Contents (Elt F)),
    binary main_v22 main_v25 main_v26 ((fun a b => concatenate S52 0 [⟨S26, a⟩, ⟨S26, b⟩] concatenates_S26_S26_S52_d0) : (⟨S26, .i32⟩ : BufTy).Contents (Elt F) → (⟨S26, .i32⟩ : BufTy).Contents (Elt F) → (⟨S52, .i32⟩ : BufTy).Contents (Elt F)),
    binary main_v25 main_v22 main_v27 ((fun a b => concatenate S52 0 [⟨S26, a⟩, ⟨S26, b⟩] concatenates_S26_S26_S52_d0) : (⟨S26, .i32⟩ : BufTy).Contents (Elt F) → (⟨S26, .i32⟩ : BufTy).Contents (Elt F) → (⟨S52, .i32⟩ : BufTy).Contents (Elt F)),
    nullary main_v28 (iotaInDim S20000 32 0),
    unary main_v28 main_v29 (broadcastInDim S20000x1 ![0] bcast_S20000_S20000x1_0 : (⟨S20000, .i32⟩ : BufTy).Contents (Elt F) → (⟨S20000x1, .i32⟩ : BufTy).Contents (Elt F)),
    nullary main_c_1 (constantI S_ 32 27#32),
    unary main_c_1 main_v30 (broadcastInDim S20000x1 ![] bcast_S_S20000x1 : (⟨S_, .i32⟩ : BufTy).Contents (Elt F) → (⟨S20000x1, .i32⟩ : BufTy).Contents (Elt F)),
    binary main_v29 main_v30 main_v31 (muli : (⟨S20000x1, .i32⟩ : BufTy).Contents (Elt F) → (⟨S20000x1, .i32⟩ : BufTy).Contents (Elt F) → (⟨S20000x1, .i32⟩ : BufTy).Contents (Elt F)),
    unary main_v26 main_v32 (broadcastInDim S1x52 ![1] bcast_S52_S1x52_1 : (⟨S52, .i32⟩ : BufTy).Contents (Elt F) → (⟨S1x52, .i32⟩ : BufTy).Contents (Elt F)),
    unary main_v31 main_v33 (broadcastInDim S20000x52 ![0, 1] bcast_S20000x1_S20000x52_0_1 : (⟨S20000x1, .i32⟩ : BufTy).Contents (Elt F) → (⟨S20000x52, .i32⟩ : BufTy).Contents (Elt F)),
    unary main_v32 main_v34 (broadcastInDim S20000x52 ![0, 1] bcast_S1x52_S20000x52_0_1 : (⟨S1x52, .i32⟩ : BufTy).Contents (Elt F) → (⟨S20000x52, .i32⟩ : BufTy).Contents (Elt F)),
    binary main_v33 main_v34 main_v35 (addi : (⟨S20000x52, .i32⟩ : BufTy).Contents (Elt F) → (⟨S20000x52, .i32⟩ : BufTy).Contents (Elt F) → (⟨S20000x52, .i32⟩ : BufTy).Contents (Elt F)),
    reshape main_v35 main_v36 rfl shapeCasts_S20000x52_S1040000,
    unary main_v27 main_v37 (broadcastInDim S1x52 ![1] bcast_S52_S1x52_1 : (⟨S52, .i32⟩ : BufTy).Contents (Elt F) → (⟨S1x52, .i32⟩ : BufTy).Contents (Elt F)),
    unary main_v31 main_v38 (broadcastInDim S20000x52 ![0, 1] bcast_S20000x1_S20000x52_0_1 : (⟨S20000x1, .i32⟩ : BufTy).Contents (Elt F) → (⟨S20000x52, .i32⟩ : BufTy).Contents (Elt F)),
    unary main_v37 main_v39 (broadcastInDim S20000x52 ![0, 1] bcast_S1x52_S20000x52_0_1 : (⟨S1x52, .i32⟩ : BufTy).Contents (Elt F) → (⟨S20000x52, .i32⟩ : BufTy).Contents (Elt F)),
    binary main_v38 main_v39 main_v40 (addi : (⟨S20000x52, .i32⟩ : BufTy).Contents (Elt F) → (⟨S20000x52, .i32⟩ : BufTy).Contents (Elt F) → (⟨S20000x52, .i32⟩ : BufTy).Contents (Elt F)),
    reshape main_v40 main_v41 rfl shapeCasts_S20000x52_S1040000 ]

/-- The edge weights, repeated over the samples. -/
abbrev opsC : List (HloOp τ sig (Elt F)) :=
  [ nullary main_c_2 (constantI S_ 32 0#32),
    unary main_c_2 main_v42 (broadcastInDim S52 ![] bcast_S_S52 : (⟨S_, .i32⟩ : BufTy).Contents (Elt F) → (⟨S52, .i32⟩ : BufTy).Contents (Elt F)),
    binary main_v27 main_v42 main_v43 (cmpi .slt : (⟨S52, .i32⟩ : BufTy).Contents (Elt F) → (⟨S52, .i32⟩ : BufTy).Contents (Elt F) → (⟨S52, .i1⟩ : BufTy).Contents (Elt F)),
    nullary main_c_3 (constantI S_ 32 27#32),
    unary main_c_3 main_v44 (broadcastInDim S52 ![] bcast_S_S52 : (⟨S_, .i32⟩ : BufTy).Contents (Elt F) → (⟨S52, .i32⟩ : BufTy).Contents (Elt F)),
    binary main_v27 main_v44 main_v45 (addi : (⟨S52, .i32⟩ : BufTy).Contents (Elt F) → (⟨S52, .i32⟩ : BufTy).Contents (Elt F) → (⟨S52, .i32⟩ : BufTy).Contents (Elt F)),
    ternary main_v43 main_v45 main_v27 main_v46 (select : (⟨S52, .i1⟩ : BufTy).Contents (Elt F) → (⟨S52, .i32⟩ : BufTy).Contents (Elt F) → (⟨S52, .i32⟩ : BufTy).Contents (Elt F) → (⟨S52, .i32⟩ : BufTy).Contents (Elt F)),
    unary main_v46 main_v47 (broadcastInDim S52x1 ![0] bcast_S52_S52x1_0 : (⟨S52, .i32⟩ : BufTy).Contents (Elt F) → (⟨S52x1, .i32⟩ : BufTy).Contents (Elt F)),
    binary main_arg1 main_v47 main_v48 ((fun x i => Host.gather gather_S27x3_S52x1_S52x3_1_0_n_n_0_1_13 x i) : (⟨S27x3, .f32⟩ : BufTy).Contents (Elt F) → (⟨S52x1, .i32⟩ : BufTy).Contents (Elt F) → (⟨S52x3, .f32⟩ : BufTy).Contents (Elt F)),
    nullary main_c_4 (constantI S_ 32 0#32),
    unary main_c_4 main_v49 (broadcastInDim S52 ![] bcast_S_S52 : (⟨S_, .i32⟩ : BufTy).Contents (Elt F) → (⟨S52, .i32⟩ : BufTy).Contents (Elt F)),
    binary main_v26 main_v49 main_v50 (cmpi .slt : (⟨S52, .i32⟩ : BufTy).Contents (Elt F) → (⟨S52, .i32⟩ : BufTy).Contents (Elt F) → (⟨S52, .i1⟩ : BufTy).Contents (Elt F)),
    nullary main_c_5 (constantI S_ 32 27#32),
    unary main_c_5 main_v51 (broadcastInDim S52 ![] bcast_S_S52 : (⟨S_, .i32⟩ : BufTy).Contents (Elt F) → (⟨S52, .i32⟩ : BufTy).Contents (Elt F)),
    binary main_v26 main_v51 main_v52 (addi : (⟨S52, .i32⟩ : BufTy).Contents (Elt F) → (⟨S52, .i32⟩ : BufTy).Contents (Elt F) → (⟨S52, .i32⟩ : BufTy).Contents (Elt F)),
    ternary main_v50 main_v52 main_v26 main_v53 (select : (⟨S52, .i1⟩ : BufTy).Contents (Elt F) → (⟨S52, .i32⟩ : BufTy).Contents (Elt F) → (⟨S52, .i32⟩ : BufTy).Contents (Elt F) → (⟨S52, .i32⟩ : BufTy).Contents (Elt F)),
    unary main_v53 main_v54 (broadcastInDim S52x1 ![0] bcast_S52_S52x1_0 : (⟨S52, .i32⟩ : BufTy).Contents (Elt F) → (⟨S52x1, .i32⟩ : BufTy).Contents (Elt F)),
    binary main_arg1 main_v54 main_v55 ((fun x i => Host.gather gather_S27x3_S52x1_S52x3_1_0_n_n_0_1_13 x i) : (⟨S27x3, .f32⟩ : BufTy).Contents (Elt F) → (⟨S52x1, .i32⟩ : BufTy).Contents (Elt F) → (⟨S52x3, .f32⟩ : BufTy).Contents (Elt F)),
    binary main_v48 main_v55 main_v56 (subf : (⟨S52x3, .f32⟩ : BufTy).Contents (Elt F) → (⟨S52x3, .f32⟩ : BufTy).Contents (Elt F) → (⟨S52x3, .f32⟩ : BufTy).Contents (Elt F)),
    TRef.binary (.of main_v56) (.of main_v56) main_call0.v0 mulf,
    TRef.nullary main_call0.cst (constant S_ .f32 0x00000000#32),
    TRef.binary main_call0.v0 main_call0.cst main_call0.v1 (fun x v => Host.reduceAdd x v reducesTo_S52x3_S52_d1 h_S_),
    TRef.unary main_call0.v1 main_call0.v2 Host.sqrt,
    unary main_v57 main_v58 (Host.negf : (⟨S52, .f32⟩ : BufTy).Contents (Elt F) → (⟨S52, .f32⟩ : BufTy).Contents (Elt F)),
    unary main_v58 main_v59 (Host.exp : (⟨S52, .f32⟩ : BufTy).Contents (Elt F) → (⟨S52, .f32⟩ : BufTy).Contents (Elt F)),
    reshape main_v59 main_v60 rfl shapeCasts_S52_S1x52,
    unary main_v60 main_v61 (broadcastInDim S20000x52 ![0, 1] bcast_S1x52_S20000x52_0_1 : (⟨S1x52, .f32⟩ : BufTy).Contents (Elt F) → (⟨S20000x52, .f32⟩ : BufTy).Contents (Elt F)),
    reshape main_v61 main_v62 rfl shapeCasts_S20000x52_S1040000 ]

/-- The row gather with its fill. -/
abbrev opsD : List (HloOp τ sig (Elt F)) :=
  [ TRef.nullary main_call1.c (constantI S_ 32 0#32),
    TRef.unary main_call1.c main_call1.v0 (broadcastInDim S1040000 ![] bcast_S_S1040000),
    TRef.binary (.of main_v36) main_call1.v0 main_call1.v1 (cmpi .slt),
    TRef.nullary main_call1.c_0 (constantI S_ 32 540000#32),
    TRef.unary main_call1.c_0 main_call1.v2 (broadcastInDim S1040000 ![] bcast_S_S1040000),
    TRef.binary (.of main_v36) main_call1.v2 main_call1.v3 addi,
    TRef.ternary main_call1.v1 main_call1.v3 (.of main_v36) main_call1.call0.v0 select,
    TRef.unary main_call1.call0.v0 main_call1.v5 (broadcastInDim S1040000x1 ![0] bcast_S1040000_S1040000x1_0),
    TRef.nullary main_call1.c_1 (constantI S1 32 539999#32),
    TRef.nullary main_call1.c_2 (constantI S_ 32 0#32),
    TRef.unary main_call1.c_2 main_call1.v6 (broadcastInDim S1040000x1 ![] bcast_S_S1040000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S1040000x1 ![0, 1] bcast_S1x1_S1040000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1040000x1_S1040000_d1 h_S_),
    TRef.binary (.of main_v21) main_call1.v5 main_call1.v13 (fun x i => Host.gather gather_S540000x41_S1040000x1_S1040000x41_1_0_n_n_0_1_141 x i),
    TRef.unary main_call1.v12 main_call1.v14 (broadcastInDim S1040000x41 ![0] bcast_S1040000_S1040000x41_0),
    TRef.nullary main_call1.cst (constant S_ .f32 0x7FC00000#32),
    TRef.unary main_call1.cst main_call1.v15 (broadcastInDim S1040000x41 ![] bcast_S_S1040000x41),
    TRef.ternary main_call1.v14 main_call1.v13 main_call1.v15 main_call1.v16 select ]

/-- The messages, their sums into the destinations, the mean. -/
abbrev opsE : List (HloOp τ sig (Elt F)) :=
  [ unary main_v62 main_v64 (broadcastInDim S1040000x1 ![0] bcast_S1040000_S1040000x1_0 : (⟨S1040000, .f32⟩ : BufTy).Contents (Elt F) → (⟨S1040000x1, .f32⟩ : BufTy).Contents (Elt F)),
    unary main_v64 main_v65 (broadcastInDim S1040000x41 ![0, 1] bcast_S1040000x1_S1040000x41_0_1 : (⟨S1040000x1, .f32⟩ : BufTy).Contents (Elt F) → (⟨S1040000x41, .f32⟩ : BufTy).Contents (Elt F)),
    binary main_v63 main_v65 main_v66 (mulf : (⟨S1040000x41, .f32⟩ : BufTy).Contents (Elt F) → (⟨S1040000x41, .f32⟩ : BufTy).Contents (Elt F) → (⟨S1040000x41, .f32⟩ : BufTy).Contents (Elt F)),
    nullary main_cst (constant S_ .f32 0x00000000#32),
    unary main_cst main_v67 (broadcastInDim S540000x41 ![] bcast_S_S540000x41 : (⟨S_, .f32⟩ : BufTy).Contents (Elt F) → (⟨S540000x41, .f32⟩ : BufTy).Contents (Elt F)),
    unary main_v41 main_v68 (broadcastInDim S1040000x1 ![0] bcast_S1040000_S1040000x1_0 : (⟨S1040000, .i32⟩ : BufTy).Contents (Elt F) → (⟨S1040000x1, .i32⟩ : BufTy).Contents (Elt F)),
    ternary main_v67 main_v68 main_v66 main_v69 ((fun x i u => Host.scatterAdd scatter_S540000x41_S1040000x1_S1040000x41_1_0_0_1 x i u) : (⟨S540000x41, .f32⟩ : BufTy).Contents (Elt F) → (⟨S1040000x1, .i32⟩ : BufTy).Contents (Elt F) → (⟨S1040000x41, .f32⟩ : BufTy).Contents (Elt F) → (⟨S540000x41, .f32⟩ : BufTy).Contents (Elt F)),
    reshape main_v69 main_v70 rfl shapeCasts_S540000x41_S20000x27x41,
    nullary main_cst_6 (constant S_ .f32 0x00000000#32),
    binary main_v70 main_cst_6 main_v71 ((fun x v => Host.reduceAdd x v reducesTo_S20000x27x41_S20000x41_d1 h_S_) : (⟨S20000x27x41, .f32⟩ : BufTy).Contents (Elt F) → (⟨S_, .f32⟩ : BufTy).Contents (Elt F) → (⟨S20000x41, .f32⟩ : BufTy).Contents (Elt F)),
    nullary main_cst_7 (constant S_ .f32 0x41D80000#32),
    unary main_cst_7 main_v72 (broadcastInDim S20000x41 ![] bcast_S_S20000x41 : (⟨S_, .f32⟩ : BufTy).Contents (Elt F) → (⟨S20000x41, .f32⟩ : BufTy).Contents (Elt F)),
    binary main_v71 main_v72 main_v73 (Host.divf : (⟨S20000x41, .f32⟩ : BufTy).Contents (Elt F) → (⟨S20000x41, .f32⟩ : BufTy).Contents (Elt F) → (⟨S20000x41, .f32⟩ : BufTy).Contents (Elt F)) ]

theorem ops_sub : (ops : List (HloOp τ sig (Elt F))).Forall fun op => op.bufs ⊆ tcRefs τ sig :=
  ⟨unary_bufs_sub .., unary_bufs_sub .., unary_bufs_sub .., unary_bufs_sub .., reshape_bufs_sub .., unary_bufs_sub ..,
    unary_bufs_sub .., nary_bufs_sub .., reshape_bufs_sub .., unary_bufs_sub .., reshape_bufs_sub .., unary_bufs_sub ..,
    reshape_bufs_sub .., binary_bufs_sub .., unary_bufs_sub .., reshape_bufs_sub .., unary_bufs_sub .., reshape_bufs_sub ..,
    binary_bufs_sub .., reshape_bufs_sub .., reshape_bufs_sub .., binary_bufs_sub .., nullary_bufs_sub .., unary_bufs_sub ..,
    nullary_bufs_sub .., nullary_bufs_sub .., unary_bufs_sub .., binary_bufs_sub .., binary_bufs_sub .., binary_bufs_sub ..,
    nullary_bufs_sub .., unary_bufs_sub .., nullary_bufs_sub .., unary_bufs_sub .., binary_bufs_sub .., unary_bufs_sub ..,
    unary_bufs_sub .., unary_bufs_sub .., binary_bufs_sub .., reshape_bufs_sub .., unary_bufs_sub .., unary_bufs_sub ..,
    unary_bufs_sub .., binary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    binary_bufs_sub .., unary_bufs_sub .., unary_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., nullary_bufs_sub .., unary_bufs_sub .., unary_bufs_sub ..,
    ternary_bufs_sub .., reshape_bufs_sub .., nullary_bufs_sub .., binary_bufs_sub .., nullary_bufs_sub .., unary_bufs_sub ..,
    binary_bufs_sub ..⟩

end Cert.ReferenceIdeal.RefOps

end
-- ==== Proof.RefRun.lean ====
/-
  The reference's run: every weakly fair execution of its host program terminates with the result at refOut of the
  arguments and the arguments unchanged.
-/
import proofs.«101747_g12034498363475_cont_main3_758_3_alg».proof.Proof.RefStages
import proofs.«101747_g12034498363475_cont_main3_758_3_alg».proof.Proof.RefOps
import Idealize.ShloMosaic.Lib.StableHlo.Run

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

set_option maxRecDepth 4096 in
set_option maxHeartbeats 4000000 in
/-- The program is that straight line: the functions unfolded at their calls, sequencing reassociated. -/
theorem main_eq (c : Dev nD) : main (F := F) c = seq ops := by
  simp only [main, main_part0, main_part1, fn_norm.body, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## The line in five stretches -/

/-- The line is its five stretches one after the other. -/
theorem ops_split : (ops : List (HloOp τ sig (Elt F))) = opsA ++ (opsB ++ (opsC ++ (opsD ++ opsE))) := rfl

/-- The contents after two lines run in turn: the second's after the first's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Contents moved to a typed reference's buffer and back are themselves. -/
private theorem ofBuf_toBuf {T : BufTy} (x : TRef sig T) (v : T.Contents (Elt F)) : x.ofBuf (x.toBuf v) = v := by
  obtain ⟨r, rfl, _, _⟩ := x
  rfl

/-! At a literal reference the transport from the value's type to the buffer's is the identity. -/
private theorem toBuf_v57 (h : main_v57.ty = (⟨S52, .f32⟩ : BufTy)) (hd : main_v57.space ≠ .host) (hs : main_v57.isScoped = false)
    (v : (⟨S52, .f32⟩ : BufTy).Contents (Elt F)) : (TRef.of (T := (⟨S52, .f32⟩ : BufTy)) main_v57 h hd hs).toBuf v = v := rfl

private theorem toBuf_v63 (h : main_v63.ty = (⟨S1040000x41, .f32⟩ : BufTy)) (hd : main_v63.space ≠ .host) (hs : main_v63.isScoped = false)
    (v : (⟨S1040000x41, .f32⟩ : BufTy).Contents (Elt F)) : (TRef.of (T := (⟨S1040000x41, .f32⟩ : BufTy)) main_v63 h hd hs).toBuf v = v := rfl

/-! ## Each stretch's results, and what it leaves alone -/

set_option maxHeartbeats 4000000 in
theorem A_out (V : Valuation τ sig (Elt F)) :
    after opsA V (main_v21 : DevRef τ sig) = Stages.nodeFeat (V (main_arg0 : DevRef τ sig)) := by
  after_results
  rfl

theorem A_arg0 (V : Valuation τ sig (Elt F)) :
    after opsA V (main_arg0 : DevRef τ sig) = V (main_arg0 : DevRef τ sig) := by
  after_results_simp

theorem A_arg1 (V : Valuation τ sig (Elt F)) :
    after opsA V (main_arg1 : DevRef τ sig) = V (main_arg1 : DevRef τ sig) := by
  after_results_simp

set_option maxHeartbeats 4000000 in
theorem B_v26 (V : Valuation τ sig (Elt F)) :
    after opsB V (main_v26 : DevRef τ sig) = Stages.srcLocal := by
  after_results
  rfl

set_option maxHeartbeats 4000000 in
theorem B_v27 (V : Valuation τ sig (Elt F)) :
    after opsB V (main_v27 : DevRef τ sig) = Stages.dstLocal := by
  after_results
  rfl

set_option maxHeartbeats 4000000 in
theorem B_v36 (V : Valuation τ sig (Elt F)) :
    after opsB V (main_v36 : DevRef τ sig) = Stages.srcIdx := by
  after_results
  rfl

set_option maxHeartbeats 4000000 in
theorem B_v41 (V : Valuation τ sig (Elt F)) :
    after opsB V (main_v41 : DevRef τ sig) = Stages.dstIdx := by
  after_results
  rfl

theorem B_arg0 (V : Valuation τ sig (Elt F)) :
    after opsB V (main_arg0 : DevRef τ sig) = V (main_arg0 : DevRef τ sig) := by
  after_results_simp

theorem B_arg1 (V : Valuation τ sig (Elt F)) :
    after opsB V (main_arg1 : DevRef τ sig) = V (main_arg1 : DevRef τ sig) := by
  after_results_simp

theorem B_v21 (V : Valuation τ sig (Elt F)) :
    after opsB V (main_v21 : DevRef τ sig) = V (main_v21 : DevRef τ sig) := by
  after_results_simp

set_option maxHeartbeats 1000000 in
theorem C_out (V : Valuation τ sig (Elt F)) (h26 : V (main_v26 : DevRef τ sig) = Stages.srcLocal)
    (h27 : V (main_v27 : DevRef τ sig) = Stages.dstLocal) :
    after opsC V (main_v62 : DevRef τ sig) = Stages.wFull (V (main_arg1 : DevRef τ sig)) := by
  after_results_simp
  simp only [ofBuf_toBuf, toBuf_v57, h26, h27]
  rfl

theorem C_arg0 (V : Valuation τ sig (Elt F)) :
    after opsC V (main_arg0 : DevRef τ sig) = V (main_arg0 : DevRef τ sig) := by
  after_results_simp

theorem C_arg1 (V : Valuation τ sig (Elt F)) :
    after opsC V (main_arg1 : DevRef τ sig) = V (main_arg1 : DevRef τ sig) := by
  after_results_simp

theorem C_v21 (V : Valuation τ sig (Elt F)) :
    after opsC V (main_v21 : DevRef τ sig) = V (main_v21 : DevRef τ sig) := by
  after_results_simp

theorem C_v36 (V : Valuation τ sig (Elt F)) :
    after opsC V (main_v36 : DevRef τ sig) = V (main_v36 : DevRef τ sig) := by
  after_results_simp

theorem C_v41 (V : Valuation τ sig (Elt F)) :
    after opsC V (main_v41 : DevRef τ sig) = V (main_v41 : DevRef τ sig) := by
  after_results_simp

set_option maxHeartbeats 1000000 in
theorem D_out (V : Valuation τ sig (Elt F)) :
    after opsD V (main_v63 : DevRef τ sig)
      = Stages.taken (V (main_v21 : DevRef τ sig)) (V (main_v36 : DevRef τ sig)) := by
  after_results_simp
  simp only [ofBuf_toBuf, toBuf_v63]
  rfl

theorem D_arg0 (V : Valuation τ sig (Elt F)) :
    after opsD V (main_arg0 : DevRef τ sig) = V (main_arg0 : DevRef τ sig) := by
  after_results_simp

theorem D_arg1 (V : Valuation τ sig (Elt F)) :
    after opsD V (main_arg1 : DevRef τ sig) = V (main_arg1 : DevRef τ sig) := by
  after_results_simp

theorem D_v62 (V : Valuation τ sig (Elt F)) :
    after opsD V (main_v62 : DevRef τ sig) = V (main_v62 : DevRef τ sig) := by
  after_results_simp

theorem D_v41 (V : Valuation τ sig (Elt F)) :
    after opsD V (main_v41 : DevRef τ sig) = V (main_v41 : DevRef τ sig) := by
  after_results_simp

/-- The last stretch as a function of the gathered rows, the weights and the destinations. -/
def tailOut (tk : FVec F S1040000x41 .f32) (w : FVec F S1040000 .f32) (dst : IVec S1040000 32) : FVec F S20000x41 .f32 :=
  let v64 : FVec F S1040000x1 .f32 := broadcastInDim S1040000x1 ![0] bcast_S1040000_S1040000x1_0 w
  let v65 : FVec F S1040000x41 .f32 := broadcastInDim S1040000x41 ![0, 1] bcast_S1040000x1_S1040000x41_0_1 v64
  let v66 : FVec F S1040000x41 .f32 := mulf tk v65
  let cst : FVec F S_ .f32 := constant S_ .f32 0x00000000#32
  let v67 : FVec F S540000x41 .f32 := broadcastInDim S540000x41 ![] bcast_S_S540000x41 cst
  let v68 : IVec S1040000x1 32 := broadcastInDim S1040000x1 ![0] bcast_S1040000_S1040000x1_0 dst
  let v69 : FVec F S540000x41 .f32 := Host.scatterAdd scatter_S540000x41_S1040000x1_S1040000x41_1_0_0_1 v67 v68 v66
  let v70 : FVec F S20000x27x41 .f32 := shapeCast S20000x27x41 v69 shapeCasts_S540000x41_S20000x27x41
  let cst_6 : FVec F S_ .f32 := constant S_ .f32 0x00000000#32
  let v71 : FVec F S20000x41 .f32 := Host.reduceAdd v70 cst_6 reducesTo_S20000x27x41_S20000x41_d1 h_S_
  let cst_7 : FVec F S_ .f32 := constant S_ .f32 0x41D80000#32
  let v72 : FVec F S20000x41 .f32 := broadcastInDim S20000x41 ![] bcast_S_S20000x41 cst_7
  Host.divf v71 v72

/-- At the rows gathered at the sources, the weights and the destinations it is the reference's result. -/
theorem tailOut_eq (st : FVec F S20000x483 .f32) (nd : FVec F S27x3 .f32) :
    tailOut (Stages.taken (Stages.nodeFeat st) Stages.srcIdx) (Stages.wFull nd) Stages.dstIdx = Stages.refOut st nd := rfl

theorem E_out (V : Valuation τ sig (Elt F)) :
    after opsE V (main_v73 : DevRef τ sig)
      = tailOut (V (main_v63 : DevRef τ sig)) (V (main_v62 : DevRef τ sig)) (V (main_v41 : DevRef τ sig)) := by
  after_results_simp
  rfl

theorem E_arg0 (V : Valuation τ sig (Elt F)) :
    after opsE V (main_arg0 : DevRef τ sig) = V (main_arg0 : DevRef τ sig) := by
  after_results_simp

theorem E_arg1 (V : Valuation τ sig (Elt F)) :
    after opsE V (main_arg1 : DevRef τ sig) = V (main_arg1 : DevRef τ sig) := by
  after_results_simp

/-! ## The whole line -/

/-- The result buffer after the whole line holds the reference's result of the arguments. -/
theorem out_eq (V : Valuation τ sig (Elt F)) :
    after ops V (main_v73 : DevRef τ sig)
      = Stages.refOut (V (main_arg0 : DevRef τ sig)) (V (main_arg1 : DevRef τ sig)) := by
  rw [ops_split]
  simp only [after_app]
  rw [E_out, D_out, D_v62, D_v41, C_v21, C_v36, C_v41,
    C_out (after opsB (after opsA V)) (B_v26 _) (B_v27 _), B_v21, B_v36, B_v41, B_arg1, A_out, A_arg1]
  exact tailOut_eq _ _

theorem arg0_eq (V : Valuation τ sig (Elt F)) :
    after ops V (main_arg0 : DevRef τ sig) = V (main_arg0 : DevRef τ sig) := by
  rw [ops_split]
  simp only [after_app]
  rw [E_arg0, D_arg0, C_arg0, B_arg0, A_arg0]

theorem arg1_eq (V : Valuation τ sig (Elt F)) :
    after ops V (main_arg1 : DevRef τ sig) = V (main_arg1 : DevRef τ sig) := by
  rw [ops_split]
  simp only [after_app]
  rw [E_arg1, D_arg1, C_arg1, B_arg1, A_arg1]

/-- On every device, for any float values, from any memory with zero counters: every weakly fair execution of the
    reference's host program terminates with the result at refOut of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73)
        = Stages.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v73).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefNodeFeat.lean ====
/-
  The feature rows read at an index: row 27 i + v, column j, is the state entry (i, col v j).
-/
import proofs.«101747_g12034498363475_cont_main3_758_3_alg».proof.Proof.RefStages
import proofs.«101747_g12034498363475_cont_main3_758_3_alg».proof.Proof.Spec
import Idealize.ShloMosaic.Lib.Pipeline.Value
import Idealize.ShloMosaic.Lib.ValueLayout

noncomputable section

namespace Cert.ReferenceIdeal.RefValue

open Cert.ReferenceIdeal Cert.ReferenceIdeal.Gen Idealize.ShloMosaic Idealize.ShloMosaic.ValueIdx Cert.Star

variable {F : FTy → Type} [FloatOps F]

/-! ## Layout operations at the ranks met here, read at an index given by coordinates -/

section Generic
variable {α : Type}

/-- A rank-3 array cut along its last axis from `o` reads, at `(a, b, j)`, the source at `(a, b, k)` with `k = o + j`. -/
private theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A matrix whose rows are split in `a` runs of `b` reads, at `(i, p, q)`, the source at `(i, p b + q)`. -/
private theorem cast_split_apply {n m a b : Nat} (x : (⟨2, ![n, m]⟩ : Shape).Idx → α)
    (h : (⟨2, ![n, m]⟩ : Shape).ShapeCasts ⟨3, ![n, a, b]⟩) (hm : m = a * b)
    (i : Fin n) (p : Fin a) (q : Fin b) (k : Fin m) (hk : k.val = p.val * b + q.val) :
    shapeCast ⟨3, ![n, a, b]⟩ x h (ix3 i p q) = x (ix2 i k) :=
  shapeCast_apply x h _ _ (by
    rw [Shape.rowMajor_val_two, Shape.rowMajor_val_three]
    show i.val * m + k.val = (i.val * a + p.val) * b + q.val
    rw [hk, hm]; ring)

/-- A rank-3 array whose last two axes are merged reads, at `(i, p b + q)`, the source at `(i, p, q)`. -/
private theorem cast_merge_last_apply {n m a b : Nat} (x : (⟨3, ![n, a, b]⟩ : Shape).Idx → α)
    (h : (⟨3, ![n, a, b]⟩ : Shape).ShapeCasts ⟨2, ![n, m]⟩) (hm : m = a * b)
    (i : Fin n) (k : Fin m) (p : Fin a) (q : Fin b) (hk : k.val = p.val * b + q.val) :
    shapeCast ⟨2, ![n, m]⟩ x h (ix2 i k) = x (ix3 i p q) :=
  shapeCast_apply x h _ _ (by
    rw [Shape.rowMajor_val_two, Shape.rowMajor_val_three]
    show (i.val * a + p.val) * b + q.val = i.val * m + k.val
    rw [hk, hm]; ring)

/-- A rank-3 array whose first two axes are merged reads, at `(i a + p, q)`, the source at `(i, p, q)`. -/
private theorem cast_merge_first_apply {n m a b : Nat} (x : (⟨3, ![n, a, b]⟩ : Shape).Idx → α)
    (h : (⟨3, ![n, a, b]⟩ : Shape).ShapeCasts ⟨2, ![m, b]⟩)
    (r : Fin m) (q : Fin b) (i : Fin n) (p : Fin a) (hr : r.val = i.val * a + p.val) :
    shapeCast ⟨2, ![m, b]⟩ x h (ix2 r q) = x (ix3 i p q) :=
  shapeCast_apply x h _ _ (by
    rw [Shape.rowMajor_val_two, Shape.rowMajor_val_three]
    show (i.val * a + p.val) * b + q.val = r.val * b + q.val
    rw [hr])

end Generic

/-! ## The stages of the feature rows -/

/-- The 41 channels of every node: its own 16, its 17th, the row's 24 shared entries. -/
private def chans (st : FVec F S20000x483 .f32) : FVec F S20000x27x41 .f32 :=
  let v0 : FVec F S20000x459 .f32 := extractStridedSlice S20000x459 ![0, 0] st slices_S20000x483_S20000x459_0_0
  let v1 : FVec F S20000x24 .f32 := extractStridedSlice S20000x24 ![0, 459] st slices_S20000x483_S20000x24_0_459
  let v2 : FVec F S20000x1x24 .f32 := broadcastInDim S20000x1x24 ![0, 2] bcast_S20000x24_S20000x1x24_0_2 v1
  let v3 : FVec F S20000x27x24 .f32 := broadcastInDim S20000x27x24 ![0, 1, 2] bcast_S20000x1x24_S20000x27x24_0_1_2 v2
  let v4 : FVec F S20000x27x17 .f32 := shapeCast S20000x27x17 v0 shapeCasts_S20000x459_S20000x27x17
  let v5 : FVec F S20000x27x16 .f32 := extractStridedSlice S20000x27x16 ![0, 0, 0] v4 slices_S20000x27x17_S20000x27x16_0_0_0
  let v6 : FVec F S20000x27x1 .f32 := extractStridedSlice S20000x27x1 ![0, 0, 16] v4 slices_S20000x27x17_S20000x27x1_0_0_16
  concatenate S20000x27x41 2 [⟨S20000x27x16, v5⟩, ⟨S20000x27x1, v6⟩, ⟨S20000x27x24, v3⟩] concatenates_S20000x27x16_S20000x27x1_S20000x27x24_S20000x27x41_d2

/-- The channels as rows, one per node. -/
private def rows (st : FVec F S20000x483 .f32) : FVec F S540000x41 .f32 :=
  shapeCast S540000x41 (chans st) shapeCasts_S20000x27x41_S540000x41

/-- The first five output columns of a table of rows. -/
private def head5 (v8 : FVec F S540000x41 .f32) : FVec F S540000x5 .f32 :=
  let v9 : FVec F S540000x4 .f32 := extractStridedSlice S540000x4 ![0, 0] v8 slices_S540000x41_S540000x4_0_0
  let v10 : FVec F S540000x4x1 .f32 := shapeCast S540000x4x1 v9 shapeCasts_S540000x4_S540000x4x1
  let v11 : FVec F S540000x1 .f32 := extractStridedSlice S540000x1 ![0, 16] v8 slices_S540000x41_S540000x1_0_16
  let v12 : FVec F S540000x1x1 .f32 := shapeCast S540000x1x1 v11 shapeCasts_S540000x1_S540000x1x1
  let v13 : FVec F S540000x5x1 .f32 := concatenate S540000x5x1 1 [⟨S540000x4x1, v10⟩, ⟨S540000x1x1, v12⟩] concatenates_S540000x4x1_S540000x1x1_S540000x5x1_d1
  shapeCast S540000x5 v13 shapeCasts_S540000x5x1_S540000x5

/-- The last 36 output columns of a table of rows. -/
private def tail36 (v8 : FVec F S540000x41 .f32) : FVec F S540000x36 .f32 :=
  let v14 : FVec F S540000x12 .f32 := extractStridedSlice S540000x12 ![0, 4] v8 slices_S540000x41_S540000x12_0_4
  let v15 : FVec F S540000x4x3 .f32 := shapeCast S540000x4x3 v14 shapeCasts_S540000x12_S540000x4x3
  let v16 : FVec F S540000x24 .f32 := extractStridedSlice S540000x24 ![0, 17] v8 slices_S540000x41_S540000x24_0_17
  let v17 : FVec F S540000x8x3 .f32 := shapeCast S540000x8x3 v16 shapeCasts_S540000x24_S540000x8x3
  let v18 : FVec F S540000x12x3 .f32 := concatenate S540000x12x3 1 [⟨S540000x4x3, v15⟩, ⟨S540000x8x3, v17⟩] concatenates_S540000x4x3_S540000x8x3_S540000x12x3_d1
  shapeCast S540000x36 v18 shapeCasts_S540000x12x3_S540000x36

private theorem nodeFeat_eq (st : FVec F S20000x483 .f32) :
    Stages.nodeFeat st = concatenate S540000x41 1 [⟨S540000x5, head5 (rows st)⟩, ⟨S540000x36, tail36 (rows st)⟩]
      concatenates_S540000x5_S540000x36_S540000x41_d1 := rfl

/-- The node's own block of the state row, as channels: entry `(i, v, c)` of the 27 x 17 view is `(i, 17 v + c)`. -/
private theorem own_apply (st : FVec F S20000x483 .f32) (i : Fin 20000) (v : Fin 27) (c : Fin 17) (k : Fin 483)
    (hk : k.val = 17 * v.val + c.val) :
    shapeCast S20000x27x17 (extractStridedSlice S20000x459 ![0, 0] st slices_S20000x483_S20000x459_0_0)
      shapeCasts_S20000x459_S20000x27x17 (ix3 i v c) = st (ix2 i k) := by
  refine (cast_split_apply _ shapeCasts_S20000x459_S20000x27x17 (by norm_num) i v c
    (⟨17 * v.val + c.val, by omega⟩ : Fin 459) (by show 17 * v.val + c.val = v.val * 17 + c.val; omega)).trans ?_
  exact slice2_axis1_apply 0 st slices_S20000x483_S20000x459_0_0 i _ k (by show k.val = 0 + (17 * v.val + c.val); omega)

/-- The shared entries spread over the nodes: entry `(i, v, c)` is `(i, 459 + c)`. -/
private theorem shared_apply (st : FVec F S20000x483 .f32) (i : Fin 20000) (v : Fin 27) (c : Fin 24) (k : Fin 483)
    (hk : k.val = 459 + c.val) :
    broadcastInDim S20000x27x24 ![0, 1, 2] bcast_S20000x1x24_S20000x27x24_0_1_2
      (broadcastInDim S20000x1x24 ![0, 2] bcast_S20000x24_S20000x1x24_0_2
        (extractStridedSlice S20000x24 ![0, 459] st slices_S20000x483_S20000x24_0_459)) (ix3 i v c) = st (ix2 i k) := by
  refine (broadcastInDim_apply _ bcast_S20000x1x24_S20000x27x24_0_1_2 _ _ (ix3 i (0 : Fin 1) c) (fun a => by
    match a with
    | ⟨0, _⟩ => rfl
    | ⟨1, _⟩ => rfl
    | ⟨2, _⟩ => rfl)).trans ?_
  refine (broadcastInDim_apply _ bcast_S20000x24_S20000x1x24_0_2 _ _ (ix2 i c) (fun a => by
    match a with
    | ⟨0, _⟩ => rfl
    | ⟨1, _⟩ => rfl)).trans ?_
  exact slice2_axis1_apply 459 st slices_S20000x483_S20000x24_0_459 i c k hk

/-- The channels at an index: channel `c` of node `v` of sample `i` is the node's own entry `(i, 17 v + c)` for
    `c < 17`, the shared entry `(i, 459 + (c - 17))` otherwise. -/
private theorem chans_apply (st : FVec F S20000x483 .f32) (i : Fin 20000) (v : Fin 27) (c : Fin 41) (k : Fin 483)
    (hk : k.val = if c.val < 17 then 17 * v.val + c.val else 459 + (c.val - 17)) :
    chans st (ix3 i v c) = st (ix2 i k) := by
  unfold chans
  by_cases h16 : c.val < 16
  · rw [if_pos (by omega)] at hk
    refine (concatenate_apply_piece 2 [⟨S20000x27x16, _⟩, ⟨S20000x27x1, _⟩, ⟨S20000x27x24, _⟩]
      concatenates_S20000x27x16_S20000x27x1_S20000x27x24_S20000x27x41_d2 (ix3 i v c)
      0 (by show (0 : Nat) < 3; omega) S20000x27x16 _ rfl rfl 0 rfl (ix3 i v (⟨c.val, h16⟩ : Fin 16)) (fun b hb => by
        match b with
        | ⟨0, _⟩ => rfl
        | ⟨1, _⟩ => rfl
        | ⟨2, _⟩ => exact absurd rfl hb) (by show 0 + c.val = c.val; omega)).trans ?_
    refine (slice3_axis2_apply 0 _ slices_S20000x27x17_S20000x27x16_0_0_0 i v _ (⟨c.val, by omega⟩ : Fin 17)
      (by show c.val = 0 + c.val; omega)).trans ?_
    exact own_apply st i v _ k hk
  · by_cases h17 : c.val < 17
    · rw [if_pos h17] at hk
      refine (concatenate_apply_piece 2 [⟨S20000x27x16, _⟩, ⟨S20000x27x1, _⟩, ⟨S20000x27x24, _⟩]
      concatenates_S20000x27x16_S20000x27x1_S20000x27x24_S20000x27x41_d2 (ix3 i v c)
        1 (by show (1 : Nat) < 3; omega) S20000x27x1 _ rfl rfl 16 rfl (ix3 i v (0 : Fin 1)) (fun b hb => by
          match b with
          | ⟨0, _⟩ => rfl
          | ⟨1, _⟩ => rfl
          | ⟨2, _⟩ => exact absurd rfl hb) (by show 16 + 0 = c.val; omega)).trans ?_
      refine (slice3_axis2_apply 16 _ slices_S20000x27x17_S20000x27x1_0_0_16 i v _ (⟨16, by omega⟩ : Fin 17)
        (by show 16 = 16 + 0; omega)).trans ?_
      exact own_apply st i v _ k (by show k.val = 17 * v.val + 16; omega)
    · rw [if_neg h17] at hk
      have hc := c.isLt
      refine (concatenate_apply_piece 2 [⟨S20000x27x16, _⟩, ⟨S20000x27x1, _⟩, ⟨S20000x27x24, _⟩]
      concatenates_S20000x27x16_S20000x27x1_S20000x27x24_S20000x27x41_d2 (ix3 i v c)
        2 (by show (2 : Nat) < 3; omega) S20000x27x24 _ rfl rfl 17 rfl (ix3 i v (⟨c.val - 17, by omega⟩ : Fin 24)) (fun b hb => by
          match b with
          | ⟨0, _⟩ => rfl
          | ⟨1, _⟩ => rfl
          | ⟨2, _⟩ => exact absurd rfl hb) (by show 17 + (c.val - 17) = c.val; omega)).trans ?_
      exact shared_apply st i v _ k hk

/-- The rows at an index: row `27 i + v` holds the channels of node `v` of sample `i`. -/
private theorem rows_apply (st : FVec F S20000x483 .f32) (i : Fin 20000) (v : Fin 27) (c : Fin 41) (k : Fin 483)
    (hk : k.val = if c.val < 17 then 17 * v.val + c.val else 459 + (c.val - 17)) :
    rows st (ix2 (⟨27 * i.val + v.val, by omega⟩ : Fin 540000) c) = st (ix2 i k) := by
  unfold rows
  refine (cast_merge_first_apply _ shapeCasts_S20000x27x41_S540000x41 _ c i v
    (by show 27 * i.val + v.val = i.val * 27 + v.val; omega)).trans ?_
  exact chans_apply st i v c k hk

/-- The first five output columns at an index: channels 0, 1, 2, 3 and 16. -/
private theorem head5_apply (x : FVec F S540000x41 .f32) (n : Fin 540000) (a : Fin 5) (k : Fin 41)
    (hk : k.val = if a.val < 4 then a.val else 16) : head5 x (ix2 n a) = x (ix2 n k) := by
  unfold head5
  have ha := a.isLt
  refine (cast_merge_last_apply _ shapeCasts_S540000x5x1_S540000x5 (by norm_num) n a a (0 : Fin 1)
    (by show a.val = a.val * 1 + 0; omega)).trans ?_
  by_cases h4 : a.val < 4
  · rw [if_pos h4] at hk
    refine (concatenate_pair_apply_left 1 _ _ concatenates_S540000x4x1_S540000x1x1_S540000x5x1_d1 _ rfl
      (ix3 n (⟨a.val, h4⟩ : Fin 4) (0 : Fin 1)) (fun b => by
        match b with
        | ⟨0, _⟩ => rfl
        | ⟨1, _⟩ => rfl
        | ⟨2, _⟩ => rfl)).trans ?_
    refine (cast_split_apply _ shapeCasts_S540000x4_S540000x4x1 (by norm_num) n _ _ (⟨a.val, h4⟩ : Fin 4)
      (by show a.val = a.val * 1 + 0; omega)).trans ?_
    exact slice2_axis1_apply 0 x slices_S540000x41_S540000x4_0_0 n _ k (by show k.val = 0 + a.val; omega)
  · rw [if_neg h4] at hk
    refine (concatenate_pair_apply_right 1 _ _ concatenates_S540000x4x1_S540000x1x1_S540000x5x1_d1 _ rfl rfl
      (ix3 n (0 : Fin 1) (0 : Fin 1)) (fun b hb => by
        match b with
        | ⟨0, _⟩ => rfl
        | ⟨1, _⟩ => exact absurd rfl hb
        | ⟨2, _⟩ => rfl) (by show 0 + 4 = a.val; omega)).trans ?_
    refine (cast_split_apply _ shapeCasts_S540000x1_S540000x1x1 (by norm_num) n _ _ (0 : Fin 1)
      (by show 0 = 0 * 1 + 0; omega)).trans ?_
    exact slice2_axis1_apply 16 x slices_S540000x41_S540000x1_0_16 n _ k (by show k.val = 16 + 0; omega)

/-- The last 36 output columns at an index: channels 4..15, then 17..40. -/
private theorem tail36_apply (x : FVec F S540000x41 .f32) (n : Fin 540000) (b : Fin 36) (k : Fin 41)
    (hk : k.val = if b.val < 12 then 4 + b.val else 17 + (b.val - 12)) : tail36 x (ix2 n b) = x (ix2 n k) := by
  unfold tail36
  have hb := b.isLt
  refine (cast_merge_last_apply _ shapeCasts_S540000x12x3_S540000x36 (by norm_num) n b
    (⟨b.val / 3, by omega⟩ : Fin 12) (⟨b.val % 3, by omega⟩ : Fin 3)
    (by show b.val = b.val / 3 * 3 + b.val % 3; omega)).trans ?_
  by_cases h12 : b.val < 12
  · rw [if_pos h12] at hk
    refine (concatenate_pair_apply_left 1 _ _ concatenates_S540000x4x3_S540000x8x3_S540000x12x3_d1 _ rfl
      (ix3 n (⟨b.val / 3, by omega⟩ : Fin 4) (⟨b.val % 3, by omega⟩ : Fin 3)) (fun c => by
        match c with
        | ⟨0, _⟩ => rfl
        | ⟨1, _⟩ => rfl
        | ⟨2, _⟩ => rfl)).trans ?_
    refine (cast_split_apply _ shapeCasts_S540000x12_S540000x4x3 (by norm_num) n _ _ (⟨b.val, h12⟩ : Fin 12)
      (by show b.val = b.val / 3 * 3 + b.val % 3; omega)).trans ?_
    exact slice2_axis1_apply 4 x slices_S540000x41_S540000x12_0_4 n _ k (by show k.val = 4 + b.val; omega)
  · rw [if_neg h12] at hk
    refine (concatenate_pair_apply_right 1 _ _ concatenates_S540000x4x3_S540000x8x3_S540000x12x3_d1 _ rfl rfl
      (ix3 n (⟨b.val / 3 - 4, by omega⟩ : Fin 8) (⟨b.val % 3, by omega⟩ : Fin 3)) (fun c hc => by
        match c with
        | ⟨0, _⟩ => rfl
        | ⟨1, _⟩ => exact absurd rfl hc
        | ⟨2, _⟩ => rfl) (by show b.val / 3 - 4 + 4 = b.val / 3; omega)).trans ?_
    refine (cast_split_apply _ shapeCasts_S540000x24_S540000x8x3 (by norm_num) n _ _ (⟨b.val - 12, by omega⟩ : Fin 24)
      (by show b.val - 12 = (b.val / 3 - 4) * 3 + b.val % 3; omega)).trans ?_
    exact slice2_axis1_apply 17 x slices_S540000x41_S540000x24_0_17 n _ k (by show k.val = 17 + (b.val - 12); omega)

/-! ## The channel an output column shows -/

private theorem chan_val (j : Fin 41) :
    (chan j).val = if j.val < 4 then j.val else if j.val = 4 then 16 else if j.val < 17 then j.val - 1 else j.val := by
  unfold chan
  split_ifs <;> rfl

private theorem col_val (v : Fin 27) (j : Fin 41) :
    (col v j).val = if (chan j).val < 17 then 17 * v.val + (chan j).val else 459 + ((chan j).val - 17) := by
  unfold col
  split_ifs <;> rfl

theorem nodeFeat_apply (st : FVec F S20000x483 .f32) (i : Fin 20000) (v : Fin 27) (j : Fin 41) :
    Stages.nodeFeat st (ix2 (⟨27 * i.val + v.val, by omega⟩ : Fin 540000) j) = st (ix2 i (col v j)) := by
  rw [nodeFeat_eq]
  have hj := j.isLt
  have hc := chan_val j
  by_cases h5 : j.val < 5
  · refine (concatenate_pair_apply_left 1 _ _ concatenates_S540000x5_S540000x36_S540000x41_d1 _ rfl
      (ix2 (⟨27 * i.val + v.val, by omega⟩ : Fin 540000) (⟨j.val, h5⟩ : Fin 5)) (fun b => by
        match b with
        | ⟨0, _⟩ => rfl
        | ⟨1, _⟩ => rfl)).trans ?_
    refine (head5_apply _ _ _ (chan j) (by
      show (chan j).val = if j.val < 4 then j.val else 16
      rw [hc]; split_ifs <;> omega)).trans ?_
    exact rows_apply st i v (chan j) (col v j) (col_val v j)
  · refine (concatenate_pair_apply_right 1 _ _ concatenates_S540000x5_S540000x36_S540000x41_d1 _ rfl rfl
      (ix2 (⟨27 * i.val + v.val, by omega⟩ : Fin 540000) (⟨j.val - 5, by omega⟩ : Fin 36)) (fun b hb => by
        match b with
        | ⟨0, _⟩ => rfl
        | ⟨1, _⟩ => exact absurd rfl hb) (by show j.val - 5 + 5 = j.val; omega)).trans ?_
    refine (tail36_apply _ _ _ (chan j) (by
      show (chan j).val = if j.val - 5 < 12 then 4 + (j.val - 5) else 17 + (j.val - 5 - 12)
      rw [hc]; split_ifs <;> omega)).trans ?_
    exact rows_apply st i v (chan j) (col v j) (col_val v j)

end Cert.ReferenceIdeal.RefValue

end
-- ==== Proof.RefIdx.lean ====
/-
  The integer index tables of the reference read at an index: edge 52 i + e goes from node 27 i + srcl e to node
  27 i + dstl e, and the local node lists, made row indices into the table of directions, are srcl and dstl.
-/
import proofs.«101747_g12034498363475_cont_main3_758_3_alg».proof.Proof.RefStages
import proofs.«101747_g12034498363475_cont_main3_758_3_alg».proof.Proof.Spec
import Idealize.ShloMosaic.Lib.Pipeline.Value
import Idealize.ShloMosaic.Lib.ValueLayout
import Idealize.ShloMosaic.Lib.StableHlo.Predicate

noncomputable section

namespace Cert.ReferenceIdeal.RefValue

open Cert.ReferenceIdeal Cert.ReferenceIdeal.Gen Idealize.ShloMosaic Idealize.ShloMosaic.ValueIdx Cert.Star

/-- The offset column at row i is 27 i, as a word product. -/
private theorem offsets_apply (i : Fin 20000) : Stages.offsets (ix2 i (0 : Fin 1)) = BitVec.ofNat 32 i.val * 27#32 := rfl

/-- A word product and sum of small naturals is the word of the natural product and sum. -/
private theorem word_affine (i l : Nat) : BitVec.ofNat 32 i * 27#32 + BitVec.ofNat 32 l = BitVec.ofNat 32 (27 * i + l) := by
  rw [BitVec.ofNat_add, BitVec.ofNat_mul, BitVec.mul_comm]

/-- The local source list at edge e is the word of srcl e. -/
private theorem srcLocal_apply (e : Fin 52) : Stages.srcLocal (ix1 e) = BitVec.ofNat 32 (srcl e).val := by
  unfold Stages.srcLocal
  by_cases h : e.val < 26
  · refine (concatenate_pair_apply_left (s₁ := S26) (s₂ := S26) (0 : Fin 1) _ _ concatenates_S26_S26_S52_d0 (ix1 e) rfl (ix1 ⟨e.val, h⟩)
      (fun b => by match b with | ⟨0, _⟩ => rfl)).trans ?_
    rw [srcl, dif_pos h]
    rfl
  · have h2 : e.val - 26 < 26 := by have := e.isLt; omega
    refine (concatenate_pair_apply_right (s₁ := S26) (s₂ := S26) (0 : Fin 1) _ _ concatenates_S26_S26_S52_d0 (ix1 e) rfl rfl (ix1 ⟨e.val - 26, h2⟩)
      (fun b hb => by match b with | ⟨0, _⟩ => exact absurd rfl hb) (by show e.val - 26 + 26 = e.val; omega)).trans ?_
    rw [srcl, dif_neg h]
    show 1#32 + BitVec.ofNat 32 (e.val - 26) = BitVec.ofNat 32 (e.val - 25)
    rw [show e.val - 25 = 1 + (e.val - 26) by omega, BitVec.ofNat_add]

/-- The local destination list at edge e is the word of dstl e. -/
private theorem dstLocal_apply (e : Fin 52) : Stages.dstLocal (ix1 e) = BitVec.ofNat 32 (dstl e).val := by
  unfold Stages.dstLocal
  by_cases h : e.val < 26
  · refine (concatenate_pair_apply_left (s₁ := S26) (s₂ := S26) (0 : Fin 1) _ _ concatenates_S26_S26_S52_d0 (ix1 e) rfl (ix1 ⟨e.val, h⟩)
      (fun b => by match b with | ⟨0, _⟩ => rfl)).trans ?_
    rw [dstl, dif_pos h]
    show 1#32 + BitVec.ofNat 32 e.val = BitVec.ofNat 32 (e.val + 1)
    rw [add_comm e.val 1, BitVec.ofNat_add]
  · have h2 : e.val - 26 < 26 := by have := e.isLt; omega
    refine (concatenate_pair_apply_right (s₁ := S26) (s₂ := S26) (0 : Fin 1) _ _ concatenates_S26_S26_S52_d0 (ix1 e) rfl rfl (ix1 ⟨e.val - 26, h2⟩)
      (fun b hb => by match b with | ⟨0, _⟩ => exact absurd rfl hb) (by show e.val - 26 + 26 = e.val; omega)).trans ?_
    rw [dstl, dif_neg h]
    rfl

/-- A local list spread over the samples: entry 52 i + e is 27 i plus the list's entry e. -/
private theorem spread_apply (loc : IVec S52 32) (i : Fin 20000) (e : Fin 52) :
    Stages.spread loc (ix1 (⟨52 * i.val + e.val, by omega⟩ : Fin 1040000)) = BitVec.ofNat 32 i.val * 27#32 + loc (ix1 e) := by
  unfold Stages.spread
  refine (shapeCast_apply _ shapeCasts_S20000x52_S1040000 _ (ix2 i e) ?_).trans ?_
  · rw [Shape.rowMajor_val_two, Shape.rowMajor_val_one]
    show i.val * 52 + e.val = 52 * i.val + e.val
    omega
  · have h1 : broadcastInDim S20000x52 ![0, 1] bcast_S20000x1_S20000x52_0_1 Stages.offsets (ix2 i e)
        = Stages.offsets (ix2 i (0 : Fin 1)) :=
      broadcastInDim_apply _ _ _ _ _ (fun a => by match a with | ⟨0, _⟩ => rfl | ⟨1, _⟩ => rfl)
    have h2 : broadcastInDim S20000x52 ![0, 1] bcast_S1x52_S20000x52_0_1 (broadcastInDim S1x52 ![1] bcast_S52_S1x52_1 loc) (ix2 i e)
        = loc (ix1 e) :=
      (broadcastInDim_apply _ _ _ _ (ix2 (0 : Fin 1) e) (fun a => by match a with | ⟨0, _⟩ => rfl | ⟨1, _⟩ => rfl)).trans
        (broadcastInDim_apply _ _ _ _ (ix1 e) (fun a => by match a with | ⟨0, _⟩ => rfl))
    show IntOp.addi _ _ = _
    rw [h1, h2, offsets_apply]
    rfl

theorem srcIdx_apply (i : Fin 20000) (e : Fin 52) :
    Stages.srcIdx (ix1 (⟨52 * i.val + e.val, by omega⟩ : Fin 1040000)) = BitVec.ofNat 32 (27 * i.val + (srcl e).val) := by
  unfold Stages.srcIdx
  rw [spread_apply, srcLocal_apply, word_affine]

theorem dstIdx_apply (i : Fin 20000) (e : Fin 52) :
    Stages.dstIdx (ix1 (⟨52 * i.val + e.val, by omega⟩ : Fin 1040000)) = BitVec.ofNat 32 (27 * i.val + (dstl e).val) := by
  unfold Stages.dstIdx
  rw [spread_apply, dstLocal_apply, word_affine]

/-- A list entry that is a small non-negative word is its own row index: the wrap of negatives leaves it. -/
private theorem wrapCol_apply_of_small (loc : IVec S52 32) (e : Fin 52) (v : Nat) (hv : v < 2 ^ 31)
    (h : loc (ix1 e) = BitVec.ofNat 32 v) : Stages.wrapCol loc (ix2 e (0 : Fin 1)) = BitVec.ofNat 32 v := by
  unfold Stages.wrapCol
  refine (broadcastInDim_apply _ _ _ _ (ix1 e) (fun a => by match a with | ⟨0, _⟩ => rfl)).trans ?_
  show Scalar.select (IntOp.cmpi .slt (loc (ix1 e)) 0#32) (IntOp.addi (loc (ix1 e)) 27#32) (loc (ix1 e)) = _
  rw [h]
  have hc : IntOp.cmpi .slt (BitVec.ofNat 32 v) 0#32 = 0#1 := by
    apply eq_zero_of_ne_one
    intro h1
    have := (StableHlo.Predicate.slt_ofNat_iff v 0 hv (by norm_num)).mp h1
    omega
  rw [hc, select_zero]

theorem wrapCol_srcLocal_apply (e : Fin 52) :
    Stages.wrapCol Stages.srcLocal (ix2 e (0 : Fin 1)) = BitVec.ofNat 32 (srcl e).val :=
  wrapCol_apply_of_small _ e _ (by have := (srcl e).isLt; omega) (srcLocal_apply e)

theorem wrapCol_dstLocal_apply (e : Fin 52) :
    Stages.wrapCol Stages.dstLocal (ix2 e (0 : Fin 1)) = BitVec.ofNat 32 (dstl e).val :=
  wrapCol_apply_of_small _ e _ (by have := (dstl e).isLt; omega) (dstLocal_apply e)

end Cert.ReferenceIdeal.RefValue

end
-- ==== Proof.LibGatherRows.lean ====
/-
  Two of jax's gathers read at an index, for any extents.
  Rows of a table: the table[idx] of an N x D table at a column of R start indices is, at (r, j), the table's
  entry (idx r, j) with the start index read signed and clamped into the table's rows.
  Along a row: take_along_axis of an R x N array at one index per row is, at (r, 0), the array's entry
  (r, idx r), the index read signed and clamped into the row.
-/
import Idealize.ShloMosaic.PureOps
import Idealize.ShloMosaic.Lib.ValueIdx

noncomputable section

namespace Cert.LibGatherRows

open Idealize.ShloMosaic Idealize.ShloMosaic.ValueIdx

variable {α : Type}

/-- Axis 1 of a rank-2 operand is not among the axes [0]. -/
private theorem one_notMem_zero : (1 : Fin 2) ∉ ([0] : List (Fin 2)) := by decide

/-- The dimension numbers of table[idx]: operand N x D, start indices R x 1, result R x D; the row axis is
    collapsed and indexed, the column axis is the offset axis, whole rows are sliced. -/
abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The gathered rows read at (r, j): the table at the clamped start index of row r, column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowTakeDims N D R wf) x idx (ix2 r j)
      = x (ix2 (⟨min (idx (ix2 r (0 : Fin 1))).toInt.toNat (N - 1), by omega⟩ : Fin N) j) := by
  -- the gather reads the table at its operand index; compare the two operand indices axis by axis, as numbers:
  -- on each axis the operand index is (clamped start) + (batching coordinate) + (offset coordinate)
  unfold Host.gather
  congr 1
  funext a
  refine Fin.ext ?_
  match a with
  | ⟨0, _⟩ =>
    -- axis 0, the table's rows: collapsed and indexed. No batching axes, and a collapsed axis carries no offset,
    -- so only the start is left: the start index of result row r, clamped to N - 1 (rows minus the slice size 1)
    show (rowTakeDims N D R wf).start (ix2 r j) idx 0 + (rowTakeDims N D R wf).batchCoord (ix2 r j) 0
      + (rowTakeDims N D R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R wf).startIndexMap from List.mem_singleton.mpr rfl)]
    -- the start index is read at (r, 0): r from the result's batch axis 0, and component 0 on the index vector's axis 1
    have hsi : (rowTakeDims N D R wf).siIdx (ix2 r j) ⟨List.idxOf (0 : Fin 2) (rowTakeDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1, the table's columns: the offset axis. It is not in the start index map, so the start is 0; no batching
    -- axes; it is the only kept operand axis, paired with the result's offset axis 1, whose coordinate is j
    show (rowTakeDims N D R wf).start (ix2 r j) idx 1 + (rowTakeDims N D R wf).batchCoord (ix2 r j) 1
      + (rowTakeDims N D R wf).offCoord (ix2 r j) 1 = j.val
    rw [GatherDims.batchCoord_eq_zero _ _ _ List.not_mem_nil]
    unfold GatherDims.start
    rw [dif_neg (show (1 : Fin 2) ∉ (rowTakeDims N D R wf).startIndexMap from one_notMem_zero)]
    unfold GatherDims.offCoord
    rw [dif_pos (show (1 : Fin 2) ∈ (rowTakeDims N D R wf).sKept from
      (GatherDims.mem_sKept _ _).mpr ⟨one_notMem_zero, List.not_mem_nil⟩)]
    simp only [Nat.zero_add]
    rfl

/-- The dimension numbers of take_along_axis on the last axis with one index per row: operand R x N, start
    indices R x 1 x 1, result R x 1; the row axis is a batching axis on both sides, the column axis is collapsed
    and indexed. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The gathered column read at (r, 0): row r of the array at its clamped start index. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r (⟨min (idx (ix3 r (0 : Fin 1) (0 : Fin 1))).toInt.toNat (N - 1), by omega⟩ : Fin N)) := by
  -- again the two operand indices are compared axis by axis, as numbers
  unfold Host.gather
  congr 1
  funext a
  refine Fin.ext ?_
  match a with
  | ⟨0, _⟩ =>
    -- axis 0, the array's rows: the batching axis. A batching axis has start 0 and no offset (no operand axis is kept);
    -- its batching coordinate is the result's coordinate for start-indices axis 0, that is result axis 0: r
    show (alongDims R N wf).start (ix2 r (0 : Fin 1)) idx 0 + (alongDims R N wf).batchCoord (ix2 r (0 : Fin 1)) 0
      + (alongDims R N wf).offCoord (ix2 r (0 : Fin 1)) 0 = r.val
    rw [GatherDims.start_batching _ _ _ _ (show (0 : Fin 2) ∈ (alongDims R N wf).operandBatchingDims from
        List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R N wf).operandBatchingDims from List.mem_singleton.mpr rfl)]
    rfl
  | ⟨1, _⟩ =>
    -- axis 1, along a row: collapsed and indexed. Not a batching axis and it carries no offset, so only the start is
    -- left: the start index of result row r, clamped to N - 1 (row length minus the slice size 1)
    show (alongDims R N wf).start (ix2 r (0 : Fin 1)) idx 1 + (alongDims R N wf).batchCoord (ix2 r (0 : Fin 1)) 1
      + (alongDims R N wf).offCoord (ix2 r (0 : Fin 1)) 1 = _
    rw [GatherDims.batchCoord_eq_zero _ _ _ (show (1 : Fin 2) ∉ (alongDims R N wf).operandBatchingDims from
        one_notMem_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    -- the start index is read at (r, 0, 0): r and 0 from the result's batch axes 0 and 1, and component 0 on the
    -- index vector's axis 2
    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRows

end
-- ==== Proof.RefWeights.lean ====
/-
  The reference's edge weights read at an index: edge e weighs exp(-|dir (dstl e) - dir (srcl e)|), for every sample.
-/
import proofs.«101747_g12034498363475_cont_main3_758_3_alg».proof.Proof.RefIdx
import proofs.«101747_g12034498363475_cont_main3_758_3_alg».proof.Proof.LibGatherRows
import Idealize.ShloMosaic.PureOps.Ideal.Laws
import Idealize.ShloMosaic.Lib.Pipeline.Value
import Idealize.ShloMosaic.Lib.StableHlo.Predicate

noncomputable section

namespace Cert.ReferenceIdeal.RefValue

open Cert.ReferenceIdeal Cert.ReferenceIdeal.Gen Idealize.ShloMosaic Idealize.ShloMosaic.ValueIdx Cert.Star

/-- Rows of the table of directions taken at a column of small non-negative row indices: row e of the result is the
    table's row p when the column's entry e is the word of p. -/
private theorem gathered_apply (nd : FVec Ideal S27x3 .f32) (idx : IVec S52x1 32) (e : Fin 52) (k : Fin 3) (p : Fin 27)
    (h : idx (ix2 e (0 : Fin 1)) = BitVec.ofNat 32 p.val) :
    Host.gather gather_S27x3_S52x1_S52x3_1_0_n_n_0_1_13 nd idx (ix2 e k) = nd (ix2 p k) := by
  have hg := Cert.LibGatherRows.gather_rows_apply (N := 27) (D := 3) (R := 52) (by norm_num)
    gather_S27x3_S52x1_S52x3_1_0_n_n_0_1_13_wf nd idx e k
  refine (show Host.gather gather_S27x3_S52x1_S52x3_1_0_n_n_0_1_13 nd idx (ix2 e k) = _ from hg).trans ?_
  have hv : (idx (ix2 e (0 : Fin 1))).toInt.toNat = p.val := by
    rw [h, StableHlo.Predicate.toInt_ofNat_small _ (by have := p.isLt; omega)]
    exact Int.toNat_natCast _
  have hp : ∀ hlt, (⟨min (idx (ix2 e (0 : Fin 1))).toInt.toNat (27 - 1), hlt⟩ : Fin 27) = p := fun hlt =>
    Fin.ext (by show min _ _ = _; rw [hv]; have := p.isLt; omega)
  exact congrArg (fun q => nd (ix2 q k)) (hp _)

theorem edgeWts_apply (nd : FVec Ideal S27x3 .f32) (e : Fin 52) :
    Stages.edgeWts (F := Ideal) nd (ix1 e) = edgeW nd (dstl e) (srcl e) := by
  have hR : Shape.Reduces S52x3 [1] S52 := by decide
  unfold Stages.edgeWts edgeW sqd
  show Ideal.exp (-(Ideal.sqrt (Ideal.hostReduceAdd reducesTo_S52x3_S52_d1 _ (Ideal.ofBits .f32 0x00000000#32) (ix1 e)))) = _
  rw [Ideal.hostReduceAdd_single reducesTo_S52x3_S52_d1 hR, Ideal.ofBits_zero_f32, zero_add]
  refine congrArg (fun x => Ideal.exp (-(Ideal.sqrt x))) ?_
  refine Finset.sum_congr rfl (fun k _ => ?_)
  have hi : hR.lift (ix1 e) k = ix2 e k := by
    funext a
    match a with
    | ⟨0, _⟩ => exact Fin.ext rfl
    | ⟨1, _⟩ => exact Fin.ext rfl
  rw [hi]
  show (Host.gather gather_S27x3_S52x1_S52x3_1_0_n_n_0_1_13 nd (Stages.wrapCol Stages.dstLocal) (ix2 e k)
      - Host.gather gather_S27x3_S52x1_S52x3_1_0_n_n_0_1_13 nd (Stages.wrapCol Stages.srcLocal) (ix2 e k))
    * (Host.gather gather_S27x3_S52x1_S52x3_1_0_n_n_0_1_13 nd (Stages.wrapCol Stages.dstLocal) (ix2 e k)
      - Host.gather gather_S27x3_S52x1_S52x3_1_0_n_n_0_1_13 nd (Stages.wrapCol Stages.srcLocal) (ix2 e k)) = _
  rw [gathered_apply nd _ e k (dstl e) (wrapCol_dstLocal_apply e), gathered_apply nd _ e k (srcl e) (wrapCol_srcLocal_apply e)]

theorem wFull_apply (nd : FVec Ideal S27x3 .f32) (i : Fin 20000) (e : Fin 52) :
    Stages.wFull (F := Ideal) nd (ix1 (⟨52 * i.val + e.val, by omega⟩ : Fin 1040000)) = edgeW nd (dstl e) (srcl e) := by
  unfold Stages.wFull
  refine (shapeCast_apply _ shapeCasts_S20000x52_S1040000 _ (ix2 i e) ?_).trans ?_
  · rw [Shape.rowMajor_val_two, Shape.rowMajor_val_one]
    show i.val * 52 + e.val = 52 * i.val + e.val
    omega
  refine (broadcastInDim_apply _ _ _ _ (ix2 (0 : Fin 1) e)
    (fun a => by match a with | ⟨0, _⟩ => rfl | ⟨1, _⟩ => rfl)).trans ?_
  refine (shapeCast_apply _ shapeCasts_S52_S1x52 _ (ix1 e) ?_).trans (edgeWts_apply nd e)
  rw [Shape.rowMajor_val_one, Shape.rowMajor_val_two]
  show e.val = 0 * 52 + e.val
  omega

end Cert.ReferenceIdeal.RefValue

end
-- ==== Proof.RefTaken.lean ====
/-
  The row gather with its fill read at an index: at an index inside the table it is the table's row.
-/
import proofs.«101747_g12034498363475_cont_main3_758_3_alg».proof.Proof.RefStages
import proofs.«101747_g12034498363475_cont_main3_758_3_alg».proof.Proof.LibGatherRows
import Idealize.ShloMosaic.Lib.Pipeline.Value
import Idealize.ShloMosaic.Lib.ValueLayout
import Idealize.ShloMosaic.Lib.ReduceAll

noncomputable section

namespace Cert.ReferenceIdeal.RefValue

open Cert.ReferenceIdeal Cert.ReferenceIdeal.Gen Idealize.ShloMosaic Idealize.ShloMosaic.ValueIdx

variable {F : FTy → Type} [FloatOps F]

/-- A natural number below the table's height, as a 32-bit word, reads back signed as itself. -/
private theorem toInt_ofNat_lt (n : Nat) (hn : n < 540000) : (BitVec.ofNat 32 n).toInt = (n : Int) := by
  rw [BitVec.toInt_eq_toNat_cond, BitVec.toNat_ofNat, Nat.mod_eq_of_lt (by omega)]
  rw [if_pos (by omega)]

/-- A left fold by `and` from 1 over words that are all 1 is 1. -/
private theorem foldl_andi_all_one {ι : Type} (f : ι → BitVec 1) :
    ∀ (l : List ι), (∀ m ∈ l, f m = 1#1) → l.foldl (fun r m => IntOp.andi r (f m)) 1#1 = 1#1
  | [], _ => rfl
  | a :: l, h => by
    have h11 : IntOp.andi (1#1) (1#1) = 1#1 := by decide
    rw [List.foldl_cons, h a List.mem_cons_self, h11]
    exact foldl_andi_all_one f l (fun m hm => h m (List.mem_cons_of_mem _ hm))

/-- The index list with a negative entry wrapped by the table's height. -/
private def wrapIdx (ix : IVec S1040000 32) : IVec S1040000 32 :=
  select (cmpi .slt ix (broadcastInDim S1040000 ![] bcast_S_S1040000 (constantI S_ 32 0#32)))
    (addi ix (broadcastInDim S1040000 ![] bcast_S_S1040000 (constantI S_ 32 540000#32))) ix

/-- The wrapped index list as a column. -/
private def idxCol (ix : IVec S1040000 32) : IVec S1040000x1 32 :=
  broadcastInDim S1040000x1 ![0] bcast_S1040000_S1040000x1_0 (wrapIdx ix)

/-- Per row, whether the wrapped index lies in the table. -/
private def inTable (ix : IVec S1040000 32) : IVec S1040000 1 :=
  Host.reduce IntOp.andi
    (andi (cmpi .sge (idxCol ix) (broadcastInDim S1040000x1 ![] bcast_S_S1040000x1 (constantI S_ 32 0#32)))
      (cmpi .sle (idxCol ix) (broadcastInDim S1040000x1 ![0, 1] bcast_S1x1_S1040000x1_0_1
        (broadcastInDim S1x1 ![1] bcast_S1_S1x1_1 (constantI S1 32 539999#32)))))
    (constantI S_ 1 1#1) reducesTo_S1040000x1_S1040000_d1 h_S_

/-- The row gather with its fill, in these pieces. -/
private theorem taken_eq (x : FVec F S540000x41 .f32) (ix : IVec S1040000 32) :
    Stages.taken x ix
      = select (broadcastInDim S1040000x41 ![0] bcast_S1040000_S1040000x41_0 (inTable ix))
          (Host.gather gather_S540000x41_S1040000x1_S1040000x41_1_0_n_n_0_1_141 x (idxCol ix))
          (broadcastInDim S1040000x41 ![] bcast_S_S1040000x41 (constant S_ .f32 0x7FC00000#32)) := rfl

/-- An index inside the table is not negative, so wrapping leaves it. -/
private theorem wrapIdx_apply (ix : IVec S1040000 32) (r : Fin 1040000) (n : Fin 540000)
    (h : ix (ix1 r) = BitVec.ofNat 32 n.val) : wrapIdx ix (ix1 r) = BitVec.ofNat 32 n.val := by
  show Scalar.select (IntOp.cmpi .slt (ix (ix1 r)) 0#32) (IntOp.addi (ix (ix1 r)) 540000#32) (ix (ix1 r)) = _
  rw [h]
  have hc : ¬ IntOp.cmpi .slt (BitVec.ofNat 32 n.val) 0#32 = 1#1 := by
    rw [IntOp.cmpi_slt, toInt_ofNat_lt _ n.isLt]
    have : (0#32 : BitVec 32).toInt = 0 := by decide
    omega
  unfold Scalar.select
  exact if_neg hc

/-- The column reads, in row r, the wrapped list's entry r. -/
private theorem idxCol_apply (ix : IVec S1040000 32) (r : Fin 1040000) (q : Fin 1) :
    idxCol ix (ix2 r q) = wrapIdx ix (ix1 r) := by
  unfold idxCol
  refine broadcastInDim_apply _ _ _ _ (ix1 r) ?_
  intro a
  have ha : a = 0 := Subsingleton.elim _ _
  subst ha
  rw [if_neg (by decide)]
  rfl

/-- At an index inside the table the range check passes. -/
private theorem inTable_apply (ix : IVec S1040000 32) (r : Fin 1040000) (n : Fin 540000)
    (h : ix (ix1 r) = BitVec.ofNat 32 n.val) : inTable ix (ix1 r) = 1#1 := by
  unfold inTable
  rw [Host.reduce_eq_foldl]
  refine foldl_andi_all_one _ _ ?_
  intro i hi
  have hd : reducesTo_S1040000x1_S1040000_d1.drop i = ix1 r := of_decide_eq_true (List.mem_filter.1 hi).2
  obtain ⟨p, q, rfl⟩ : ∃ (p : Fin 1040000) (q : Fin 1), i = ix2 p q := ⟨i 0, i 1, eq_ix2 i⟩
  have hp : p = r := by
    have e := Shape.ReducesTo.drop_apply_val_of_eq reducesTo_S1040000x1_S1040000_d1 (ix2 p q) 0 0
    rw [hd] at e
    exact Fin.ext e.symm
  subst hp
  show IntOp.andi (IntOp.cmpi .sge (idxCol ix (ix2 p q)) 0#32) (IntOp.cmpi .sle (idxCol ix (ix2 p q)) 539999#32) = 1#1
  rw [idxCol_apply, wrapIdx_apply ix p n h, IntOp.andi_eq_one, IntOp.cmpi_sge, IntOp.cmpi_sle, toInt_ofNat_lt _ n.isLt]
  have h0 : (0#32 : BitVec 32).toInt = 0 := by decide
  have h1 : (539999#32 : BitVec 32).toInt = 539999 := by decide
  have := n.isLt
  omega

theorem taken_apply (x : FVec F S540000x41 .f32) (ix : IVec S1040000 32) (r : Fin 1040000) (n : Fin 540000)
    (h : ix (ix1 r) = BitVec.ofNat 32 n.val) (j : Fin 41) :
    Stages.taken x ix (ix2 r j) = x (ix2 n j) := by
  rw [taken_eq]
  show Scalar.select (broadcastInDim S1040000x41 ![0] bcast_S1040000_S1040000x41_0 (inTable ix) (ix2 r j))
      (Host.gather gather_S540000x41_S1040000x1_S1040000x41_1_0_n_n_0_1_141 x (idxCol ix) (ix2 r j)) _ = _
  have hb : broadcastInDim S1040000x41 ![0] bcast_S1040000_S1040000x41_0 (inTable ix) (ix2 r j) = inTable ix (ix1 r) := by
    refine broadcastInDim_apply _ _ _ _ (ix1 r) ?_
    intro a
    have ha : a = 0 := Subsingleton.elim _ _
    subst ha
    rw [if_neg (by decide)]
    rfl
  rw [hb, inTable_apply ix r n h]
  unfold Scalar.select
  rw [if_pos (show (1#1 : BitVec 1) = 1 from rfl)]
  have hg := Cert.LibGatherRows.gather_rows_apply (N := 540000) (D := 41) (R := 1040000) (by decide)
    gather_S540000x41_S1040000x1_S1040000x41_1_0_n_n_0_1_141_wf x (idxCol ix) r j
  refine hg.trans (congrArg (fun p : Fin 540000 => x (ix2 p j)) (Fin.ext ?_))
  show min (idxCol ix (ix2 r (0 : Fin 1))).toInt.toNat (540000 - 1) = n.val
  rw [idxCol_apply, wrapIdx_apply ix r n h, toInt_ofNat_lt _ n.isLt, Int.toNat_natCast]
  have := n.isLt
  omega

end Cert.ReferenceIdeal.RefValue

end
-- ==== Proof.LibScatterAddRows.lean ====
/-
  jax's segment_sum / x.at[rows].add(vals) read at an index over the extended reals, for any extents: the host's
  accumulating scatter of E update rows (E x C) into an N x C operand at one row index per update (an E x 1 table).
  Entry (n, j) of the result is the operand's plus the sum, over the updates e whose row index is n, of update entry
  (e, j); an update whose index is outside the operand lands nowhere.
-/
import Idealize.ShloMosaic.PureOps
import Idealize.ShloMosaic.PureOps.Ideal
import Idealize.ShloMosaic.Lib.ValueIdx

noncomputable section

namespace Cert.LibScatterAddRows

open Idealize.ShloMosaic Idealize.ShloMosaic.ValueIdx

/-- The dimension numbers of x.at[rows].add(vals): the row axis inserted and indexed, the column axis the window
    axis, the index vector along axis 1 of the E x 1 table. -/
abbrev rowAddDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Axis 1 of a rank-2 operand is not among the axes [0]. -/
private theorem one_notMem_zero : (1 : Fin 2) ∉ ([0] : List (Fin 2)) := by decide

/-- The operand's kept axes are the ones that are not inserted. -/
private theorem mem_sKept {N C E : Nat}
    (wf : ScatterDims.WF ⟨2, ![N, C]⟩ ⟨2, ![E, 1]⟩ ⟨2, ![E, C]⟩ [1] [0] [0] 1) (a : Fin 2) :
    a ∈ (rowAddDims N C E wf).sKept ↔ a ∉ ([0] : List (Fin 2)) := by
  simp [ScatterDims.sKept, Shape.kept, List.mem_filter, List.mem_finRange]

/-- Axis 0, the operand's rows: indexed and inserted. The start is the index word of update row e read signed,
    at (e, 0): e from the update's scatter axis 0 and component 0 on the index vector's axis 1. -/
private theorem start_zero {N C E : Nat}
    (wf : ScatterDims.WF ⟨2, ![N, C]⟩ ⟨2, ![E, 1]⟩ ⟨2, ![E, C]⟩ [1] [0] [0] 1)
    (idx : IVec ⟨2, ![E, 1]⟩ 32) (e : Fin E) (c : Fin C) :
    (rowAddDims N C E wf).start (ix2 e c) idx 0 = (idx (ix2 e (0 : Fin 1))).toInt := by
  unfold ScatterDims.start
  rw [dif_pos (show (0 : Fin 2) ∈ (rowAddDims N C E wf).scatterDimsToOperandDims from List.mem_singleton.mpr rfl)]
  have hsi : (rowAddDims N C E wf).siIdx (ix2 e c)
      ⟨List.idxOf (0 : Fin 2) (rowAddDims N C E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1, the operand's columns: not indexed, so the start is 0. -/
private theorem start_one {N C E : Nat}
    (wf : ScatterDims.WF ⟨2, ![N, C]⟩ ⟨2, ![E, 1]⟩ ⟨2, ![E, C]⟩ [1] [0] [0] 1)
    (idx : IVec ⟨2, ![E, 1]⟩ 32) (e : Fin E) (c : Fin C) :
    (rowAddDims N C E wf).start (ix2 e c) idx 1 = 0 := by
  unfold ScatterDims.start
  rw [dif_neg (show (1 : Fin 2) ∉ (rowAddDims N C E wf).scatterDimsToOperandDims from one_notMem_zero)]

/-- Axis 0 is inserted: its window coordinate is 0. -/
private theorem window_zero {N C E : Nat}
    (wf : ScatterDims.WF ⟨2, ![N, C]⟩ ⟨2, ![E, 1]⟩ ⟨2, ![E, C]⟩ [1] [0] [0] 1) (e : Fin E) (c : Fin C) :
    (rowAddDims N C E wf).window (ix2 e c) 0 = 0 := by
  unfold ScatterDims.window
  rw [dif_neg (fun h => ((mem_sKept wf 0).mp h) (List.mem_singleton.mpr rfl))]

/-- Axis 1 is the one kept axis, paired with the update's window axis 1: its window coordinate is c. -/
private theorem window_one {N C E : Nat}
    (wf : ScatterDims.WF ⟨2, ![N, C]⟩ ⟨2, ![E, 1]⟩ ⟨2, ![E, C]⟩ [1] [0] [0] 1) (e : Fin E) (c : Fin C) :
    (rowAddDims N C E wf).window (ix2 e c) 1 = c.val := by
  unfold ScatterDims.window
  rw [dif_pos ((mem_sKept wf 1).mpr one_notMem_zero)]
  rfl

/-- Update (e, c) lands at (n, j) exactly when its row index, read signed, is n and its column is j. -/
private theorem resultIdx?_eq_some_iff {N C E : Nat}
    (wf : ScatterDims.WF ⟨2, ![N, C]⟩ ⟨2, ![E, 1]⟩ ⟨2, ![E, C]⟩ [1] [0] [0] 1)
    (idx : IVec ⟨2, ![E, 1]⟩ 32) (e : Fin E) (c : Fin C) (n : Fin N) (j : Fin C) :
    (rowAddDims N C E wf).resultIdx? (ix2 e c) idx = some (ix2 n j)
      ↔ (idx (ix2 e (0 : Fin 1))).toInt = (n.val : Int) ∧ c = j := by
  have h0 : (rowAddDims N C E wf).start (ix2 e c) idx 0 + (rowAddDims N C E wf).window (ix2 e c) 0
      = (idx (ix2 e (0 : Fin 1))).toInt := by
    rw [start_zero, window_zero]; simp
  have h1 : (rowAddDims N C E wf).start (ix2 e c) idx 1 + (rowAddDims N C E wf).window (ix2 e c) 1
      = (c.val : Int) := by
    rw [start_one, window_one]; simp
  unfold ScatterDims.resultIdx?
  split
  · rename_i h
    constructor
    · intro hs
      have hf := Option.some.inj hs
      have e0 := congrArg Fin.val (congrFun hf 0)
      have e1 := congrArg Fin.val (congrFun hf 1)
      have p0 := (h 0).1
      simp only [h0] at e0 p0
      simp only [h1] at e1
      refine ⟨?_, Fin.ext ?_⟩
      · have : ((idx (ix2 e (0 : Fin 1))).toInt.toNat : Int) = (n.val : Int) := by exact_mod_cast e0
        omega
      · have : (c.val : Int).toNat = j.val := e1
        simpa using this
    · rintro ⟨hn, rfl⟩
      congr 1
      funext a; refine Fin.ext ?_
      match a with
      | ⟨0, _⟩ =>
        show ((rowAddDims N C E wf).start (ix2 e c) idx 0 + (rowAddDims N C E wf).window (ix2 e c) 0).toNat = n.val
        rw [h0, hn]; simp
      | ⟨1, _⟩ =>
        show ((rowAddDims N C E wf).start (ix2 e c) idx 1 + (rowAddDims N C E wf).window (ix2 e c) 1).toNat = c.val
        rw [h1]; simp
  · rename_i h
    constructor
    · intro hs; exact absurd hs (by simp)
    · rintro ⟨hn, rfl⟩
      exfalso; apply h
      intro a
      match a with
      | ⟨0, _⟩ =>
        show 0 ≤ (rowAddDims N C E wf).start (ix2 e c) idx 0 + (rowAddDims N C E wf).window (ix2 e c) 0 ∧
          (rowAddDims N C E wf).start (ix2 e c) idx 0 + (rowAddDims N C E wf).window (ix2 e c) 0 < ((N : Nat) : Int)
        rw [h0, hn]; have := n.isLt; omega
      | ⟨1, _⟩ =>
        show 0 ≤ (rowAddDims N C E wf).start (ix2 e c) idx 1 + (rowAddDims N C E wf).window (ix2 e c) 1 ∧
          (rowAddDims N C E wf).start (ix2 e c) idx 1 + (rowAddDims N C E wf).window (ix2 e c) 1 < ((C : Nat) : Int)
        rw [h1]; have := c.isLt; omega

/-- The accumulated rows read at (n, j): the operand there plus the updates' column j over the updates sent to row n. -/
theorem scatterAdd_rows_apply {N C E : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ 32) (upd : (⟨2, ![E, C]⟩ : Shape).Idx → EReal)
    (n : Fin N) (j : Fin C) :
    Ideal.hostScatterAdd (rowAddDims N C E wf) x idx upd (ix2 n j)
      = x (ix2 n j) + ∑ e ∈ Finset.univ.filter (fun e : Fin E => (idx (ix2 e (0 : Fin 1))).toInt = (n.val : Int)),
          upd (ix2 e j) := by
  unfold Ideal.hostScatterAdd
  congr 1
  -- the sum over the update pairs landing at (n, j), as a double sum over rows and columns of an indicator
  rw [Finset.sum_filter, sum_idx2, Finset.sum_filter]
  refine Finset.sum_congr rfl fun e _ => ?_
  -- in row e only column j can land at (n, j), and does exactly when the row's index is n
  by_cases hn : (idx (ix2 e (0 : Fin 1))).toInt = (n.val : Int)
  · rw [if_pos hn, Finset.sum_eq_single j]
    · rw [if_pos ((resultIdx?_eq_some_iff wf idx e j n j).mpr ⟨hn, rfl⟩)]
    · intro c _ hc
      rw [if_neg (fun h => hc ((resultIdx?_eq_some_iff wf idx e c n j).mp h).2)]
    · intro h; exact absurd (Finset.mem_univ j) h
  · rw [if_neg hn]
    refine Finset.sum_eq_zero fun c _ => ?_
    rw [if_neg (fun h => hn ((resultIdx?_eq_some_iff wf idx e c n j).mp h).1)]

end Cert.LibScatterAddRows

end
-- ==== Proof.EdgeSum.lean ====
/-
  A sum over the 20000 x 52 edges, restricted to the edges whose destination word is node 27 i + v, is the sum over the
  local edges e of sample i whose local destination is v: edge 52 i' + e' carries the word 27 i' + loc e', and
  27 i' + loc e' = 27 i + v exactly when i' = i and loc e' = v.
-/
import Mathlib.Algebra.BigOperators.Fin
import Mathlib.Data.EReal.Basic

noncomputable section

namespace Cert.Star

/-- A 32-bit word made from a number below 2^31 reads back, as a signed integer, as that number. -/
private theorem toInt_word (m : Nat) (h : m < 2 ^ 31) : (BitVec.ofNat 32 m).toInt = (m : Int) := by
  have hm : (BitVec.ofNat 32 m).toNat = m := by
    rw [BitVec.toNat_ofNat, Nat.mod_eq_of_lt (by omega)]
  rw [BitVec.toInt_eq_toNat_of_lt (by rw [hm]; omega), hm]

/-- Edge r = 52 (r / 52) + r % 52 carries, read as a signed integer, the number 27 (r / 52) + loc (r % 52). -/
private theorem word_of (w : Fin 1040000 → BitVec 32) (loc : Fin 52 → Fin 27)
    (hw : ∀ (i : Fin 20000) (e : Fin 52),
      w (⟨52 * i.val + e.val, by omega⟩ : Fin 1040000) = BitVec.ofNat 32 (27 * i.val + (loc e).val))
    (r : Fin 1040000) :
    (w r).toInt = ((27 * (r.val / 52) + (loc ⟨r.val % 52, Nat.mod_lt _ (by norm_num)⟩).val : Nat) : Int) := by
  have e : w r = BitVec.ofNat 32 (27 * (r.val / 52) + (loc ⟨r.val % 52, Nat.mod_lt _ (by norm_num)⟩).val) :=
    (congrArg w (Fin.ext (show r.val = 52 * (r.val / 52) + r.val % 52 by omega))).trans
      (hw ⟨r.val / 52, by omega⟩ ⟨r.val % 52, Nat.mod_lt _ (by norm_num)⟩)
  have hl := (loc ⟨r.val % 52, Nat.mod_lt _ (by norm_num)⟩).isLt
  rw [e, toInt_word _ (by omega)]

theorem sum_filter_edges {M : Type} [AddCommMonoid M] (f : Fin 1040000 → M) (w : Fin 1040000 → BitVec 32) (loc : Fin 52 → Fin 27)
    (hw : ∀ (i : Fin 20000) (e : Fin 52), w (⟨52 * i.val + e.val, by omega⟩ : Fin 1040000) = BitVec.ofNat 32 (27 * i.val + (loc e).val))
    (i : Fin 20000) (v : Fin 27) :
    ∑ r ∈ Finset.univ.filter (fun r : Fin 1040000 => (w r).toInt = ((27 * i.val + v.val : Nat) : Int)), f r
      = ∑ e ∈ Finset.univ.filter (fun e : Fin 52 => loc e = v), f (⟨52 * i.val + e.val, by omega⟩ : Fin 1040000) := by
  -- membership in the left-hand set, decoded: the sample is i and the local destination is v
  have key : ∀ r : Fin 1040000, (w r).toInt = ((27 * i.val + v.val : Nat) : Int) →
      r.val / 52 = i.val ∧ loc ⟨r.val % 52, Nat.mod_lt _ (by norm_num)⟩ = v := by
    intro r hr
    rw [word_of w loc hw r] at hr
    have hl := (loc ⟨r.val % 52, Nat.mod_lt _ (by norm_num)⟩).isLt
    have hv := v.isLt
    have hr' : 27 * (r.val / 52) + (loc ⟨r.val % 52, Nat.mod_lt _ (by norm_num)⟩).val = 27 * i.val + v.val := by
      exact_mod_cast hr
    exact ⟨by omega, Fin.ext (by omega)⟩
  symm
  refine Finset.sum_nbij' (fun e : Fin 52 => (⟨52 * i.val + e.val, by omega⟩ : Fin 1040000))
    (fun r : Fin 1040000 => (⟨r.val % 52, Nat.mod_lt _ (by norm_num)⟩ : Fin 52)) ?_ ?_ ?_ ?_ ?_
  · intro e he
    rw [Finset.mem_filter] at he ⊢
    refine ⟨Finset.mem_univ _, ?_⟩
    have hl := (loc e).isLt
    rw [hw i e, toInt_word _ (by omega), he.2]
  · intro r hr
    rw [Finset.mem_filter] at hr ⊢
    exact ⟨Finset.mem_univ _, (key r hr.2).2⟩
  · intro e he
    apply Fin.ext
    show (52 * i.val + e.val) % 52 = e.val
    omega
  · intro r hr
    rw [Finset.mem_filter] at hr
    have h1 := (key r hr.2).1
    apply Fin.ext
    show 52 * i.val + r.val % 52 = r.val
    omega
  · intro e he
    rfl

end Cert.Star

end
-- ==== Proof.RefValue.lean ====
/-
  The reference's result is the pooled form of its arguments.
-/
import proofs.«101747_g12034498363475_cont_main3_758_3_alg».proof.Proof.RefNodeFeat
import proofs.«101747_g12034498363475_cont_main3_758_3_alg».proof.Proof.RefWeights
import proofs.«101747_g12034498363475_cont_main3_758_3_alg».proof.Proof.RefTaken
import proofs.«101747_g12034498363475_cont_main3_758_3_alg».proof.Proof.LibScatterAddRows
import proofs.«101747_g12034498363475_cont_main3_758_3_alg».proof.Proof.EdgeSum
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Star

/-- A list made a column reads, at row r, the list's entry r. -/
private theorem col1_apply {α : Type} (w : S1040000.Idx → α) (r : Fin 1040000) :
    broadcastInDim S1040000x1 ![0] bcast_S1040000_S1040000x1_0 w (ix2 r (0 : Fin 1)) = w (ix1 r) := by
  refine broadcastInDim_apply _ _ _ (ix2 r (0 : Fin 1)) (ix1 r) ?_
  intro a
  match a with
  | ⟨0, _⟩ => rfl

/-- A list repeated along 41 columns reads, at (r, j), the list's entry r. -/
private theorem wcol_apply {α : Type} (w : S1040000.Idx → α) (r : Fin 1040000) (j : Fin 41) :
    broadcastInDim S1040000x41 ![0, 1] bcast_S1040000x1_S1040000x41_0_1
      (broadcastInDim S1040000x1 ![0] bcast_S1040000_S1040000x1_0 w) (ix2 r j) = w (ix1 r) := by
  refine (broadcastInDim_apply _ _ _ (ix2 r j) (ix2 r (0 : Fin 1)) ?_).trans (col1_apply w r)
  intro a
  match a with
  | ⟨0, _⟩ => rfl
  | ⟨1, _⟩ => rfl

/-- The messages read at an index: edge 52 i + e carries its source's row times its weight. -/
theorem msgs_apply (st : FVec Ideal S20000x483 .f32) (nd : FVec Ideal S27x3 .f32) (i : Fin 20000) (e : Fin 52) (j : Fin 41) :
    Stages.msgs (F := Ideal) st nd (ix2 (⟨52 * i.val + e.val, by omega⟩ : Fin 1040000) j)
      = st (ix2 i (col (srcl e) j)) * edgeW nd (dstl e) (srcl e) := by
  have h : Stages.msgs (F := Ideal) st nd = mulf (Stages.taken (Stages.nodeFeat st) Stages.srcIdx)
      (broadcastInDim S1040000x41 ![0, 1] bcast_S1040000x1_S1040000x41_0_1
          (broadcastInDim S1040000x1 ![0] bcast_S1040000_S1040000x1_0 (Stages.wFull (F := Ideal) nd))) := rfl
  rw [h, mulf_apply, wcol_apply, wFull_apply,
    taken_apply (Stages.nodeFeat st) Stages.srcIdx _ ⟨27 * i.val + (srcl e).val, by have := (srcl e).isLt; omega⟩ (srcIdx_apply i e) j,
    nodeFeat_apply]

/-- A scalar word spread over a shape reads, everywhere, the extended real the word encodes. -/
private theorem splat_apply {t : Shape} (h : S_.BroadcastsInDim t (![] : Fin 0 → Fin t.rank)) (w : BitVec 32) (y : t.Idx) :
    broadcastInDim t ![] h (constant (F := Ideal) S_ .f32 w) y = Ideal.ofBits .f32 w :=
  (broadcastInDim_apply _ h _ y ix0 (fun a => a.elim0)).trans (constant_apply (s := S_) (φ := .f32) w ix0)

/-- The reference's scatter is the row-accumulating one. -/
private theorem scatter_eq : scatter_S540000x41_S1040000x1_S1040000x41_1_0_0_1
    = Cert.LibScatterAddRows.rowAddDims 540000 41 1040000 scatter_S540000x41_S1040000x1_S1040000x41_1_0_0_1_wf := rfl

/-- The host's accumulating scatter, at the ideal values, is the exact one. -/
private theorem scatterAdd_host {s si u : Shape} {φ : FTy} {w : Nat} (d : ScatterDims s si u) (x : FVec Ideal s φ) (idx : IVec si w)
    (upd : FVec Ideal u φ) : Host.scatterAdd d x idx upd = Ideal.hostScatterAdd d x idx upd := rfl

/-- What node v of sample i has received, in column j. -/
theorem agg_apply (st : FVec Ideal S20000x483 .f32) (nd : FVec Ideal S27x3 .f32) (i : Fin 20000) (v : Fin 27) (j : Fin 41) :
    Stages.agg (F := Ideal) st nd (ix2 (⟨27 * i.val + v.val, by omega⟩ : Fin 540000) j) = aggAt st nd i v j := by
  have h : Stages.agg (F := Ideal) st nd
      = Host.scatterAdd scatter_S540000x41_S1040000x1_S1040000x41_1_0_0_1
          (broadcastInDim S540000x41 ![] bcast_S_S540000x41 (constant (F := Ideal) S_ .f32 0x00000000#32))
          (broadcastInDim S1040000x1 ![0] bcast_S1040000_S1040000x1_0 Stages.dstIdx)
          (Stages.msgs (F := Ideal) st nd) := rfl
  refine (congrFun (h.trans (scatterAdd_host _ _ _ _)) _).trans ?_
  -- the operand is zero everywhere, so entry (27 i + v, j) is the sum of the messages sent to row 27 i + v
  rw [scatter_eq, Cert.LibScatterAddRows.scatterAdd_rows_apply, splat_apply, Ideal.ofBits_zero_f32, zero_add]
  -- those are the messages of sample i's edges whose local destination is v
  have hsum := Cert.Star.sum_filter_edges (M := EReal) (fun r => Stages.msgs (F := Ideal) st nd (ix2 r j))
    (fun r => Stages.dstIdx (ix1 r)) dstl dstIdx_apply i v
  unfold aggAt
  refine (Finset.sum_congr (Finset.filter_congr fun r _ => ?_) fun _ _ => rfl).trans (hsum.trans ?_)
  · rw [col1_apply]
  · exact Finset.sum_congr rfl fun e _ => msgs_apply st nd i e j

/-- The host's quotient at an index, at the ideal values. -/
private theorem divf_host_apply {s : Shape} {φ : FTy} (a b : FVec Ideal s φ) (y : s.Idx) :
    Host.divf a b y = Ideal.div (a y) (b y) := rfl

/-- The host's sum, at the ideal values, is the exact one from the initial value's element. -/
private theorem reduceAdd_host {s t u : Shape} {φ : FTy} {axes : List (Fin s.rank)} (x : FVec Ideal s φ) (init : u.Idx → Ideal φ)
    (h : s.ReducesTo axes t) (hu : 0 < u.numel) :
    Host.reduceAdd x init h hu = Ideal.hostReduceAdd h x (init (Shape.Idx.first hu)) := rfl

/-- The received rows regrouped by sample read, at (i, k, j), row 27 i + k, column j. -/
private theorem regroup_apply {α : Type} (x : S540000x41.Idx → α) (hR : Shape.Reduces S20000x27x41 [1] S20000x41)
    (i : Fin 20000) (j : Fin 41) (k : Fin 27) :
    shapeCast S20000x27x41 x shapeCasts_S540000x41_S20000x27x41 (hR.lift (ix2 i j) k)
      = x (ix2 (⟨27 * i.val + k.val, by omega⟩ : Fin 540000) j) := by
  refine shapeCast_apply x _ _ _ ?_
  rw [Shape.rowMajor_val_two, Shape.rowMajor_val_three]
  show (27 * i.val + k.val) * 41 + j.val = (i.val * 27 + k.val) * 41 + j.val
  omega

/-- The pooled form at an index. -/
private theorem pooled_apply (st : FVec Ideal S20000x483 .f32) (nd : FVec Ideal S27x3 .f32) (i : Fin 20000) (j : Fin 41) :
    pooled st nd (ix2 i j) = Ideal.div (∑ v : Fin 27, aggAt st nd i v j) (Ideal.ofBits .f32 0x41D80000#32) := rfl

theorem refOut_eq (st : FVec Ideal S20000x483 .f32) (nd : FVec Ideal S27x3 .f32) :
    Stages.refOut (F := Ideal) st nd = pooled st nd := by
  funext y
  obtain ⟨i, j, rfl⟩ : ∃ (i : Fin 20000) (j : Fin 41), y = ix2 i j := ⟨y 0, y 1, eq_ix2 y⟩
  have h : Stages.refOut (F := Ideal) st nd
      = Host.divf (Host.reduceAdd (shapeCast S20000x27x41 (Stages.agg (F := Ideal) st nd) shapeCasts_S540000x41_S20000x27x41)
            (constant (F := Ideal) S_ .f32 0x00000000#32) reducesTo_S20000x27x41_S20000x41_d1 h_S_)
          (broadcastInDim S20000x41 ![] bcast_S_S20000x41 (constant (F := Ideal) S_ .f32 0x41D80000#32)) := rfl
  have hR : Shape.Reduces S20000x27x41 [1] S20000x41 := by decide
  refine (congrFun h _).trans ?_
  -- the quotient of the sum over the 27 nodes, from zero, by the word of 27
  rw [divf_host_apply, reduceAdd_host, Ideal.hostReduceAdd_single _ hR, splat_apply,
    constant_apply (s := S_) (φ := .f32), Ideal.ofBits_zero_f32, zero_add, pooled_apply]
  refine congrArg (fun t => Ideal.div t (Ideal.ofBits .f32 0x41D80000#32)) ?_
  exact Finset.sum_congr rfl fun k _ => (regroup_apply _ hR i j k).trans (agg_apply st nd i k j)

end Cert.ReferenceIdeal.RefValue

end
-- ==== Proof.Algebra.lean ====
/-
  The pooled form and the mixed form are one function when every entry of the state and of the table of directions
  is a real number.

  With real entries every edge weight is the cast of a real number, symmetric in its two nodes, and 27.0 and 2.0 are
  the casts of 27 and 2; so both forms are casts of real expressions. Over the reals the sum over the 52 directed
  edges splits into the 26 edges out of the centre and the 26 edges into it, and the product with the mixing matrix
  collapses onto the columns the nodes show; both are then the same combination of the 26 edge weights.
-/
import proofs.«101747_g12034498363475_cont_main3_758_3_alg».proof.Proof.Spec
import Mathlib.Algebra.BigOperators.Fin
import Mathlib.Tactic.Ring
import Mathlib.Tactic.NormNum

noncomputable section

namespace Cert.Star

open Idealize.ShloMosaic Idealize.ShloMosaic.ValueIdx

/-! ## Casts -/

/-- The cast of a finite sum of reals is the sum of the casts. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word 0x41D80000 is 27. -/
private theorem c27_eq : c27 = ((27 : ℝ) : EReal) := by
  simp [c27, Ideal.ofBits, Ideal.ieee, -EReal.coe_mul]; norm_num

/-- The word 0x40000000 is 2. -/
private theorem c2_eq : c2 = ((2 : ℝ) : EReal) := by
  simp [c2, Ideal.ofBits, Ideal.ieee, -EReal.coe_mul]; norm_num

/-! ## The real twins of the weights -/

private def sqdR (n : Fin 27 → Fin 3 → ℝ) (p q : Fin 27) : ℝ :=
  ∑ d : Fin 3, (n p d - n q d) * (n p d - n q d)

private def edgeWR (n : Fin 27 → Fin 3 → ℝ) (p q : Fin 27) : ℝ := Real.exp (-(Real.sqrt (sqdR n p q)))

private theorem sqdR_nonneg (n : Fin 27 → Fin 3 → ℝ) (p q : Fin 27) : 0 ≤ sqdR n p q :=
  Finset.sum_nonneg (fun d _ => mul_self_nonneg _)

private theorem sqdR_symm (n : Fin 27 → Fin 3 → ℝ) (p q : Fin 27) : sqdR n p q = sqdR n q p :=
  Finset.sum_congr rfl (fun d _ => by ring)

private theorem edgeWR_symm (n : Fin 27 → Fin 3 → ℝ) (p q : Fin 27) : edgeWR n p q = edgeWR n q p := by
  rw [edgeWR, edgeWR, sqdR_symm]

section Coe
variable {nd : SDirs.Idx → EReal} {n : Fin 27 → Fin 3 → ℝ} (hn : ∀ p d, nd (ix2 p d) = (n p d : EReal))
include hn

private theorem sqd_coe (p q : Fin 27) : sqd nd p q = (sqdR n p q : EReal) := by
  rw [sqd, sqdR, coe_sum]
  refine Finset.sum_congr rfl (fun d _ => ?_)
  rw [hn, hn, EReal.coe_mul, EReal.coe_sub]

private theorem edgeW_coe (p q : Fin 27) : edgeW nd p q = (edgeWR n p q : EReal) := by
  rw [edgeW, sqd_coe hn, Ideal.sqrt_coe, if_neg (not_lt.mpr (sqdR_nonneg n p q)), ← EReal.coe_neg, Ideal.exp_coe]
  rfl

end Coe

/-! ## The real twins of the node weights and of the mixing matrix -/

private def nodeWR (n : Fin 27 → Fin 3 → ℝ) (v : Fin 27) : ℝ :=
  (if v.val = 0 then ∑ u : Fin 26, edgeWR n ⟨u.val + 1, by omega⟩ ⟨0, by omega⟩ else edgeWR n v ⟨0, by omega⟩)
    * (1 / 27)

private def mixR (n : Fin 27 → Fin 3 → ℝ) (k : Fin 483) (j : Fin 41) : ℝ :=
  if hk : k.val < 459 then
    (if j.val < 17 ∧ k.val % 17 = (chan j).val then nodeWR n ⟨k.val / 17, by omega⟩ else 0)
  else
    (if 17 ≤ j.val ∧ k.val - 459 = j.val - 17 then 2 * nodeWR n ⟨0, by omega⟩ else 0)

section Coe2
variable {nd : SDirs.Idx → EReal} {n : Fin 27 → Fin 3 → ℝ} (hn : ∀ p d, nd (ix2 p d) = (n p d : EReal))
include hn

private theorem nodeW_coe (v : Fin 27) : nodeW nd v = (nodeWR n v : EReal) := by
  rw [nodeW, nodeWR, c27_eq, Ideal.div_coe (by norm_num), EReal.coe_mul]
  congr 1
  split_ifs
  · rw [coe_sum]; exact Finset.sum_congr rfl (fun u _ => edgeW_coe hn _ _)
  · exact edgeW_coe hn _ _

private theorem mix_coe (k : Fin 483) (j : Fin 41) : mix nd k j = (mixR n k j : EReal) := by
  rw [mix, mixR]
  split_ifs
  · exact nodeW_coe hn _
  · rfl
  · rw [c2_eq, nodeW_coe hn, EReal.coe_mul]
  · rfl

variable {st : SState.Idx → EReal} {s : Fin 20000 → Fin 483 → ℝ} (hs : ∀ i k, st (ix2 i k) = (s i k : EReal))
include hs

/-- The mixed form is the cast of the real product with the real mixing matrix. -/
private theorem mixedAt_coe (i : Fin 20000) (j : Fin 41) :
    mixedAt st nd i j = ((∑ k : Fin 483, s i k * mixR n k j : ℝ) : EReal) := by
  rw [mixedAt, coe_sum]
  refine Finset.sum_congr rfl (fun k _ => ?_)
  rw [hs, mix_coe hn, EReal.coe_mul]

/-- The pooled form is the cast of the real sum over all 52 directed edges, divided by 27. -/
private theorem pooledAt_coe (i : Fin 20000) (j : Fin 41) :
    pooledAt st nd i j
      = (((∑ e : Fin 52, s i (col (srcl e) j) * edgeWR n (dstl e) (srcl e)) * (1 / 27) : ℝ) : EReal) := by
  rw [pooledAt]
  simp only [aggAt]
  rw [Finset.sum_fiberwise, c27_eq, Ideal.div_coe (by norm_num), EReal.coe_mul, coe_sum]
  congr 1
  refine Finset.sum_congr rfl (fun e _ => ?_)
  rw [hs, edgeW_coe hn, EReal.coe_mul]

end Coe2

/-! ## The columns and the edges -/

private theorem chan_lt {j : Fin 41} (h : j.val < 17) : (chan j).val < 17 := by
  unfold chan
  split_ifs <;> (try simp only []) <;> omega

private theorem chan_ge {j : Fin 41} (h : 17 ≤ j.val) : chan j = j := by
  unfold chan
  split_ifs <;> first | rfl | omega

private theorem col_lo {j : Fin 41} (h : j.val < 17) (v : Fin 27) : (col v j).val = 17 * v.val + (chan j).val := by
  rw [col, dif_pos (chan_lt h)]

private theorem col_hi {j : Fin 41} (h : 17 ≤ j.val) (v : Fin 27) : (col v j).val = 459 + (j.val - 17) := by
  have hc : ¬ (chan j).val < 17 := by rw [chan_ge h]; omega
  rw [col, dif_neg hc]
  show 459 + ((chan j).val - 17) = _
  rw [chan_ge h]

private theorem srcl_lo (u : Fin 26) : srcl ⟨u.val, by omega⟩ = ⟨0, by omega⟩ := by
  rw [srcl, dif_pos u.isLt]

private theorem dstl_lo (u : Fin 26) : dstl ⟨u.val, by omega⟩ = ⟨u.val + 1, by omega⟩ := by
  rw [dstl, dif_pos u.isLt]

private theorem srcl_hi (u : Fin 26) : srcl ⟨26 + u.val, by omega⟩ = ⟨u.val + 1, by omega⟩ := by
  rw [srcl, dif_neg (by simp)]
  apply Fin.ext
  simp only []
  omega

private theorem dstl_hi (u : Fin 26) : dstl ⟨26 + u.val, by omega⟩ = ⟨0, by omega⟩ := by
  rw [dstl, dif_neg (by simp)]

/-- The 52 directed edges are the 26 out of the centre and the 26 into it. -/
private theorem sum_edges (f : Fin 52 → ℝ) :
    ∑ e, f e = ∑ u : Fin 26, f ⟨u.val, by omega⟩ + ∑ u : Fin 26, f ⟨26 + u.val, by omega⟩ :=
  Fin.sum_univ_add (a := 26) (b := 26) f

/-- The real pooled sum over the edges, by the 26 outer nodes. -/
private theorem pooled_real (x : Fin 483 → ℝ) (n : Fin 27 → Fin 3 → ℝ) (j : Fin 41) :
    ∑ e : Fin 52, x (col (srcl e) j) * edgeWR n (dstl e) (srcl e)
      = ∑ u : Fin 26, x (col ⟨0, by omega⟩ j) * edgeWR n ⟨u.val + 1, by omega⟩ ⟨0, by omega⟩
        + ∑ u : Fin 26, x (col ⟨u.val + 1, by omega⟩ j) * edgeWR n ⟨u.val + 1, by omega⟩ ⟨0, by omega⟩ := by
  rw [sum_edges]
  refine congrArg₂ (· + ·) (Finset.sum_congr rfl fun u _ => ?_) (Finset.sum_congr rfl fun u _ => ?_)
  · rw [srcl_lo, dstl_lo]
  · rw [srcl_hi, dstl_hi, edgeWR_symm]

/-! ## The product with the mixing matrix, collapsed -/

/-- For j < 17 the nodes show different columns. -/
private theorem col_inj {j : Fin 41} (h : j.val < 17) : Function.Injective (fun v : Fin 27 => col v j) := by
  intro v w hvw
  have e := congrArg Fin.val hvw
  simp only [col_lo h] at e
  exact Fin.ext (by omega)

/-- For j < 17 the matrix holds node v's weight at the column node v shows. -/
private theorem mixR_col_lo {j : Fin 41} (h : j.val < 17) (n : Fin 27 → Fin 3 → ℝ) (v : Fin 27) :
    mixR n (col v j) j = nodeWR n v := by
  have hc := chan_lt h
  have hv := col_lo h v
  have hvl := v.isLt
  rw [mixR, dif_pos (by omega), if_pos ⟨h, by omega⟩]
  congr 1
  apply Fin.ext
  simp only []
  omega

/-- For j < 17 the matrix is zero off the columns the nodes show. -/
private theorem mixR_off_lo {j : Fin 41} (h : j.val < 17) (n : Fin 27 → Fin 3 → ℝ) (k : Fin 483)
    (hk : k ∉ Set.range (fun v : Fin 27 => col v j)) : mixR n k j = 0 := by
  rw [mixR]
  split_ifs with h1 h2 h3
  · exfalso
    apply hk
    refine ⟨⟨k.val / 17, by omega⟩, Fin.ext ?_⟩
    rw [col_lo h]
    simp only []
    omega
  · rfl
  · omega
  · rfl

private theorem mixed_real_lo {j : Fin 41} (h : j.val < 17) (x : Fin 483 → ℝ) (n : Fin 27 → Fin 3 → ℝ) :
    ∑ k : Fin 483, x k * mixR n k j = ∑ v : Fin 27, x (col v j) * nodeWR n v := by
  symm
  refine Fintype.sum_of_injective (fun v : Fin 27 => col v j) (col_inj h) _ _ (fun k hk => ?_) (fun v => ?_)
  · rw [mixR_off_lo h n k hk, mul_zero]
  · show x (col v j) * nodeWR n v = x (col v j) * mixR n (col v j) j
    rw [mixR_col_lo h]

/-- For j >= 17 every node shows the same column. -/
private theorem col_const {j : Fin 41} (h : 17 ≤ j.val) (v : Fin 27) : col v j = col ⟨0, by omega⟩ j :=
  Fin.ext (by rw [col_hi h, col_hi h])

private theorem mixed_real_hi {j : Fin 41} (h : 17 ≤ j.val) (x : Fin 483 → ℝ) (n : Fin 27 → Fin 3 → ℝ) :
    ∑ k : Fin 483, x k * mixR n k j = x (col ⟨0, by omega⟩ j) * (2 * nodeWR n ⟨0, by omega⟩) := by
  have hc := col_hi h ⟨0, by omega⟩
  rw [Finset.sum_eq_single (col ⟨0, by omega⟩ j)]
  · rw [mixR, dif_neg (by omega), if_pos ⟨h, by omega⟩]
  · intro k _ hk
    have hk' : k.val ≠ 459 + (j.val - 17) := fun e => hk (Fin.ext (by rw [hc]; exact e))
    rw [mixR]
    split_ifs with h1 h2 h3
    · omega
    · rw [mul_zero]
    · omega
    · rw [mul_zero]
  · intro hne
    exact absurd (Finset.mem_univ _) hne

/-! ## The two real forms agree -/

private theorem sum_nodes (F : Fin 27 → ℝ) :
    ∑ v, F v = F ⟨0, by omega⟩ + ∑ u : Fin 26, F ⟨u.val + 1, by omega⟩ :=
  Fin.sum_univ_succ F

private theorem comb_lo (a : ℝ) (W y : Fin 26 → ℝ) :
    (∑ u, a * W u + ∑ u, y u * W u) * (1 / 27)
      = a * ((∑ u, W u) * (1 / 27)) + ∑ u, y u * (W u * (1 / 27)) := by
  have e : ∀ u, y u * (W u * (1 / 27)) = (y u * W u) * (1 / 27) := fun u => (mul_assoc _ _ _).symm
  simp only [e, ← Finset.sum_mul, ← Finset.mul_sum]
  ring

private theorem comb_hi (a : ℝ) (W : Fin 26 → ℝ) :
    (∑ u, a * W u + ∑ u, a * W u) * (1 / 27) = a * (2 * ((∑ u, W u) * (1 / 27))) := by
  rw [← Finset.mul_sum]
  ring

private theorem real_main (x : Fin 483 → ℝ) (n : Fin 27 → Fin 3 → ℝ) (j : Fin 41) :
    (∑ e : Fin 52, x (col (srcl e) j) * edgeWR n (dstl e) (srcl e)) * (1 / 27)
      = ∑ k : Fin 483, x k * mixR n k j := by
  have h0 : nodeWR n ⟨0, by omega⟩
      = (∑ u : Fin 26, edgeWR n ⟨u.val + 1, by omega⟩ ⟨0, by omega⟩) * (1 / 27) := by
    rw [nodeWR, if_pos rfl]
  rw [pooled_real]
  by_cases h : j.val < 17
  · have hS : ∀ u : Fin 26, nodeWR n ⟨u.val + 1, by omega⟩
        = edgeWR n ⟨u.val + 1, by omega⟩ ⟨0, by omega⟩ * (1 / 27) := by
      intro u
      rw [nodeWR, if_neg (by simp)]
    rw [mixed_real_lo h, sum_nodes]
    simp only [h0, hS]
    exact comb_lo _ _ _
  · have h' : 17 ≤ j.val := by omega
    have hy : ∀ u : Fin 26, x (col ⟨u.val + 1, by omega⟩ j) = x (col ⟨0, by omega⟩ j) :=
      fun u => by rw [col_const h']
    rw [mixed_real_hi h']
    simp only [hy, h0]
    exact comb_hi _ _

/-- For real inputs the mean over the nodes of the received messages is the product with the mixing matrix. -/
theorem pooled_eq_mixed (st : SState.Idx → EReal) (nd : SDirs.Idx → EReal)
    (hst : ∃ s : Fin 20000 → Fin 483 → ℝ, ∀ i k, st (ix2 i k) = (s i k : EReal))
    (hnd : ∃ n : Fin 27 → Fin 3 → ℝ, ∀ p d, nd (ix2 p d) = (n p d : EReal)) :
    pooled st nd = mixed st nd := by
  obtain ⟨s, hs⟩ := hst
  obtain ⟨n, hn⟩ := hnd
  funext y
  obtain ⟨p, q, rfl⟩ : ∃ (p : Fin 20000) (q : Fin 41), y = ix2 p q := ⟨y 0, y 1, eq_ix2 y⟩
  show pooledAt st nd p q = mixedAt st nd p q
  rw [pooledAt_coe hn hs, mixedAt_coe hn hs, real_main]

end Cert.Star

end
-- ==== Proof.Finite.lean ====
/-
  Under the precondition every entry of both inputs is a real number.
-/
import proofs.«101747_g12034498363475_cont_main3_758_3_alg».proof.Pre_finite_inputs
import proofs.«101747_g12034498363475_cont_main3_758_3_alg».proof.Proof.Gen.Pre_finite_inputs
import Idealize.ShloMosaic.PureOps.Ideal
import Idealize.ShloMosaic.Lib.ValueIdx
import Idealize.ShloMosaic.Lib.ReduceAll

noncomputable section

namespace Cert.Star.Finite

open Idealize.ShloMosaic Idealize.ShloMosaic.ValueIdx

/-- An entry whose absolute value lies strictly below +inf is the cast of a real. -/
private theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  obtain ⟨h1, h2⟩ := hlt
  induction x using EReal.rec with
  | bot => simp at h2
  | top => simp at h1
  | coe r => exact ⟨r, rfl⟩

/-- All entries below +inf in absolute value: each is the cast of a real. -/
theorem reals_of_pre (st : FVec Ideal Cert.Pre_finite_inputs.S20000x483 .f32) (nd : FVec Ideal Cert.Pre_finite_inputs.S27x3 .f32)
    (h : Cert.Pre_finite_inputs.fn (F := Ideal) st nd = fun _ => 1#1) :
    (∃ s : Fin 20000 → Fin 483 → ℝ, ∀ i k, st (ix2 i k) = (s i k : EReal))
    ∧ (∃ n : Fin 27 → Fin 3 → ℝ, ∀ p d, nd (ix2 p d) = (n p d : EReal)) := by
  have h0 := congrFun h ValueIdx.ix0
  dsimp only [Cert.Pre_finite_inputs.fn] at h0
  obtain ⟨h1, h2⟩ := IntOp.andi_eq_one.1 h0
  haveI : Subsingleton Cert.Pre_finite_inputs.S_.Idx := ⟨fun a b => funext fun d => d.elim0⟩
  have e1 := Host.reduce_andi_all _ _ _ _ _ h1
  have e2 := Host.reduce_andi_all _ _ _ _ _ h2
  refine ⟨?_, ?_⟩
  · have hr : ∀ i k, ∃ r : ℝ, st (ix2 i k) = (r : EReal) := fun i k => real_of_abs_lt_inf _ (e1 (ix2 i k))
    choose s hs using hr
    exact ⟨s, hs⟩
  · have hr : ∀ p d, ∃ r : ℝ, nd (ix2 p d) = (r : EReal) := fun p d => real_of_abs_lt_inf _ (e2 (ix2 p d))
    choose n hn using hr
    exact ⟨n, hn⟩

end Cert.Star.Finite

end
-- ==== Proof.lean ====
/-
  The certificate: a Pallas kernel that multiplies the 20000 x 483 state by a sparse 483 x 41 matrix of node weights,
  against a reference that builds, for every sample, a star graph on 27 nodes, gathers the source features along its 52
  directed edges, weighs them by exp(-|direction difference|), adds them into their destinations and averages over the
  nodes.

  Over the extended reals the kernel's output is the mixed form of its arguments (the product with the mixing matrix)
  and the reference's the pooled form (the mean of the received messages); for real inputs, which the precondition
  gives, the two are one function: the graph is the same for every sample, so pooling is linear in the state row with
  fixed coefficients, and those coefficients are the matrix's entries.

  The three frames: the kernel's two are the generated frame certificates; the reference has no kernel, and its frame is
  its run with the result dropped. The idealization rewrote nothing, so there is nothing to preserve.
-/
import proofs.«101747_g12034498363475_cont_main3_758_3_alg».proof.Defs
import proofs.«101747_g12034498363475_cont_main3_758_3_alg».proof.Proof.Gen.Kernel
import proofs.«101747_g12034498363475_cont_main3_758_3_alg».proof.Proof.Gen.Kernel.Skeleton
import proofs.«101747_g12034498363475_cont_main3_758_3_alg».proof.Proof.Gen.Kernel.Launch
import proofs.«101747_g12034498363475_cont_main3_758_3_alg».proof.Proof.Gen.Kernel.Points
import proofs.«101747_g12034498363475_cont_main3_758_3_alg».proof.Proof.Gen.Kernel.Frame
import proofs.«101747_g12034498363475_cont_main3_758_3_alg».proof.Proof.Gen.KernelIdeal
import proofs.«101747_g12034498363475_cont_main3_758_3_alg».proof.Proof.Gen.KernelIdeal.Skeleton
import proofs.«101747_g12034498363475_cont_main3_758_3_alg».proof.Proof.Gen.KernelIdeal.Launch
import proofs.«101747_g12034498363475_cont_main3_758_3_alg».proof.Proof.Gen.KernelIdeal.Points
import proofs.«101747_g12034498363475_cont_main3_758_3_alg».proof.Proof.Gen.KernelIdeal.Frame
import proofs.«101747_g12034498363475_cont_main3_758_3_alg».proof.Proof.Gen.ReferenceIdeal
import proofs.«101747_g12034498363475_cont_main3_758_3_alg».proof.Proof.Gen.Pre_finite_inputs
import proofs.«101747_g12034498363475_cont_main3_758_3_alg».proof.Proof.KernelValue
import proofs.«101747_g12034498363475_cont_main3_758_3_alg».proof.Proof.RefRun
import proofs.«101747_g12034498363475_cont_main3_758_3_alg».proof.Proof.RefValue
import proofs.«101747_g12034498363475_cont_main3_758_3_alg».proof.Proof.Algebra
import proofs.«101747_g12034498363475_cont_main3_758_3_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the mixed form of the kernel's arguments: the kernel by its run, the reference because its run
    ends at the pooled form of arguments that agree with the kernel's, and pooled = mixed on real inputs. -/
theorem algebraic : Cert.algebraic_KernelIdeal_ReferenceIdeal := by
  intro m ρ m' ρ' hpre hagree
  refine ⟨fun c => Cert.Star.mixed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2, Cert.ReferenceIdeal.RefValue.refOut_eq]
  have hreal := Cert.Star.Finite.reals_of_pre _ _ (hpre c)
  exact Cert.Star.pooled_eq_mixed _ _ hreal.1 hreal.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
